-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "inv_sqrt_hd" .f32 0x3E3504F3#32 ((2097152 / 11863283 : ℝ) : EReal)
  ∧ IdealRules.named_const.Statement Cert.KernelIdeal.κ "inv_sqrt_hd" .f32 0x3E3504F3#32 ((2097152 / 11863283 : ℝ) : EReal)
  ∧ IdealRules.named_const.Statement Cert.KernelIdeal.κ "inv_sqrt_hd" .f32 0x3E3504F3#32 ((2097152 / 11863283 : ℝ) : EReal)
  ∧ IdealRules.named_const.Statement Cert.KernelIdeal.κ "inv_sqrt_hd" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 0#32
  let main_v74 : IVec S2x800000 32 := broadcastInDim S2x800000 ![] bcast_S_S2x800000 main_c_28
  let main_v75 : IVec S2x800000 1 := cmpi .sge main_arg1 main_v74
  let main_c_29 : IVec S_ 32 := constantI S_ 32 50000#32
  let main_v76 : IVec S2x800000 32 := broadcastInDim S2x800000 ![] bcast_S_S2x800000 main_c_29
  let main_v77 : IVec S2x800000 1 := cmpi .slt main_arg1 main_v76
  let main_v78 : IVec S2x800000 1 := andi main_v75 main_v77
  let main_c_30 : IVec S_ 1 := constantI S_ 1 1#1
  let main_v79 : IVec S_ 1 := (fun x v => Host.reduce IntOp.andi x v reducesTo_S2x800000_S_d0_1 h_S_) main_v78 main_c_30
  let main_v80 : IVec S_ 1 := andi main_v73 main_v79
  main_v80

def fn_part3 {F : FTy → Type} [FloatOps F] (main_arg1 : IVec S2x800000 32) (main_arg12 : FVec F S128x128 .f32) (main_arg13 : FVec F S128 .f32) (main_arg14 : FVec F S128 .f32) (main_arg15 : FVec F S128 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg1 main_arg15 main_v63 main_v67

def fn_part2 {F : FTy → Type} [FloatOps F] (main_arg1 : IVec S2x800000 32) (main_arg8 : FVec F S128x128 .f32) (main_arg9 : FVec F S128 .f32) (main_arg10 : FVec F S128x4 .f32) (main_arg11 : FVec F S4 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg10
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_arg1 main_arg12 main_arg13 main_arg14 main_arg15 main_v48 main_v49 main_v50

def fn_part1 {F : FTy → Type} [FloatOps F] (main_arg1 : IVec S2x800000 32) (main_arg5 : FVec F S128 .f32) (main_arg6 : FVec F S64x128 .f32) (main_arg7 : FVec F S128 .f32) (main_arg8 : FVec F S128x128 .f32) (main_arg9 : FVec F S128 .f32) (main_arg10 : FVec F S128x4 .f32) (main_arg11 : FVec F S4 .f32) (main_arg12 : FVec F S128x128 .f32) (main_arg13 : FVec F S128 .f32) (main_arg14 : FVec F S128 .f32) (main_arg15 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128 .f32) (main_arg6 : FVec F S64x128 .f32) (main_arg7 : FVec F S128 .f32) (main_arg8 : FVec F S128x128 .f32) (main_arg9 : FVec F S128 .f32) (main_arg10 : FVec F S128x4 .f32) (main_arg11 : FVec F S4 .f32) (main_arg12 : FVec F S128x128 .f32) (main_arg13 : FVec F S128 .f32) (main_arg14 : FVec F S128 .f32) (main_arg15 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S50000x128 : Shape := ⟨2, ![50000, 128]⟩
abbrev S25000x64 : Shape := ⟨2, ![25000, 64]⟩
abbrev S25000x128 : Shape := ⟨2, ![25000, 128]⟩
abbrev S1x128 : Shape := ⟨2, ![1, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S4x800000 : Shape := ⟨2, ![4, 800000]⟩
abbrev S6400x64 : Shape := ⟨2, ![6400, 64]⟩
abbrev S4x6400 : Shape := ⟨2, ![4, 6400]⟩
abbrev S6400x128 : Shape := ⟨2, ![6400, 128]⟩
abbrev S6400x4 : Shape := ⟨2, ![6400, 4]⟩
abbrev S1x4 : Shape := ⟨2, ![1, 4]⟩
abbrev S6400x32 : Shape := ⟨2, ![6400, 32]⟩
abbrev S6400 : Shape := ⟨1, ![6400]⟩
abbrev S6400x1 : Shape := ⟨2, ![6400, 1]⟩
abbrev S1x6400 : Shape := ⟨2, ![1, 6400]⟩
abbrev S4x1 : Shape := ⟨2, ![4, 1]⟩
abbrev S800000x128 : Shape := ⟨2, ![800000, 128]⟩
abbrev S4x32 : Shape := ⟨2, ![4, 32]⟩
abbrev S25000 : Shape := ⟨1, ![25000]⟩
abbrev S25000x1 : Shape := ⟨2, ![25000, 1]⟩

abbrev nBuf : Space → Nat
  | .hbm => 112
  | .vmem => 35
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x4, .f32⟩
  | .hbm, ⟨11, _⟩ => ⟨S4, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x64, .f32⟩
  | .hbm, ⟨40, _⟩ => ⟨S800000x64, .i1⟩
  | .hbm, ⟨41, _⟩ => ⟨S_, .f32⟩
  | .hbm, ⟨42, _⟩ => ⟨S800000x64, .f32⟩
  | .hbm, ⟨43, _⟩ => ⟨S800000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x64, .f32⟩
  | .hbm, ⟨63, _⟩ => ⟨S800000x64, .i1⟩
  | .hbm, ⟨64, _⟩ => ⟨S_, .f32⟩
  | .hbm, ⟨65, _⟩ => ⟨S800000x64, .f32⟩
  | .hbm, ⟨66, _⟩ => ⟨S800000x64, .f32⟩
  | .hbm, ⟨67, _⟩ => ⟨S4x800000, .f32⟩
  | .hbm, ⟨68, _⟩ => ⟨S_, .f32⟩
  | .hbm, ⟨69, _⟩ => ⟨S4, .f32⟩
  | .hbm, ⟨70, _⟩ => ⟨S4x1, .f32⟩
  | .hbm, ⟨71, _⟩ => ⟨S4x800000, .f32⟩
  | .hbm, ⟨72, _⟩ => ⟨S4x800000, .f32⟩
  | .hbm, ⟨73, _⟩ => ⟨S4x800000, .f32⟩
  | .hbm, ⟨74, _⟩ => ⟨S_, .f32⟩
  | .hbm, ⟨75, _⟩ => ⟨S4, .f32⟩
  | .hbm, ⟨76, _⟩ => ⟨S4x1, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S1, .i32⟩
  | .hbm, ⟨86, _⟩ => ⟨S_, .i32⟩
  | .hbm, ⟨87, _⟩ => ⟨S800000x1, .i32⟩
  | .hbm, ⟨88, _⟩ => ⟨S800000x1, .i1⟩
  | .hbm, ⟨89, _⟩ => ⟨S1x1, .i32⟩
  | .hbm, ⟨90, _⟩ => ⟨S800000x1, .i32⟩
  | .hbm, ⟨91, _⟩ => ⟨S800000x1, .i1⟩
  | .hbm, ⟨92, _⟩ => ⟨S800000x1, .i1⟩
  | .hbm, ⟨93, _⟩ => ⟨S_, .i1⟩
  | .hbm, ⟨94, _⟩ => ⟨S800000, .i1⟩
  | .hbm, ⟨95, _⟩ => ⟨S800000x128, .f32⟩
  | .hbm, ⟨96, _⟩ => ⟨S800000x128, .i1⟩
  | .hbm, ⟨97, _⟩ => ⟨S_, .f32⟩
  | .hbm, ⟨98, _⟩ => ⟨S800000x128, .f32⟩
  | .hbm, ⟨99, _⟩ => ⟨S800000x128, .f32⟩
  | .hbm, ⟨100, _⟩ => ⟨S800000x128, .f32⟩
  | .hbm, ⟨101, _⟩ => ⟨S_, .f32⟩
  | .hbm, ⟨102, _⟩ => ⟨S50000x128, .f32⟩
  | .hbm, ⟨103, _⟩ => ⟨S800000x1, .i32⟩
  | .hbm, ⟨104, _⟩ => ⟨S50000x128, .f32⟩
  | .hbm, ⟨105, _⟩ => ⟨S4, .f32⟩
  | .hbm, ⟨106, _⟩ => ⟨S_, .f32⟩
  | .hbm, ⟨107, _⟩ => ⟨S4, .f32⟩
  | .hbm, ⟨108, _⟩ => ⟨S4, .f32⟩
  | .hbm, ⟨109, _⟩ => ⟨S4x32, .f32⟩
  | .hbm, ⟨110, _⟩ => ⟨S128, .f32⟩
  | .hbm, ⟨111, _⟩ => ⟨S50000x128, .f32⟩
  | .local _ .vmem, ⟨0, _⟩ => ⟨S25000x64, .f32⟩
  | .local _ .vmem, ⟨1, _⟩ => ⟨S25000x64, .f32⟩
  | .local _ .vmem, ⟨2, _⟩ => ⟨S64x128, .f32⟩
  | .local _ .vmem, ⟨3, _⟩ => ⟨S128, .f32⟩
  | .local _ .vmem, ⟨4, _⟩ => ⟨S25000x128, .f32⟩
  | .local _ .vmem, ⟨5, _⟩ => ⟨S25000x128, .f32⟩
  | .local _ .vmem, ⟨6, _⟩ => ⟨S6400x64, .f32⟩
  | .local _ .vmem, ⟨7, _⟩ => ⟨S6400x64, .f32⟩
  | .local _ .vmem, ⟨8, _⟩ => ⟨S6400x64, .f32⟩
  | .local _ .vmem, ⟨9, _⟩ => ⟨S6400x64, .f32⟩
  | .local _ .vmem, ⟨10, _⟩ => ⟨S64x128, .f32⟩
  | .local _ .vmem, ⟨11, _⟩ => ⟨S128, .f32⟩
  | .local _ .vmem, ⟨12, _⟩ => ⟨S64x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S128x4, .f32⟩
  | .local _ .vmem, ⟨17, _⟩ => ⟨S4, .f32⟩
  | .local _ .vmem, ⟨18, _⟩ => ⟨S4x6400, .f32⟩
  | .local _ .vmem, ⟨19, _⟩ => ⟨S4x6400, .f32⟩
  | .local _ .vmem, ⟨20, _⟩ => ⟨S6400x128, .f32⟩
  | .local _ .vmem, ⟨21, _⟩ => ⟨S6400x128, .f32⟩
  | .local _ .vmem, ⟨22, _⟩ => ⟨S4x6400, .f32⟩
  | .local _ .vmem, ⟨23, _⟩ => ⟨S4x6400, .f32⟩
  | .local _ .vmem, ⟨24, _⟩ => ⟨S6400x128, .f32⟩
  | .local _ .vmem, ⟨25, _⟩ => ⟨S6400x128, .f32⟩
  | .local _ .vmem, ⟨26, _⟩ => ⟨S25000x128, .f32⟩
  | .local _ .vmem, ⟨27, _⟩ => ⟨S25000x128, .f32⟩
  | .local _ .vmem, ⟨28, _⟩ => ⟨S128, .f32⟩
  | .local _ .vmem, ⟨29, _⟩ => ⟨S128x128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S25000x128, .f32⟩
  | .local _ .vmem, ⟨34, _⟩ => ⟨S25000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v5 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v6 : Ref sig .tc := ⟨.hbm, 66, rfl⟩
abbrev main_v7 : Ref sig .tc := ⟨.hbm, 67, rfl⟩
abbrev main_cst : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_cst_0 : Ref sig .tc := ⟨.hbm, 74, rfl⟩
abbrev main_v13 : Ref sig .tc := ⟨.hbm, 75, rfl⟩
abbrev main_v14 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_v14 : Ref sig .tc := ⟨.hbm, 96, rfl⟩
abbrev main_call2_cst : Ref sig .tc := ⟨.hbm, 97, rfl⟩
abbrev main_call2_v15 : Ref sig .tc := ⟨.hbm, 98, rfl⟩
abbrev main_v15 : Ref sig .tc := ⟨.hbm, 99, rfl⟩
abbrev main_v16 : Ref sig .tc := ⟨.hbm, 100, rfl⟩
abbrev main_cst_1 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_cst_2 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x4 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S4x6400 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x6400 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S25000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S25000x64_S25000x64_0_0 : ∀ a, (![0, 0] : Fin 2 → Nat) a + S25000x64.size a ≤ S25000x64.size a
  h_S25000x64 : 0 < S25000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S25000x128 : S1x128.Broadcasts S25000x128
  inb_S25000x128_S25000x128_0_0 : ∀ a, (![0, 0] : Fin 2 → Nat) a + S25000x128.size a ≤ S25000x128.size a
  h_S25000x128 : 0 < S25000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  broadcasts_S1x128_S6400x128 : S1x128.Broadcasts S6400x128
  concatenates_S6400x64_S6400x64_S6400x128_d1 : Shape.Concatenates [S6400x64, S6400x64] S6400x128 1
  inb_S128x128_S128x128_0_0 : ∀ a, (![0, 0] : Fin 2 → Nat) a + S128x128.size a ≤ S128x128.size a
  h_S128x128 : 0 < S128x128.numel
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S1x4 : S4.ShapeCasts S1x4
  broadcasts_S1x4_S6400x4 : S1x4.Broadcasts S6400x4
  slices_S6400x128_o0_0_S6400x32 : S6400x128.Slices ![0, 0] S6400x32
  reduces_S6400x32_S6400 : S6400x32.Reduces [1] S6400
  slices_S6400x4_o0_0_S6400x1 : S6400x4.Slices ![0, 0] S6400x1
  shapeCasts_S6400x1_S6400 : S6400x1.ShapeCasts S6400
  inb_S4x6400_S1x6400_0_0 : ∀ a, (![0, 0] : Fin 2 → Nat) a + S1x6400.size a ≤ S4x6400.size a
  h_S1x6400 : 0 < S1x6400.numel
  shapeCasts_S1x6400_S6400 : S1x6400.ShapeCasts S6400
  shapeCasts_S6400_S1x6400 : S6400.ShapeCasts S1x6400
  slices_S6400x128_o0_32_S6400x32 : S6400x128.Slices ![0, 32] S6400x32
  slices_S6400x4_o0_1_S6400x1 : S6400x4.Slices ![0, 1] S6400x1
  inb_S4x6400_S1x6400_1_0 : ∀ a, (![1, 0] : Fin 2 → Nat) a + S1x6400.size a ≤ S4x6400.size a
  slices_S6400x128_o0_64_S6400x32 : S6400x128.Slices ![0, 64] S6400x32
  slices_S6400x4_o0_2_S6400x1 : S6400x4.Slices ![0, 2] S6400x1
  inb_S4x6400_S1x6400_2_0 : ∀ a, (![2, 0] : Fin 2 → Nat) a + S1x6400.size a ≤ S4x6400.size a
  slices_S6400x128_o0_96_S6400x32 : S6400x128.Slices ![0, 96] S6400x32
  slices_S6400x4_o0_3_S6400x1 : S6400x4.Slices ![0, 3] S6400x1
  inb_S4x6400_S1x6400_3_0 : ∀ a, (![3, 0] : Fin 2 → Nat) a + S1x6400.size a ≤ S4x6400.size a
  reducesTo_S4x800000_S4_d1 : S4x800000.ReducesTo [1] S4
  bcast_S4_S4x1_0 : S4.BroadcastsInDim S4x1 (![0] : Fin 1 → Fin S4x1.rank)
  bcast_S4x1_S4x800000_0_1 : S4x1.BroadcastsInDim S4x800000 (![0, 1] : Fin 2 → Fin S4x800000.rank)
  bcast_S800000_S800000x128_0 : S800000.BroadcastsInDim S800000x128 (![0] : Fin 1 → Fin S800000x128.rank)
  bcast_S_S800000x128 : S_.BroadcastsInDim S800000x128 (![] : Fin 0 → Fin S800000x128.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S4x6400_S4x6400_0_0 : ∀ a, (![0, 0] : Fin 2 → Nat) a + S4x6400.size a ≤ S4x6400.size a
  h_S4x6400 : 0 < S4x6400.numel
  shapeCasts_S4x6400_S4x6400 : S4x6400.ShapeCasts S4x6400
  transposes_S4x6400_p1_0_S6400x4 : S4x6400.Transposes [1, 0] S6400x4
  broadcasts_S6400x1_S6400x32 : S6400x1.Broadcasts S6400x32
  inb_S6400x128_S6400x32_0_0 : ∀ a, (![0, 0] : Fin 2 → Nat) a + S6400x32.size a ≤ S6400x128.size a
  h_S6400x32 : 0 < S6400x32.numel
  inb_S6400x128_S6400x32_0_32 : ∀ a, (![0, 32] : Fin 2 → Nat) a + S6400x32.size a ≤ S6400x128.size a
  inb_S6400x128_S6400x32_0_64 : ∀ a, (![0, 64] : Fin 2 → Nat) a + S6400x32.size a ≤ S6400x128.size a
  inb_S6400x128_S6400x32_0_96 : ∀ a, (![0, 96] : Fin 2 → Nat) a + S6400x32.size a ≤ S6400x128.size a
  bcast_S_S50000x128 : S_.BroadcastsInDim S50000x128 (![] : Fin 0 → Fin S50000x128.rank)
  shapeCasts_S4x1_S4 : S4x1.ShapeCasts S4
  bcast_S_S4 : S_.BroadcastsInDim S4 (![] : Fin 0 → Fin S4.rank)
  bcast_S4_S4x32_0 : S4.BroadcastsInDim S4x32 (![0] : Fin 1 → Fin S4x32.rank)
  shapeCasts_S4x32_S128 : S4x32.ShapeCasts S128
  shapeCasts_S25000x128_S25000x128 : S25000x128.ShapeCasts S25000x128
  shapeCasts_S128_S128 : S128.ShapeCasts S128
  reduces_S25000x128_S25000 : S25000x128.Reduces [1] S25000
  shapeCasts_S25000_S25000x1 : S25000.ShapeCasts S25000x1
  broadcasts_S25000x1_S25000x128 : S25000x1.Broadcasts S25000x128
  dot_S25000x64_S64x128_S25000x128_1_0_0_1_n_n_wf : DotDims.WF S25000x64 S64x128 S25000x128 [1] [0] [0] [1] [] []
  gather_S50000x64_S800000x1_S800000x64_1_0_n_n_0_1_164_wf : GatherDims.WF S50000x64 S800000x1 S800000x64 [1] [0] [] [0] [] 1 ![1, 64]
  dot_S6400x64_S64x128_S6400x128_1_0_0_1_n_n_wf : DotDims.WF S6400x64 S64x128 S6400x128 [1] [0] [0] [1] [] []
  dot_S6400x128_S128x128_S6400x128_1_0_0_1_n_n_wf : DotDims.WF S6400x128 S128x128 S6400x128 [1] [0] [0] [1] [] []
  dot_S6400x128_S128x4_S6400x4_1_0_0_1_n_n_wf : DotDims.WF S6400x128 S128x4 S6400x4 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S25000x128_S128x128_S25000x128_1_0_0_1_n_n_wf : DotDims.WF S25000x128 S128x128 S25000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x64.size a ≤ S50000x64.size a
  hwx0_0 : ∀ i : grid0.Coords, EltTy.bits .f32 = 32 ∨ (Rect.block (s := S50000x64) S25000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S25000x128.size a ≤ S50000x128.size a
  hwx0_3 : ∀ i : grid0.Coords, EltTy.bits .f32 = 32 ∨ (Rect.block (s := S50000x128) S25000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S800000x64.size a
  hwx1_0 : ∀ i : grid1.Coords, EltTy.bits .f32 = 32 ∨ (Rect.block (s := S800000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S800000x64.size a
  hwx1_1 : ∀ i : grid1.Coords, EltTy.bits .f32 = 32 ∨ (Rect.block (s := S800000x64) S6400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x4.size a ≤ S128x4.size a
  hwx1_8 : ∀ i : grid1.Coords, EltTy.bits .f32 = 32 ∨ (Rect.block (s := S128x4) S128x4.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4.size a ≤ S4.size a
  hwx1_9 : ∀ i : grid1.Coords, EltTy.bits .f32 = 32 ∨ (Rect.block (s := S4) S4.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4x6400.size a ≤ S4x800000.size a
  hwx1_10 : ∀ i : grid1.Coords, EltTy.bits .f32 = 32 ∨ (Rect.block (s := S4x800000) S4x6400.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .f32 = 32 ∨ (Rect.block (s := S800000x128) S6400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x6400.size a ≤ S4x800000.size a
  hwx2_1 : ∀ i : grid2.Coords, EltTy.bits .f32 = 32 ∨ (Rect.block (s := S4x800000) S4x6400.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x128.size a ≤ S800000x128.size a
  hwx2_2 : ∀ i : grid2.Coords, EltTy.bits .f32 = 32 ∨ (Rect.block (s := S800000x128) S6400x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x128.size a ≤ S50000x128.size a
  hwx3_0 : ∀ i : grid3.Coords, EltTy.bits .f32 = 32 ∨ (Rect.block (s := S50000x128) S25000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S25000x128.size a ≤ S50000x128.size a
  hwx3_6 : ∀ i : grid3.Coords, EltTy.bits .f32 = 32 ∨ (Rect.block (s := S50000x128) S25000x128.size (cc3_transform_6 i) (hinb3_6 i)).WholeWords (EltTy.packing .f32)

variable [Facts₀]

def dot_S25000x64_S64x128_S25000x128_1_0_0_1_n_n : DotDims S25000x64 S64x128 S25000x128 where
  lhsContracting := [1]
  rhsContracting := [0]
  lhsNonContracting := [0]
  rhsNonContracting := [1]
  lhsBatch := []
  rhsBatch := []
  wf := dot_S25000x64_S64x128_S25000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x4_S6400x4_1_0_0_1_n_n : DotDims S6400x128 S128x4 S6400x4 where
  lhsContracting := [1]
  rhsContracting := [0]
  lhsNonContracting := [0]
  rhsNonContracting := [1]
  lhsBatch := []
  rhsBatch := []
  wf := dot_S6400x128_S128x4_S6400x4_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf

abbrev win0_0 : Pipeline.Window sig grid0 :=
  Pipeline.Window.ofSpec (Memref.whole main_arg0) S25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S25000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x4.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg11) S4.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S4x6400.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v15) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4x6400.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S6400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S25000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v25) S25000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S50000x128 : Shape := ⟨2, ![50000, 128]⟩
abbrev S1x128 : Shape := ⟨2, ![1, 128]⟩
abbrev S50000x4x32 : Shape := ⟨3, ![50000, 4, 32]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S800000x4 : Shape := ⟨2, ![800000, 4]⟩
abbrev S1x4 : Shape := ⟨2, ![1, 4]⟩
abbrev S800000x4x1 : Shape := ⟨3, ![800000, 4, 1]⟩
abbrev S800000x4x32 : Shape := ⟨3, ![800000, 4, 32]⟩
abbrev S4x1 : Shape := ⟨2, ![4, 1]⟩
abbrev S1x4x1 : Shape := ⟨3, ![1, 4, 1]⟩
abbrev S50000 : Shape := ⟨1, ![50000]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x64, .f32⟩
  | 1 => ⟨S2x800000, .i32⟩
  | 2 => ⟨S64x128, .f32⟩
  | 3 => ⟨S128, .f32⟩
  | 4 => ⟨S64x128, .f32⟩
  | 5 => ⟨S128, .f32⟩
  | 6 => ⟨S64x128, .f32⟩
  | 7 => ⟨S128, .f32⟩
  | 8 => ⟨S128x128, .f32⟩
  | 9 => ⟨S128, .f32⟩
  | 10 => ⟨S128x4, .f32⟩
  | 11 => ⟨S4, .f32⟩
  | 12 => ⟨S128x128, .f32⟩
  | 13 => ⟨S128, .f32⟩
  | 14 => ⟨S128, .f32⟩
  | 15 => ⟨S128, .f32⟩
  | 16 => ⟨S50000x128, .f32⟩
  | 17 => ⟨S1x128, .f32⟩
  | 18 => ⟨S50000x128, .f32⟩
  | 19 => ⟨S50000x128, .f32⟩
  | 20 => ⟨S50000x4x32, .f32⟩
  | 21 => ⟨S50000x128, .f32⟩
  | 22 => ⟨S1x128, .f32⟩
  | 23 => ⟨S50000x128, .f32⟩
  | 24 => ⟨S50000x128, .f32⟩
  | 25 => ⟨S50000x4x32, .f32⟩
  | 26 => ⟨S50000x128, .f32⟩
  | 27 => ⟨S1x128, .f32⟩
  | 28 => ⟨S50000x128, .f32⟩
  | 29 => ⟨S50000x128, .f32⟩
  | 30 => ⟨S50000x4x32, .f32⟩
  | 31 => ⟨S1x800000, .i32⟩
  | 32 => ⟨S800000, .i32⟩
  | 33 => ⟨S1x800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x128, .f32⟩
  | 54 => ⟨S800000x128, .f32⟩
  | 55 => ⟨S1x128, .f32⟩
  | 56 => ⟨S800000x128, .f32⟩
  | 57 => ⟨S800000x128, .f32⟩
  | 58 => ⟨S_, .f32⟩
  | 59 => ⟨S800000x128, .f32⟩
  | 60 => ⟨S800000x128, .f32⟩
  | 61 => ⟨S800000x4, .f32⟩
  | 62 => ⟨S1x4, .f32⟩
  | 63 => ⟨S800000x4, .f32⟩
  | 64 => ⟨S800000x4, .f32⟩
  | 65 => ⟨S800000x4x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x4x32, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x4x32, .f32⟩
  | 84 => ⟨S800000x4x32, .f32⟩
  | 85 => ⟨S_, .f32⟩
  | 86 => ⟨S800000x4, .f32⟩
  | 87 => ⟨S800000x4x1, .f32⟩
  | 88 => ⟨S800000x4x1, .f32⟩
  | 89 => ⟨S_, .f32⟩
  | 90 => ⟨S800000x4x1, .f32⟩
  | 91 => ⟨S800000x4x1, .f32⟩
  | 92 => ⟨S_, .f32⟩
  | 93 => ⟨S4x1, .f32⟩
  | 94 => ⟨S_, .f32⟩
  | 95 => ⟨S4x1, .f32⟩
  | 96 => ⟨S4x1, .f32⟩
  | 97 => ⟨S1x4x1, .f32⟩
  | 98 => ⟨S800000x4x1, .f32⟩
  | 99 => ⟨S800000x4x1, .f32⟩
  | 100 => ⟨S800000x4x1, .f32⟩
  | 101 => ⟨S_, .f32⟩
  | 102 => ⟨S4x1, .f32⟩
  | 103 => ⟨S1x4x1, .f32⟩
  | 104 => ⟨S800000x4x1, .f32⟩
  | 105 => ⟨S800000x4x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x4x32, .f32⟩
  | 115 => ⟨S800000x4x32, .f32⟩
  | 116 => ⟨S800000x4x32, .f32⟩
  | 117 => ⟨S_, .f32⟩
  | 118 => ⟨S50000x4x32, .f32⟩
  | 119 => ⟨S800000x1, .i32⟩
  | 120 => ⟨S50000x4x32, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000, .f32⟩
  | _ => ⟨S50000x64, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S_, .i32⟩
  | 5 => ⟨S_, .f32⟩
  | 6 => ⟨S50000, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S_, .f32⟩
  | 17 => ⟨S_, .f32⟩
  | 18 => ⟨S50000, .f32⟩
  | 19 => ⟨S50000x1, .f32⟩
  | 20 => ⟨S50000x1, .f32⟩
  | 21 => ⟨S50000x1, .f32⟩
  | 22 => ⟨S_, .f32⟩
  | 23 => ⟨S_, .i1⟩
  | 24 => ⟨S_, .f32⟩
  | 25 => ⟨S_, .f32⟩
  | 26 => ⟨S50000x1, .f32⟩
  | 27 => ⟨S50000x1, .f32⟩
  | 28 => ⟨S50000x128, .f32⟩
  | 29 => ⟨S50000x128, .f32⟩
  | 30 => ⟨S_, .f32⟩
  | 31 => ⟨S50000x1, .f32⟩
  | 32 => ⟨S50000x1, .f32⟩
  | 33 => ⟨S50000x1, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_1 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_3 : Ref sig .tc := ⟨.hbm, 66, rfl⟩
abbrev main_v44 : Ref sig .tc := ⟨.hbm, 67, rfl⟩
abbrev main_v45 : Ref sig .tc := ⟨.hbm, 68, rfl⟩
abbrev main_c_4 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_5 : Ref sig .tc := ⟨.hbm, 75, rfl⟩
abbrev main_v51 : Ref sig .tc := ⟨.hbm, 76, rfl⟩
abbrev main_v52 : Ref sig .tc := ⟨.hbm, 77, rfl⟩
abbrev main_c_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_cst_8 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_10 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_11 : Ref sig .tc := ⟨.hbm, 106, rfl⟩
abbrev main_v75 : Ref sig .tc := ⟨.hbm, 107, rfl⟩
abbrev main_v76 : Ref sig .tc := ⟨.hbm, 108, rfl⟩
abbrev main_c_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_13 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_14 : Ref sig .tc := ⟨.hbm, 126, rfl⟩
abbrev main_v92 : Ref sig .tc := ⟨.hbm, 127, rfl⟩
abbrev main_v93 : Ref sig .tc := ⟨.hbm, 128, rfl⟩
abbrev main_cst_15 : Ref sig .tc := ⟨.hbm, 129, rfl⟩
abbrev main_v94 : Ref sig .tc := ⟨.hbm, 130, rfl⟩
abbrev main_v95 : Ref sig .tc := ⟨.hbm, 131, rfl⟩
abbrev main_c_16 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_cst_1 : Ref sig .tc := ⟨.hbm, 143, rfl⟩
abbrev main_call1_v8 : Ref sig .tc := ⟨.hbm, 144, rfl⟩
abbrev main_call1_cst_2 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_call1_v12 : Ref sig .tc := ⟨.hbm, 149, rfl⟩
abbrev main_call1_cst_3 : Ref sig .tc := ⟨.hbm, 150, rfl⟩
abbrev main_call1_v13 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_17 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x4x32 : S50000x128.ShapeCasts S50000x4x32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  bcast_S800000x4_S800000x4x1_0_1 : S800000x4.BroadcastsInDim S800000x4x1 (![0, 1] : Fin 2 → Fin S800000x4x1.rank)
  reducesTo_S800000x4x32_S800000x4_d2 : S800000x4x32.ReducesTo [2] S800000x4
  h_S_ : 0 < S_.numel
  bcast_S_S800000x4x1 : S_.BroadcastsInDim S800000x4x1 (![] : Fin 0 → Fin S800000x4x1.rank)
  reducesTo_S800000x4x1_S4x1_d0 : S800000x4x1.ReducesTo [0] S4x1
  bcast_S_S4x1 : S_.BroadcastsInDim S4x1 (![] : Fin 0 → Fin S4x1.rank)
  bcast_S4x1_S1x4x1_1_2 : S4x1.BroadcastsInDim S1x4x1 (![1, 2] : Fin 2 → Fin S1x4x1.rank)
  bcast_S1x4x1_S800000x4x1_0_1_2 : S1x4x1.BroadcastsInDim S800000x4x1 (![0, 1, 2] : Fin 3 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  shapeCasts_S50000x4x32_S50000x128 : S50000x4x32.ShapeCasts S50000x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x64_S64x128_S50000x128_1_0_0_1_n_n_wf : DotDims.WF S50000x64 S64x128 S50000x128 [1] [0] [0] [1] [] []
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  dot_S800000x128_S128x4_S800000x4_1_0_0_1_n_n_wf : DotDims.WF S800000x128 S128x4 S800000x4 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4x32_S800000x1_S800000x4x32_12_0_0_1_wf : ScatterDims.WF S50000x4x32 S800000x1 S800000x4x32 [1, 2] [0] [0] 1
  dot_S50000x128_S128x128_S50000x128_1_0_0_1_n_n_wf : DotDims.WF S50000x128 S128x128 S50000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x4_S800000x4_1_0_0_1_n_n : DotDims S800000x128 S128x4 S800000x4 where
  lhsContracting := [1]
  rhsContracting := [0]
  lhsNonContracting := [0]
  rhsNonContracting := [1]
  lhsBatch := []
  rhsBatch := []
  wf := dot_S800000x128_S128x4_S800000x4_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer as index-by-index formulas over the extended reals.

  A graph attention layer on N = 50000 nodes and E = 800000 edges, 4 heads of 32 channels. Per edge e with source
  s(e) and destination d(e): a query row q = x[d(e)]·Wq + bq, a key row k = x[s(e)]·Wk + bk, per head h the score
  (Σ_c q[32h+c]·k[32h+c]) · w(e,h), where w = relu([x[s(e)], x[d(e)]]·We1 + be1)·We2 + be2, scaled by the constant
  1/D. Per head the scaled scores go through a softmax over ALL edges: p = exp(L − max L), normalised by Σ p. A
  node n collects, over the edges whose destination word is n, the value rows v[s(e)] = x[s(e)]·Wv + bv weighted by
  the normalised p; the result goes through an output projection and a layer normalisation.

  The two programs differ in where the normalisation by Σ p happens: one weighs each edge by p / Σ p before the
  node sum (`aggR`), the other sums v·p first and multiplies the node sum by 1 / Σ p (`aggK`). Over real entries
  the two agree.
-/
import Idealize.ShloMosaic.PureOps.Ideal
import Idealize.ShloMosaic.Lib.ValueIdx

noncomputable section

open scoped BigOperators

namespace Cert.Spec

open Idealize.ShloMosaic Idealize.ShloMosaic.ValueIdx

/-- A vector of extended reals. -/
abbrev Arr1 (n : Nat) : Type := (⟨1, ![n]⟩ : Shape).Idx → EReal
/-- A matrix of extended reals. -/
abbrev Arr2 (n m : Nat) : Type := (⟨2, ![n, m]⟩ : Shape).Idx → EReal
/-- A vector of 32-bit index words. -/
abbrev Idx1 (n : Nat) : Type := (⟨1, ![n]⟩ : Shape).Idx → BitVec 32

/-- An index word below zero is read from the table's end: 50000 is added to it. -/
def wrap (i : BitVec 32) : BitVec 32 := Scalar.select (IntOp.cmpi .slt i 0#32) (IntOp.addi i 50000#32) i

/-- The node an index word names: the word wrapped, read signed and clamped into the table. -/
def node (i : BitVec 32) : Fin 50000 := ⟨min (wrap i).toInt.toNat 49999, by omega⟩

/-- The rows of a node table at the edges' nodes. -/
def rows {m : Nat} (x : Arr2 50000 m) (idx : Idx1 800000) : Arr2 800000 m :=
  fun i => x (ix2 (node (idx (ix1 (i 0)))) (i 1))

/-- The affine map x·W + b, row by row. -/
def lin {n k m : Nat} (x : Arr2 n k) (W : Arr2 k m) (b : Arr1 m) : Arr2 n m :=
  fun i => (∑ t : Fin k, x (ix2 (i 0) t) * W (ix2 t (i 1))) + b (ix1 (i 1))

/-- The rectifier. -/
def relu {n m : Nat} (a : Arr2 n m) : Arr2 n m := fun i => max (a i) 0

/-- Two 64-column matrices side by side. -/
def cat (a b : Arr2 800000 64) : Arr2 800000 128 := fun i =>
  if h : (i 1).val < 64 then a (ix2 (i 0) ⟨(i 1).val, h⟩)
  else b (ix2 (i 0) ⟨(i 1).val - 64, by have h2 : (i 1).val < 128 := (i 1).isLt; omega⟩)

/-- The per-edge, per-head weight of the edge network. -/
def edgeW (xs xd : Arr2 800000 64) (We1 : Arr2 128 128) (be1 : Arr1 128) (We2 : Arr2 128 4) (be2 : Arr1 4) :
    Arr2 800000 4 :=
  lin (relu (lin (cat xs xd) We1 be1)) We2 be2

/-- Channel c of head h among the 128 columns. -/
def hd (h : Fin 4) (c : Fin 32) : Fin 128 := ⟨32 * h.val + c.val, by omega⟩

/-- The head a column belongs to. -/
def hOf (j : Fin 128) : Fin 4 := ⟨j.val / 32, by omega⟩

/-- Per edge and head, the inner product of the head's query and key channels. -/
def headDot (q k : Arr2 800000 128) : Arr2 800000 4 :=
  fun i => ∑ c : Fin 32, q (ix2 (i 0) (hd (i 1) c)) * k (ix2 (i 0) (hd (i 1) c))

/-- The unscaled attention score of edge e and head h, from the edges' source and destination rows. -/
def scoreOf (xs xd : Arr2 800000 64) (Wq : Arr2 64 128) (bq : Arr1 128) (Wk : Arr2 64 128) (bk : Arr1 128)
    (We1 : Arr2 128 128) (be1 : Arr1 128) (We2 : Arr2 128 4) (be2 : Arr1 4) : Arr2 800000 4 :=
  fun i => headDot (lin xd Wq bq) (lin xs Wk bk) i * edgeW xs xd We1 be1 We2 be2 i

/-- The scale: the reciprocal of the single-precision word nearest the square root of 32. -/
def cinv : EReal := ((2097152 / 11863283 : ℝ) : EReal)

/-- The scaled scores, head-major: entry (h, e). -/
def logit (sc : Arr2 800000 4) : Arr2 4 800000 := fun i => sc (ix2 (i 1) (i 0)) * cinv

/-- A head's largest scaled score over all edges (from −∞). -/
def mx (L : Arr2 4 800000) (h : Fin 4) : EReal :=
  (Finset.univ : Finset (Fin 800000)).fold max ⊥ (fun e => L (ix2 h e))

/-- The shifted exponentials, head-major. -/
def ex (L : Arr2 4 800000) : Arr2 4 800000 := fun i => Ideal.exp (L i - mx L (i 0))

/-- A head's sum of shifted exponentials over all edges. -/
def den (L : Arr2 4 800000) (h : Fin 4) : EReal := ∑ e : Fin 800000, ex L (ix2 h e)

/-- The edges whose destination word, read signed, is node n. -/
def sel (dst : Idx1 800000) (n : Fin 50000) : Finset (Fin 800000) :=
  Finset.univ.filter fun e => (dst (ix1 e)).toInt = (n.val : Int)

/-- Each edge's value row weighted, head by head, by the edge's shifted exponential. -/
def weighted (v : Arr2 800000 128) (p : Arr2 4 800000) : Arr2 800000 128 :=
  fun i => v i * p (ix2 (hOf (i 1)) (i 0))

/-- A node's sum of the edge rows whose destination word is that node (from 0). -/
def nodeSum (dst : Idx1 800000) (u : Arr2 800000 128) : Arr2 50000 128 :=
  fun i => 0 + ∑ e ∈ sel dst (i 0), u (ix2 e (i 1))

/-- Per column, the reciprocal of its head's sum of shifted exponentials. -/
def invDen (L : Arr2 4 800000) : Arr1 128 := fun j => Ideal.div 1 (den L (hOf (j 0)))

/-- Each column of a matrix multiplied by that column's factor. -/
def scaleCols (a : Arr2 50000 128) (s : Arr1 128) : Arr2 50000 128 := fun i => a i * s (ix1 (i 1))

/-- Each edge's value row weighted by the edge's normalised exponential p / Σ p. -/
def normWeighted (v : Arr2 800000 128) (L : Arr2 4 800000) : Arr2 800000 128 :=
  fun i => Ideal.div (ex L (ix2 (hOf (i 1)) (i 0))) (den L (hOf (i 1))) * v i

/-- Node sums of v·p, then one multiplication by 1 / Σ p. -/
def aggK (v : Arr2 50000 128) (src dst : Idx1 800000) (L : Arr2 4 800000) : Arr2 50000 128 :=
  scaleCols (nodeSum dst (weighted (rows v src) (ex L))) (invDen L)

/-- Node sums of (p / Σ p)·v. -/
def aggR (v : Arr2 50000 128) (src dst : Idx1 800000) (L : Arr2 4 800000) : Arr2 50000 128 :=
  nodeSum dst (normWeighted (rows v src) L)

/-- The source words of an edge list [2, E]: its row 0. -/
def srcOf (ei : (⟨2, ![2, 800000]⟩ : Shape).Idx → BitVec 32) : Idx1 800000 := fun i => ei (ix2 0 (i 0))
/-- The destination words of an edge list [2, E]: its row 1. -/
def dstOf (ei : (⟨2, ![2, 800000]⟩ : Shape).Idx → BitVec 32) : Idx1 800000 := fun i => ei (ix2 1 (i 0))

/-- The word of 128.0. -/
def c128 : EReal := Ideal.ofBits .f32 0x43000000#32
/-- The word of the normalisation's epsilon. -/
def eps : EReal := Ideal.ofBits .f32 0x3727C5AC#32

/-- A row's mean. -/
def mean (y : Arr2 50000 128) (n : Fin 50000) : EReal := Ideal.div (∑ j : Fin 128, y (ix2 n j)) c128

/-- A row's variance about its mean. -/
def var (y : Arr2 50000 128) (n : Fin 50000) : EReal :=
  Ideal.div (∑ j : Fin 128, (y (ix2 n j) - mean y n) * (y (ix2 n j) - mean y n)) c128

/-- Layer normalisation of each row, with gain g and offset b. -/
def lnorm (y : Arr2 50000 128) (g b : Arr1 128) : Arr2 50000 128 := fun i =>
  ((y i - mean y (i 0)) * Ideal.rsqrt (var y (i 0) + eps)) * g (ix1 (i 1)) + b (ix1 (i 1))

/-- The scaled scores of the layer, from its inputs. -/
def L (x : Arr2 50000 64) (src dst : Idx1 800000) (Wq : Arr2 64 128) (bq : Arr1 128) (Wk : Arr2 64 128) (bk : Arr1 128)
    (We1 : Arr2 128 128) (be1 : Arr1 128) (We2 : Arr2 128 4) (be2 : Arr1 4) : Arr2 4 800000 :=
  logit (scoreOf (rows x src) (rows x dst) Wq bq Wk bk We1 be1 We2 be2)

/-- The layer with the normalisation after the node sum. -/
def outK (x : Arr2 50000 64) (src dst : Idx1 800000) (Wq : Arr2 64 128) (bq : Arr1 128) (Wk : Arr2 64 128) (bk : Arr1 128)
    (Wv : Arr2 64 128) (bv : Arr1 128) (We1 : Arr2 128 128) (be1 : Arr1 128) (We2 : Arr2 128 4) (be2 : Arr1 4)
    (Wo : Arr2 128 128) (bo : Arr1 128) (g b : Arr1 128) : Arr2 50000 128 :=
  lnorm (lin (aggK (lin x Wv bv) src dst (L x src dst Wq bq Wk bk We1 be1 We2 be2)) Wo bo) g b

/-- The layer with the normalisation before the node sum. -/
def outR (x : Arr2 50000 64) (src dst : Idx1 800000) (Wq : Arr2 64 128) (bq : Arr1 128) (Wk : Arr2 64 128) (bk : Arr1 128)
    (Wv : Arr2 64 128) (bv : Arr1 128) (We1 : Arr2 128 128) (be1 : Arr1 128) (We2 : Arr2 128 4) (be2 : Arr1 4)
    (Wo : Arr2 128 128) (bo : Arr1 128) (g b : Arr1 128) : Arr2 50000 128 :=
  lnorm (lin (aggR (lin x Wv bv) src dst (L x src dst Wq bq Wk bk We1 be1 We2 be2)) Wo bo) g b

/-- Every entry of the array is a real number. -/
def Real1 {n : Nat} (a : Arr1 n) : Prop := ∀ i, ∃ r : ℝ, a i = (r : EReal)
/-- Every entry of the array is a real number. -/
def Real2 {n m : Nat} (a : Arr2 n m) : Prop := ∀ i, ∃ r : ℝ, a i = (r : EReal)

/-- Every index word, read signed, names a node. -/
def InRange (idx : Idx1 800000) : Prop := ∀ i, 0 ≤ (idx i).toInt ∧ (idx i).toInt < 50000

end Cert.Spec

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.KReg0.lean ====
import proofs.«408399_j1297080123525_4_alg».proof.Proof.Gen.KernelIdeal.Frame
import proofs.«408399_j1297080123525_4_alg».proof.Proof.Spec
import Idealize.ShloMosaic.Lib.Pipeline.Value
import Idealize.ShloMosaic.PureOps.Ideal.Laws
import proofs.«408399_j1297080123525_4_alg».proof.Proof.LibBlocks

noncomputable section

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The matrix unit's dimension record here is the plain rows-by-columns contraction [25000,64]·[64,128]. -/
theorem dims_plain : dot_S25000x64_S64x128_S25000x128_1_0_0_1_n_n = DotDims.plain 25000 64 128 := rfl

/-- The bias row laid over the block's rows: entry (p, q) is b(q). -/
theorem biasRows_apply (x2 : Vec Ideal S128 .f32) (p : Fin 25000) (q : Fin 128) :
    broadcastTo S25000x128 (shapeCast S1x128 x2 shapeCasts_S128_S1x128) broadcasts_S1x128_S25000x128 (ix2 p q) = x2 (ix1 q) := by
  rw [broadcastTo_apply _ broadcasts_S1x128_S25000x128 (ix2 p q) (ix2 (0 : Fin 1) q) (fun a => by
      match a with
      | ⟨0, _⟩ => rfl
      | ⟨1, _⟩ => rfl)]
  rw [shapeCast_apply x2 shapeCasts_S128_S1x128 (ix2 (0 : Fin 1) q) (ix1 q) (by
      rw [Shape.rowMajor_val_one, Shape.rowMajor_val_two]
      show q.val = 0 * 128 + q.val
      omega)]

/-- Entry (p, q) of the block body: the sum over the 64 input channels of x(p,k)·W(k,q), plus the bias b(q).
    Narrowing the operands' format on the way into the product changes nothing over the extended reals. -/
theorem pay_apply (x0 : Vec Ideal S25000x64 .f32) (x1 : Vec Ideal S64x128 .f32) (x2 : Vec Ideal S128 .f32)
    (p : Fin 25000) (q : Fin 128) :
    k0_pay1 x0 x1 x2 (ix2 p q) = (∑ k : Fin 64, x0 (ix2 p k) * x1 (ix2 k q)) + x2 (ix1 q) := by
  unfold k0_pay1
  rw [addf_apply, biasRows_apply]
  show FloatOps.matmul _ none _ _ _ (ix2 p q) + _ = _
  rw [Cert.LibBlocks.matmul_plain_apply _ dims_plain]
  rfl

/-- The block body at entry j against the affine map x·W + b of whole arrays at entry i: equal when the block's row
    (j 0) of x is the array's row (i 0), the weight columns (j 1) and (i 1) agree, and so do the bias entries. -/
theorem pay_eq_lin (x0 : Vec Ideal S25000x64 .f32) (x1 : Vec Ideal S64x128 .f32) (x2 : Vec Ideal S128 .f32)
    (a0 : Cert.Spec.Arr2 50000 64) (a1 : Cert.Spec.Arr2 64 128) (a2 : Cert.Spec.Arr1 128)
    (j : S25000x128.Idx) (i : S50000x128.Idx)
    (h0 : ∀ k : Fin 64, x0 (ix2 (j 0) k) = a0 (ix2 (i 0) k))
    (h1 : ∀ k : Fin 64, x1 (ix2 k (j 1)) = a1 (ix2 k (i 1)))
    (h2 : x2 (ix1 (j 1)) = a2 (ix1 (i 1))) :
    k0_pay1 x0 x1 x2 j = Cert.Spec.lin a0 a1 a2 i := by
  refine (congrArg (k0_pay1 x0 x1 x2) (eq_ix2 (n0 := 25000) (n1 := 128) j)).trans ((pay_apply x0 x1 x2 (j 0) (j 1)).trans ?_)
  show _ = (∑ k : Fin 64, a0 (ix2 (i 0) k) * a1 (ix2 k (i 1))) + a2 (ix1 (i 1))
  rw [h2]
  refine congrArg (· + _) (Finset.sum_congr rfl fun k _ => ?_)
  rw [h0 k, h1 k]

theorem off1_zero : (![0] : Fin 1 → Nat) = fun _ => 0 := funext fun a => by fin_cases a <;> rfl

/-- The index maps over the two grid points: the x block and the output block are both block t of the rows and the
    whole width; the weight matrix and the bias are block 0 throughout. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0
    ∧ win0_3.index t (0 : Fin 2) ≤ 1 :=
  (by decide +kernel : ∀ t : Fin grid0.N, _)

/-- Each of the two row blocks is some point's. -/
theorem idx_onto : ∀ q0 : Fin 2, ∃ t : Fin cfg0.N, win0_3.index t = ![q0.val, 0] :=
  (by decide +kernel : ∀ q0 : Fin 2, ∃ t : Fin grid0.N, win0_3.index t = ![q0.val, 0])

/-- What point t writes back is block t (rows 25000 t … 25000 t + 24999, all 128 columns) of x·Wv + bv of the arrays
    the region finds. -/
theorem flushed_eq (c : Dev nD) (t : Fin cfg0.N) :
    (dat0 (F := Ideal) V c).flushed 3 t
      = ((cfg0.win 3).blk t).view.read (Elt Ideal) (Cert.Spec.lin (V c main_arg0) (V c main_arg6) (V c main_arg7)) := by
  show (cfg0.win 3).cut (grid0.coords t) ((dat0 V c).after 3 t) = _
  rw [after0_3]
  unfold out0_3
  rw [View.canon_unit_zero Cert.LibBlocks.off2_zero]
  simp only [View.ld_unit_zero (S := S25000x64) Cert.LibBlocks.off2_zero, View.ld_unit_zero (S := S64x128) Cert.LibBlocks.off2_zero,
    View.ld_unit_zero (S := S128) off1_zero]
  obtain ⟨e0, e1, e2, e3, e4, e5, e6⟩ := idx_facts t
  funext j
  refine pay_eq_lin (iblk0 V c 0 t) (iblk0 V c 1 t) (iblk0 V c 2 t) (V c main_arg0) (V c main_arg6) (V c main_arg7) j
    (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ => show win0_0.index t (0 : Fin 2) * 25000 + 1 * (j 0).val = win0_3.index t (0 : Fin 2) * 25000 + 1 * (j 0).val; omega
    | ⟨1, _⟩ => show win0_0.index t (1 : Fin 2) * 64 + 1 * k.val = k.val; omega
  · show V c main_arg6 (((cfg0.win 1).blk t).view.emb (ix2 k (j 1))) = V c main_arg6 (ix2 k ((((cfg0.win 3).blk t).view.emb j) 1))
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * (j 1).val = win0_3.index t (1 : Fin 2) * 128 + 1 * (j 1).val; omega
  · show V c main_arg7 (((cfg0.win 2).blk t).view.emb (ix1 (j 1))) = V c main_arg7 (ix1 ((((cfg0.win 3).blk t).view.emb j) 1))
    refine congrArg _ (funext fun a => Fin.ext ?_)
    match a with
    | ⟨0, _⟩ => show win0_2.index t (0 : Fin 1) * 128 + 1 * (j 1).val = win0_3.index t (1 : Fin 2) * 128 + 1 * (j 1).val; omega

/-- An entry of the output array is in point t's block iff each coordinate is in the block's range on its axis. -/
theorem mem_blk (t : Fin cfg0.N) (i : S50000x128.Idx) :
    i ∈ ((cfg0.win 3).blk t).view.set ↔ ∀ a : Fin 2, win0_3.index t a * S25000x128.size a ≤ (i a).val
      ∧ (i a).val < win0_3.index t a * S25000x128.size a + S25000x128.size a := by
  show i ∈ ((View.whole main_v4).slice (win0_3.rect t)).set ↔ _
  rw [View.set_slice_whole, Rect.mem_set_unit]
  exact Iff.rfl

/-- The two row blocks fill the array: row r lies in block r / 25000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 25000, by omega⟩
  have q0 : win0_3.index t (0 : Fin 2) = (i 0).val / 25000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 25000 ≤ (i 0).val ∧ (i 0).val < win0_3.index t (0 : Fin 2) * 25000 + 25000; omega
  | ⟨1, _⟩ => show win0_3.index t (1 : Fin 2) * 128 ≤ (i 1).val ∧ (i 1).val < win0_3.index t (1 : Fin 2) * 128 + 128; omega

/-- Region 0 (the value projection, two blocks of 25000 rows): its output array after the region is x·Wv + bv of
    the arrays the region finds. -/
theorem final (c : Dev nD) :
    (dat0 (F := Ideal) V c).arrAt 3 cfg0.N = Cert.Spec.lin (V c main_arg0) (V c main_arg6) (V c main_arg7) :=
  (dat0 (F := Ideal) V c).arrAt_eq_of_cover 3 _ (fun t _ => flushed_eq V c t) cover

end Cert.KernelIdeal.Reg0

end
-- ==== Proof.KReg1_Rows.lean ====
/-
  One block of the edge kernel, row by row.

  A block holds 6400 consecutive edges: their source rows xs and destination rows xd (each [6400, 64]) and the
  whole weight arrays. Row p of the block gives, column by column,

    the query   q(p, j) = Σ_t xd(p, t) Wq(t, j) + bq(j),            j < 128,
    the key     k(p, j) = Σ_t xs(p, t) Wk(t, j) + bk(j),            j < 128,
    the weight  w(p, h) = Σ_k max(Σ_t [xs, xd](p, t) We1(t, k) + be1(k), 0) We2(k, h) + be2(h),   h < 4,

  where [xs, xd] is the two rows side by side (column t < 64 from xs, column t ≥ 64 from xd at t − 64), and head h's
  entry of the block's result is (Σ_{c<32} q(p, 32h + c) k(p, 32h + c)) · w(p, h) · s with s the named scale. The
  narrowing of the matrix unit's operands is the identity on the extended reals, and the products accumulate from zero.
-/
import proofs.«408399_j1297080123525_4_alg».proof.Proof.Gen.KernelIdeal.Skeleton
import proofs.«408399_j1297080123525_4_alg».proof.Proof.Spec
import proofs.«408399_j1297080123525_4_alg».proof.Proof.LibBlocks
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Reg1

open Cert.KernelIdeal Cert.KernelIdeal.Gen Idealize.ShloMosaic Idealize.ShloMosaic.ValueIdx

/-! ## The affine maps -/

/-- A bias vector laid as one row and repeated down the 6400 rows reads, at (p, j), its entry j. -/
theorem biasRows128_apply (b : FVec Ideal S128 .f32) (hc : S128.ShapeCasts S1x128) (hb : S1x128.Broadcasts S6400x128)
    (p : Fin 6400) (j : Fin 128) :
    broadcastTo S6400x128 (shapeCast S1x128 b hc) hb (ix2 p j) = b (ix1 j) :=
  (broadcastTo_1b_ab_apply _ hb p j).trans (shapeCast_a_1a_apply b hc 0 j)

/-- The same for the four-entry bias of the edge weight. -/
theorem biasRows4_apply (b : FVec Ideal S4 .f32) (hc : S4.ShapeCasts S1x4) (hb : S1x4.Broadcasts S6400x4)
    (p : Fin 6400) (h : Fin 4) :
    broadcastTo S6400x4 (shapeCast S1x4 b hc) hb (ix2 p h) = b (ix1 h) :=
  (broadcastTo_1b_ab_apply _ hb p h).trans (shapeCast_a_1a_apply b hc 0 h)

/-- The query rows of a block: entry (p, j) is row p of the destination rows against column j of Wq, plus bq(j). -/
theorem query_apply (xd : Vec Ideal S6400x64 .f32) (W : Vec Ideal S64x128 .f32) (b : Vec Ideal S128 .f32)
    (p : Fin 6400) (j : Fin 128) :
    k1_pay4 xd W b (ix2 p j) = (∑ t : Fin 64, xd (ix2 p t) * W (ix2 t j)) + b (ix1 j) := by
  unfold k1_pay4 k1_pay3
  refine congrArg₂ (· + ·) ?_ (biasRows128_apply b _ _ p j)
  refine (Cert.LibBlocks.matmul_plain_apply _ rfl none _ _ p j).trans ?_
  refine Finset.sum_congr rfl fun t _ => ?_
  show shapeCast S6400x64 xd _ (ix2 p t) * W (ix2 t j) = _
  rw [shapeCast_self]

/-- The key rows of a block: entry (p, j) is row p of the source rows against column j of Wk, plus bk(j). -/
theorem key_apply (xs : Vec Ideal S6400x64 .f32) (W : Vec Ideal S64x128 .f32) (b : Vec Ideal S128 .f32)
    (p : Fin 6400) (j : Fin 128) :
    k1_pay5 xs W b (ix2 p j) = (∑ t : Fin 64, xs (ix2 p t) * W (ix2 t j)) + b (ix1 j) := by
  unfold k1_pay5 k1_pay2
  refine congrArg₂ (· + ·) ?_ (biasRows128_apply b _ _ p j)
  refine (Cert.LibBlocks.matmul_plain_apply _ rfl none _ _ p j).trans ?_
  refine Finset.sum_congr rfl fun t _ => ?_
  show shapeCast S6400x64 xs _ (ix2 p t) * W (ix2 t j) = _
  rw [shapeCast_self]

/-! ## The edge weight -/

/-- Two rows of 64 entries side by side: entry t < 64 from the first, entry t ≥ 64 from the second at t − 64. -/
def rowPair (rs rd : Fin 64 → EReal) (t : Fin 128) : EReal :=
  if h : t.val < 64 then rs ⟨t.val, h⟩ else rd ⟨t.val - 64, by have := t.isLt; omega⟩

/-- The block's source and destination rows joined along the columns read, at (p, t), the pair of rows p at t. -/
theorem sideBySide_apply (xs xd : FVec Ideal S6400x64 .f32) (hcat : Shape.Concatenates [S6400x64, S6400x64] S6400x128 1)
    (p : Fin 6400) (t : Fin 128) :
    concatenate S6400x128 1 [⟨S6400x64, xs⟩, ⟨S6400x64, xd⟩] hcat (ix2 p t)
      = rowPair (fun u => xs (ix2 p u)) (fun u => xd (ix2 p u)) t := by
  unfold rowPair
  split
  · next ht =>
    exact concatenate_pair_apply_left (1 : Fin 2) xs xd hcat (ix2 p t) rfl (ix2 p ⟨t.val, ht⟩) (fun b => by
      match b with
      | ⟨0, _⟩ => rfl
      | ⟨1, _⟩ => rfl)
  · next ht =>
    exact concatenate_pair_apply_right (1 : Fin 2) xs xd hcat (ix2 p t) rfl rfl
      (ix2 p ⟨t.val - 64, by have := t.isLt; omega⟩) (fun b hb => by
        match b, hb with
        | ⟨0, _⟩, _ => rfl
        | ⟨1, _⟩, hb => exact absurd rfl hb) (by show (t.val - 64) + 64 = t.val; omega)

/-- The edge weight before its bias: entry (p, h) is the rectified hidden row of edge p against column h of We2, the
    hidden row being the joined rows against We1 plus be1. -/
theorem edge_apply (xs xd : Vec Ideal S6400x64 .f32) (We1 : Vec Ideal S128x128 .f32) (We2 : Vec Ideal S128x4 .f32)
    (be1 : Vec Ideal S128 .f32) (p : Fin 6400) (h : Fin 4) :
    k1_pay6 xs xd We1 We2 be1 (ix2 p h)
      = ∑ k : Fin 128, max ((∑ t : Fin 128, rowPair (fun u => xs (ix2 p u)) (fun u => xd (ix2 p u)) t * We1 (ix2 t k))
          + be1 (ix1 k)) 0 * We2 (ix2 k h) := by
  unfold k1_pay6 k1_pay2 k1_pay3
  refine (Cert.LibBlocks.matmul_plain_apply _ rfl none _ _ p h).trans ?_
  refine Finset.sum_congr rfl fun k _ => ?_
  refine congrArg (· * We2 (ix2 k h)) ?_
  show max (matmul _ none _ _ _ (ix2 p k) + broadcastTo _ _ _ (ix2 p k)) (Ideal.ofBits .f32 0x00000000#32) = _
  refine congrArg₂ max (congrArg₂ (· + ·) ?_ (biasRows128_apply be1 _ _ p k)) Ideal.ofBits_zero_f32
  refine (Cert.LibBlocks.matmul_plain_apply _ rfl none _ _ p k).trans ?_
  refine Finset.sum_congr rfl fun t _ => ?_
  refine congrArg (· * We1 (ix2 t k)) ?_
  show concatenate S6400x128 1 [⟨S6400x64, shapeCast S6400x64 xs shapeCasts_S6400x64_S6400x64⟩,
    ⟨S6400x64, shapeCast S6400x64 xd shapeCasts_S6400x64_S6400x64⟩] concatenates_S6400x64_S6400x64_S6400x128_d1 (ix2 p t) = _
  rw [shapeCast_self, shapeCast_self]
  exact sideBySide_apply xs xd _ p t

/-- The edge weight's bias repeated down the rows. -/
theorem edgeBias_apply (be2 : Vec Ideal S4 .f32) (p : Fin 6400) (h : Fin 4) : k1_pay7 be2 (ix2 p h) = be2 (ix1 h) := by
  unfold k1_pay7
  exact biasRows4_apply be2 _ _ p h

end Cert.KernelIdeal.Reg1

end
-- ==== Proof.KReg1Pay.lean ====
/-
  One head's row of the edge kernel's result block.

  From the block's query rows q and key rows k ([6400, 128]), the edge weight before its bias w and the bias rows b
  ([6400, 4]), head h's row of the [4, 6400] result holds, at edge p,

      (Σ_{c<32} q(p, 32h + c) · k(p, 32h + c)) · (w(p, h) + b(p, h)) · s,

  s the named scale 2097152 / 11863283: the head's 32 columns are cut out of q and k, multiplied entry by entry and
  summed along the columns, the weight's column h is cut out and laid as a vector, and the products are laid as one row.
-/
import proofs.«408399_j1297080123525_4_alg».proof.Proof.Gen.KernelIdeal.Skeleton
import proofs.«408399_j1297080123525_4_alg».proof.Proof.Spec
import proofs.«408399_j1297080123525_4_alg».proof.Proof.LibBlocks
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Reg1Pay

open Cert.KernelIdeal Cert.KernelIdeal.Gen Idealize.ShloMosaic Idealize.ShloMosaic.ValueIdx

/-- The scale the kernel names is the specification's constant. -/
theorem scale_eq : Named.named (F := Ideal) κ "inv_sqrt_hd" (φ := .f32) 0x3E3504F3#32 = Cert.Spec.cinv :=
  IdealRules.named_const.ideal_named_scalar _ _ _ _ rfl

/-- One head before the scale, at edge p: the 32 columns from o = 32h on are cut out of q and k, multiplied entry by
    entry and summed along the columns; column h of w + b is cut out and laid as a vector; the two are multiplied. -/
theorem headCore_apply (o o' : Nat) (h : Fin 4) (ho : o = 32 * h.val) (ho' : o' = h.val)
    (hs : S6400x128.Slices ![0, o] S6400x32) (hs' : S6400x4.Slices ![0, o'] S6400x1)
    (hφ : FKind.Formats FTy.f32) (hacc : (0x00000000#32 : BitVec 32) = FKind.add.neutral .f32 hφ)
    (q k : FVec Ideal S6400x128 .f32) (w b : FVec Ideal S6400x4 .f32) (p : Fin 6400) :
    mulf (multiReduction .add [1] S6400 (mulf (extractStridedSlice S6400x32 ![0, o] q hs) (extractStridedSlice S6400x32 ![0, o] k hs))
        0x00000000#32 reduces_S6400x32_S6400 hφ hacc)
      (shapeCast S6400 (extractStridedSlice S6400x1 ![0, o'] (k1_pay8 w b) hs') shapeCasts_S6400x1_S6400) (ix1 p)
      = (∑ c : Fin 32, q (ix2 p (Cert.Spec.hd h c)) * k (ix2 p (Cert.Spec.hd h c))) * (w (ix2 p h) + b (ix2 p h)) := by
  rw [mulf_apply]
  refine congrArg₂ (· * ·) ?_ ?_
  · refine (Ideal.multiReduction_add_single _ _ reduces_S6400x32_S6400 hφ hacc (ix1 p)).trans ?_
    show (∑ c : Fin 32, _) = _
    refine Finset.sum_congr rfl fun c _ => ?_
    have hl : reduces_S6400x32_S6400.lift (ix1 p) c = ix2 p c := by
      funext a; apply Fin.ext; fin_cases a <;> rfl
    have hc : (Cert.Spec.hd h c).val = o + c.val := by show 32 * h.val + c.val = o + c.val; omega
    rw [hl, mulf_apply, slice2_axis1_apply o q hs p c (Cert.Spec.hd h c) hc, slice2_axis1_apply o k hs p c (Cert.Spec.hd h c) hc]
  · rw [shapeCast_apply _ shapeCasts_S6400x1_S6400 (ix1 p) (ix2 p (0 : Fin 1)) (by
      rw [Shape.rowMajor_val_two, Shape.rowMajor_val_one]
      show p.val * 1 + 0 = p.val
      omega)]
    rw [slice2_axis1_apply o' (k1_pay8 w b) hs' p (0 : Fin 1) h (by show h.val = o' + 0; omega)]
    rfl

/-- Head 0's row at edge p. -/
theorem head0_apply (q k : FVec Ideal S6400x128 .f32) (w b : FVec Ideal S6400x4 .f32) (p : Fin 6400) :
    k1_pay9 q k w b (ix2 (0 : Fin 1) p)
      = (∑ c : Fin 32, q (ix2 p (Cert.Spec.hd 0 c)) * k (ix2 p (Cert.Spec.hd 0 c)))
          * (w (ix2 p (0 : Fin 4)) + b (ix2 p (0 : Fin 4))) * Cert.Spec.cinv := by
  unfold k1_pay9
  rw [shapeCast_a_1a_apply, mulf_apply, broadcast_apply, scale_eq]
  exact congrArg (· * Cert.Spec.cinv) (headCore_apply 0 0 0 rfl rfl _ _ _ _ q k w b p)

/-- Head 1's row at edge p. -/
theorem head1_apply (q k : FVec Ideal S6400x128 .f32) (w b : FVec Ideal S6400x4 .f32) (p : Fin 6400) :
    k1_pay10 q k w b (ix2 (0 : Fin 1) p)
      = (∑ c : Fin 32, q (ix2 p (Cert.Spec.hd 1 c)) * k (ix2 p (Cert.Spec.hd 1 c)))
          * (w (ix2 p (1 : Fin 4)) + b (ix2 p (1 : Fin 4))) * Cert.Spec.cinv := by
  unfold k1_pay10
  rw [shapeCast_a_1a_apply, mulf_apply, broadcast_apply, scale_eq]
  exact congrArg (· * Cert.Spec.cinv) (headCore_apply 32 1 1 rfl rfl _ _ _ _ q k w b p)

/-- Head 2's row at edge p. -/
theorem head2_apply (q k : FVec Ideal S6400x128 .f32) (w b : FVec Ideal S6400x4 .f32) (p : Fin 6400) :
    k1_pay11 q k w b (ix2 (0 : Fin 1) p)
      = (∑ c : Fin 32, q (ix2 p (Cert.Spec.hd 2 c)) * k (ix2 p (Cert.Spec.hd 2 c)))
          * (w (ix2 p (2 : Fin 4)) + b (ix2 p (2 : Fin 4))) * Cert.Spec.cinv := by
  unfold k1_pay11
  rw [shapeCast_a_1a_apply, mulf_apply, broadcast_apply, scale_eq]
  exact congrArg (· * Cert.Spec.cinv) (headCore_apply 64 2 2 rfl rfl _ _ _ _ q k w b p)

/-- Head 3's row at edge p: the product with the weight first, then the scale and the laying as a row. -/
theorem head3_apply (q k : FVec Ideal S6400x128 .f32) (w b : FVec Ideal S6400x4 .f32) (p : Fin 6400) :
    k1_pay1 (k1_pay12 q k w b) (ix2 (0 : Fin 1) p)
      = (∑ c : Fin 32, q (ix2 p (Cert.Spec.hd 3 c)) * k (ix2 p (Cert.Spec.hd 3 c)))
          * (w (ix2 p (3 : Fin 4)) + b (ix2 p (3 : Fin 4))) * Cert.Spec.cinv := by
  unfold k1_pay1 k1_pay12
  rw [shapeCast_a_1a_apply, mulf_apply, broadcast_apply, scale_eq]
  exact congrArg (· * Cert.Spec.cinv) (headCore_apply 96 3 3 rfl rfl _ _ _ _ q k w b p)

end Cert.KernelIdeal.Reg1Pay

end
-- ==== Proof.KReg1.lean ====
/-
  The edge kernel's output array.

  The region works the 800000 edges in 125 blocks of 6400. Block t reads rows 6400 t … 6400 t + 6399 of the source and
  destination tables and the eight weight arrays whole, and writes columns 6400 t … 6400 t + 6399 of the four rows of the
  output [4, 800000]: row h holds, at edge e, the scaled score of head h,

      (Σ_{c<32} q(e, 32h + c) k(e, 32h + c)) · w(e, h) · s,

  with q and k the edge's query and key rows, w its edge weight and s the scale. An edge's score depends on the edge's
  own two rows only, so the block's result at (h, p) is the specification's entry (h, 6400 t + p); the four row stores of
  a block together hold the block's function, and the 125 blocks tile the array, the block of edge e being e / 6400.
-/
import proofs.«408399_j1297080123525_4_alg».proof.Proof.Gen.KernelIdeal.Frame
import proofs.«408399_j1297080123525_4_alg».proof.Proof.Spec
import Idealize.ShloMosaic.Lib.Pipeline.Value
import Idealize.ShloMosaic.PureOps.Ideal.Laws
import proofs.«408399_j1297080123525_4_alg».proof.Proof.LibBlocks
import proofs.«408399_j1297080123525_4_alg».proof.Proof.KReg1_Rows
import proofs.«408399_j1297080123525_4_alg».proof.Proof.KReg1Pay

noncomputable section

open scoped BigOperators

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (Arr1 Arr2)

/-! ## One edge's score from its two rows -/

/-- The score of one edge at head h, from the edge's source row rs and destination row rd: the head's inner product of
    the query row rd·Wq + bq and the key row rs·Wk + bk, times the edge weight
    Σ_k max(Σ_t [rs, rd](t) We1(t, k) + be1(k), 0) We2(k, h) + be2(h). -/
def rowScore (rs rd : Fin 64 → EReal) (Wq : Arr2 64 128) (bq : Arr1 128) (Wk : Arr2 64 128) (bk : Arr1 128)
    (We1 : Arr2 128 128) (be1 : Arr1 128) (We2 : Arr2 128 4) (be2 : Arr1 4) (h : Fin 4) : EReal :=
  (∑ c : Fin 32, ((∑ t : Fin 64, rd t * Wq (ix2 t (Cert.Spec.hd h c))) + bq (ix1 (Cert.Spec.hd h c)))
      * ((∑ t : Fin 64, rs t * Wk (ix2 t (Cert.Spec.hd h c))) + bk (ix1 (Cert.Spec.hd h c))))
    * ((∑ k : Fin 128, max ((∑ t : Fin 128, rowPair rs rd t * We1 (ix2 t k)) + be1 (ix1 k)) 0 * We2 (ix2 k h))
        + be2 (ix1 h))

/-- The specification's scaled score of edge e at head h is the score of rows e of the two edge tables, scaled. -/
theorem logit_scoreOf_apply (XS XD : Arr2 800000 64) (Wq : Arr2 64 128) (bq : Arr1 128) (Wk : Arr2 64 128) (bk : Arr1 128)
    (We1 : Arr2 128 128) (be1 : Arr1 128) (We2 : Arr2 128 4) (be2 : Arr1 4) (h : Fin 4) (e : Fin 800000) :
    Cert.Spec.logit (Cert.Spec.scoreOf XS XD Wq bq Wk bk We1 be1 We2 be2) (ix2 h e)
      = rowScore (fun u => XS (ix2 e u)) (fun u => XD (ix2 e u)) Wq bq Wk bk We1 be1 We2 be2 h * Cert.Spec.cinv := rfl

/-! ## The block's result as one function of the block index -/

/-- What one block of 6400 edges ends holding, head-major: entry (h, p) is the scaled score of the block's edge p at
    head h. -/
def blockLogit (xs xd : Vec Ideal S6400x64 .f32) (Wq : Vec Ideal S64x128 .f32) (bq : Vec Ideal S128 .f32)
    (Wk : Vec Ideal S64x128 .f32) (bk : Vec Ideal S128 .f32) (We1 : Vec Ideal S128x128 .f32) (be1 : Vec Ideal S128 .f32)
    (We2 : Vec Ideal S128x4 .f32) (be2 : Vec Ideal S4 .f32) : Vec Ideal S4x6400 .f32 := fun i =>
  rowScore (fun u => xs (ix2 (i 1) u)) (fun u => xd (ix2 (i 1) u)) Wq bq Wk bk We1 be1 We2 be2 (i 0) * Cert.Spec.cinv

/-- The zero offset of a one-axis block, as the constant function. -/
theorem off1_zero : (![0] : Fin 1 → Nat) = fun _ => 0 := funext fun a => by fin_cases a; rfl

/-- One head's row of the block: when a row payload reads, at edge p, the head's inner product of the query and key rows
    times the biased edge weight times the scale, then over the block's query, key and edge-weight payloads it is row h
    of the block's function. -/
theorem row_eq (h : Fin 4)
    (pay : FVec Ideal S6400x128 .f32 → FVec Ideal S6400x128 .f32 → FVec Ideal S6400x4 .f32 → FVec Ideal S6400x4 .f32 →
      FVec Ideal S1x6400 .f32)
    (hpay : ∀ (q k : FVec Ideal S6400x128 .f32) (w b : FVec Ideal S6400x4 .f32) (p : Fin 6400),
      pay q k w b (ix2 (0 : Fin 1) p)
        = (∑ c : Fin 32, q (ix2 p (Cert.Spec.hd h c)) * k (ix2 p (Cert.Spec.hd h c))) * (w (ix2 p h) + b (ix2 p h))
            * Cert.Spec.cinv)
    (x0 x1 : Vec Ideal S6400x64 .f32) (x2 : Vec Ideal S64x128 .f32) (x3 : Vec Ideal S128 .f32)
    (x4 : Vec Ideal S64x128 .f32) (x5 : Vec Ideal S128 .f32) (x6 : Vec Ideal S128x128 .f32) (x7 : Vec Ideal S128 .f32)
    (x8 : Vec Ideal S128x4 .f32) (x9 : Vec Ideal S4 .f32) (x : S1x6400.Idx) (i : S4x6400.Idx)
    (h0 : (i 0).val = h.val) (h1 : (i 1).val = (x 1).val) :
    pay (k1_pay4 x1 x2 x3) (k1_pay5 x0 x4 x5) (k1_pay6 x0 x1 x6 x8 x7) (k1_pay7 x9) x
      = blockLogit x0 x1 x2 x3 x4 x5 x6 x7 x8 x9 i := by
  obtain ⟨u, p, rfl⟩ : ∃ (u : Fin 1) (p : Fin 6400), x = ix2 u p := ⟨x 0, x 1, eq_ix2 x⟩
  obtain ⟨g, e, rfl⟩ : ∃ (g : Fin 4) (e : Fin 6400), i = ix2 g e := ⟨i 0, i 1, eq_ix2 i⟩
  obtain rfl : u = 0 := Fin.ext (by omega)
  obtain rfl : g = h := Fin.ext h0
  obtain rfl : e = p := Fin.ext h1
  rw [hpay]
  unfold blockLogit rowScore
  simp only [query_apply, key_apply, edge_apply, edgeBias_apply]

/-- What the body leaves in the output block, from the ten input blocks: the four row stores together hold the block's
    function, each row the scaled scores of one head. -/
theorem out_eq (x0 x1 : Vec Ideal S6400x64 .f32) (x2 : Vec Ideal S64x128 .f32) (x3 : Vec Ideal S128 .f32)
    (x4 : Vec Ideal S64x128 .f32) (x5 : Vec Ideal S128 .f32) (x6 : Vec Ideal S128x128 .f32) (x7 : Vec Ideal S128 .f32)
    (x8 : Vec Ideal S128x4 .f32) (x9 : Vec Ideal S4 .f32) :
    out1_10 x0 x1 x2 x3 x4 x5 x6 x7 x8 x9 = blockLogit x0 x1 x2 x3 x4 x5 x6 x7 x8 x9 := by
  funext y
  unfold out1_10
  simp only [View.ld_unit_zero (S := S6400x64) Cert.LibBlocks.off2_zero, View.ld_unit_zero (S := S64x128) Cert.LibBlocks.off2_zero,
    View.ld_unit_zero (S := S128x128) Cert.LibBlocks.off2_zero, View.ld_unit_zero (S := S128x4) Cert.LibBlocks.off2_zero,
    View.ld_unit_zero (S := S128) off1_zero, View.ld_unit_zero (S := S4) off1_zero]
  refine View.canon_apply_of_pieces (blockLogit x0 x1 x2 x3 x4 x5 x6 x7 x8 x9) _ ?_ y (cover1_10 _ _ _ _ y)
  intro pc hpc x
  simp only [List.mem_cons, List.mem_nil_iff, or_false] at hpc
  rcases hpc with rfl | rfl | rfl | rfl
  · exact row_eq 3 (fun q k w b => k1_pay1 (k1_pay12 q k w b)) Cert.KernelIdeal.Reg1Pay.head3_apply
      x0 x1 x2 x3 x4 x5 x6 x7 x8 x9 x (r1_9.emb x)
      (by show 3 + 1 * (x 0).val = 3; have hx : (x 0).val < 1 := (x 0).isLt; omega) (by show 0 + 1 * (x 1).val = (x 1).val; omega)
  · exact row_eq 2 (fun q k w b => k1_pay11 q k w b) Cert.KernelIdeal.Reg1Pay.head2_apply
      x0 x1 x2 x3 x4 x5 x6 x7 x8 x9 x (r1_8.emb x)
      (by show 2 + 1 * (x 0).val = 2; have hx : (x 0).val < 1 := (x 0).isLt; omega) (by show 0 + 1 * (x 1).val = (x 1).val; omega)
  · exact row_eq 1 (fun q k w b => k1_pay10 q k w b) Cert.KernelIdeal.Reg1Pay.head1_apply
      x0 x1 x2 x3 x4 x5 x6 x7 x8 x9 x (r1_7.emb x)
      (by show 1 + 1 * (x 0).val = 1; have hx : (x 0).val < 1 := (x 0).isLt; omega) (by show 0 + 1 * (x 1).val = (x 1).val; omega)
  · exact row_eq 0 (fun q k w b => k1_pay9 q k w b) Cert.KernelIdeal.Reg1Pay.head0_apply
      x0 x1 x2 x3 x4 x5 x6 x7 x8 x9 x (r1_6.emb x)
      (by show 0 + 1 * (x 0).val = 0; have hx : (x 0).val < 1 := (x 0).isLt; omega) (by show 0 + 1 * (x 1).val = (x 1).val; omega)

variable (V : (c : Dev nD) → (b : Ref sig .tc) → Buf (Elt Ideal) ((c : Thread nD τ).loc b))

/-! ## From the blocks to the array -/

/-- The index maps over the 125 points: the two edge tables move with the output along the edges (block t of rows for
    block t of columns), every weight array is its one block, and the output's block t is columns 6400 t … 6400 t + 6399
    of all four rows. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = t.val :=
  (by decide +kernel : ∀ t : Fin grid1.N, _)

/-- The grid has 125 points. -/
theorem point_lt (t : Fin cfg1.N) : t.val < 125 := by
  exact Nat.lt_of_lt_of_eq t.isLt N_1

/-- Row p of the source block at point t is row 6400 t + p of the source table. -/
theorem srcBlock_apply (c : Dev nD) (t : Fin cfg1.N) (p : Fin 6400) (u : Fin 64) (e : Fin 800000)
    (he : e.val = t.val * 6400 + p.val) :
    (iblk1 V c 0 t : Vec Ideal S6400x64 .f32) (ix2 p u) = (V c main_v5 : Arr2 800000 64) (ix2 e u) := by
  obtain ⟨e0, e1, -⟩ := idx_facts t
  show (V c main_v5 : Arr2 800000 64) (((cfg1.win 0).blk t).view.emb (ix2 p u)) = _
  refine congrArg (V c main_v5 : Arr2 800000 64) ?_
  funext a; apply Fin.ext
  match a with
  | ⟨0, _⟩ => show win1_0.index t (0 : Fin 2) * 6400 + 1 * p.val = e.val; omega
  | ⟨1, _⟩ => show win1_0.index t (1 : Fin 2) * 64 + 1 * u.val = u.val; omega

/-- Row p of the destination block at point t is row 6400 t + p of the destination table. -/
theorem dstBlock_apply (c : Dev nD) (t : Fin cfg1.N) (p : Fin 6400) (u : Fin 64) (e : Fin 800000)
    (he : e.val = t.val * 6400 + p.val) :
    (iblk1 V c 1 t : Vec Ideal S6400x64 .f32) (ix2 p u) = (V c main_v6 : Arr2 800000 64) (ix2 e u) := by
  obtain ⟨-, -, e0, e1, -⟩ := idx_facts t
  show (V c main_v6 : Arr2 800000 64) (((cfg1.win 1).blk t).view.emb (ix2 p u)) = _
  refine congrArg (V c main_v6 : Arr2 800000 64) ?_
  funext a; apply Fin.ext
  match a with
  | ⟨0, _⟩ => show win1_1.index t (0 : Fin 2) * 6400 + 1 * p.val = e.val; omega
  | ⟨1, _⟩ => show win1_1.index t (1 : Fin 2) * 64 + 1 * u.val = u.val; omega

/-- The query matrix is staged whole: its block at any point is the array. -/
theorem wqBlock (c : Dev nD) (t : Fin cfg1.N) : (iblk1 V c 2 t : Vec Ideal S64x128 .f32) = (V c main_arg2 : Arr2 64 128) := by
  obtain ⟨i0, i1, i2, i3, i4, i5, i6, i7, i8, i9, i10, i11, i12, i13, i14, i15, i16, i17⟩ := idx_facts t
  funext y
  show (V c main_arg2 : Arr2 64 128) (((cfg1.win 2).blk t).view.emb y) = _
  refine congrArg (V c main_arg2 : Arr2 64 128) ?_
  funext a; apply Fin.ext
  match a with
  | ⟨0, _⟩ => show win1_2.index t (0 : Fin 2) * 64 + 1 * (y 0).val = (y 0).val; omega
  | ⟨1, _⟩ => show win1_2.index t (1 : Fin 2) * 128 + 1 * (y 1).val = (y 1).val; omega

/-- The query bias is staged whole. -/
theorem bqBlock (c : Dev nD) (t : Fin cfg1.N) : (iblk1 V c 3 t : Vec Ideal S128 .f32) = (V c main_arg3 : Arr1 128) := by
  obtain ⟨i0, i1, i2, i3, i4, i5, i6, i7, i8, i9, i10, i11, i12, i13, i14, i15, i16, i17⟩ := idx_facts t
  funext y
  show (V c main_arg3 : Arr1 128) (((cfg1.win 3).blk t).view.emb y) = _
  refine congrArg (V c main_arg3 : Arr1 128) ?_
  funext a; apply Fin.ext
  match a with
  | ⟨0, _⟩ => show win1_3.index t (0 : Fin 1) * 128 + 1 * (y 0).val = (y 0).val; omega

/-- The key matrix is staged whole. -/
theorem wkBlock (c : Dev nD) (t : Fin cfg1.N) : (iblk1 V c 4 t : Vec Ideal S64x128 .f32) = (V c main_arg4 : Arr2 64 128) := by
  obtain ⟨i0, i1, i2, i3, i4, i5, i6, i7, i8, i9, i10, i11, i12, i13, i14, i15, i16, i17⟩ := idx_facts t
  funext y
  show (V c main_arg4 : Arr2 64 128) (((cfg1.win 4).blk t).view.emb y) = _
  refine congrArg (V c main_arg4 : Arr2 64 128) ?_
  funext a; apply Fin.ext
  match a with
  | ⟨0, _⟩ => show win1_4.index t (0 : Fin 2) * 64 + 1 * (y 0).val = (y 0).val; omega
  | ⟨1, _⟩ => show win1_4.index t (1 : Fin 2) * 128 + 1 * (y 1).val = (y 1).val; omega

/-- The key bias is staged whole. -/
theorem bkBlock (c : Dev nD) (t : Fin cfg1.N) : (iblk1 V c 5 t : Vec Ideal S128 .f32) = (V c main_arg5 : Arr1 128) := by
  obtain ⟨i0, i1, i2, i3, i4, i5, i6, i7, i8, i9, i10, i11, i12, i13, i14, i15, i16, i17⟩ := idx_facts t
  funext y
  show (V c main_arg5 : Arr1 128) (((cfg1.win 5).blk t).view.emb y) = _
  refine congrArg (V c main_arg5 : Arr1 128) ?_
  funext a; apply Fin.ext
  match a with
  | ⟨0, _⟩ => show win1_5.index t (0 : Fin 1) * 128 + 1 * (y 0).val = (y 0).val; omega

/-- The edge network's first matrix is staged whole. -/
theorem we1Block (c : Dev nD) (t : Fin cfg1.N) : (iblk1 V c 6 t : Vec Ideal S128x128 .f32) = (V c main_arg8 : Arr2 128 128) := by
  obtain ⟨i0, i1, i2, i3, i4, i5, i6, i7, i8, i9, i10, i11, i12, i13, i14, i15, i16, i17⟩ := idx_facts t
  funext y
  show (V c main_arg8 : Arr2 128 128) (((cfg1.win 6).blk t).view.emb y) = _
  refine congrArg (V c main_arg8 : Arr2 128 128) ?_
  funext a; apply Fin.ext
  match a with
  | ⟨0, _⟩ => show win1_6.index t (0 : Fin 2) * 128 + 1 * (y 0).val = (y 0).val; omega
  | ⟨1, _⟩ => show win1_6.index t (1 : Fin 2) * 128 + 1 * (y 1).val = (y 1).val; omega

/-- The edge network's first bias is staged whole. -/
theorem be1Block (c : Dev nD) (t : Fin cfg1.N) : (iblk1 V c 7 t : Vec Ideal S128 .f32) = (V c main_arg9 : Arr1 128) := by
  obtain ⟨i0, i1, i2, i3, i4, i5, i6, i7, i8, i9, i10, i11, i12, i13, i14, i15, i16, i17⟩ := idx_facts t
  funext y
  show (V c main_arg9 : Arr1 128) (((cfg1.win 7).blk t).view.emb y) = _
  refine congrArg (V c main_arg9 : Arr1 128) ?_
  funext a; apply Fin.ext
  match a with
  | ⟨0, _⟩ => show win1_7.index t (0 : Fin 1) * 128 + 1 * (y 0).val = (y 0).val; omega

/-- The edge network's second matrix is staged whole. -/
theorem we2Block (c : Dev nD) (t : Fin cfg1.N) : (iblk1 V c 8 t : Vec Ideal S128x4 .f32) = (V c main_arg10 : Arr2 128 4) := by
  obtain ⟨i0, i1, i2, i3, i4, i5, i6, i7, i8, i9, i10, i11, i12, i13, i14, i15, i16, i17⟩ := idx_facts t
  funext y
  show (V c main_arg10 : Arr2 128 4) (((cfg1.win 8).blk t).view.emb y) = _
  refine congrArg (V c main_arg10 : Arr2 128 4) ?_
  funext a; apply Fin.ext
  match a with
  | ⟨0, _⟩ => show win1_8.index t (0 : Fin 2) * 128 + 1 * (y 0).val = (y 0).val; omega
  | ⟨1, _⟩ => show win1_8.index t (1 : Fin 2) * 4 + 1 * (y 1).val = (y 1).val; omega

/-- The edge network's second bias is staged whole. -/
theorem be2Block (c : Dev nD) (t : Fin cfg1.N) : (iblk1 V c 9 t : Vec Ideal S4 .f32) = (V c main_arg11 : Arr1 4) := by
  obtain ⟨i0, i1, i2, i3, i4, i5, i6, i7, i8, i9, i10, i11, i12, i13, i14, i15, i16, i17⟩ := idx_facts t
  funext y
  show (V c main_arg11 : Arr1 4) (((cfg1.win 9).blk t).view.emb y) = _
  refine congrArg (V c main_arg11 : Arr1 4) ?_
  funext a; apply Fin.ext
  match a with
  | ⟨0, _⟩ => show win1_9.index t (0 : Fin 1) * 4 + 1 * (y 0).val = (y 0).val; omega

/-- What point t writes back is block t of the scaled scores of the two edge tables: row p of the block is edge
    6400 t + p, whose two rows are rows p of the point's source and destination blocks. -/
theorem flushed_eq (c : Dev nD) (t : Fin cfg1.N) :
    (dat1 (F := Ideal) V c).flushed 10 t
      = ((cfg1.win 10).blk t).view.read (Elt Ideal)
          (Cert.Spec.logit (Cert.Spec.scoreOf (V c main_v5) (V c main_v6) (V c main_arg2) (V c main_arg3) (V c main_arg4)
            (V c main_arg5) (V c main_arg8) (V c main_arg9) (V c main_arg10) (V c main_arg11))) := by
  show (cfg1.win 10).cut (grid1.coords t) ((dat1 V c).after 10 t) = _
  rw [after1_10]
  obtain ⟨i0, i1, i2, i3, i4, i5, i6, i7, i8, i9, i10, i11, i12, i13, i14, i15, i16, i17⟩ := idx_facts t
  have ht := point_lt t
  funext j
  obtain ⟨h, p, rfl⟩ : ∃ (h : Fin 4) (p : Fin 6400), j = ix2 h p := ⟨j 0, j 1, eq_ix2 j⟩
  have hp : p.val < 6400 := p.isLt
  have hemb : ((cfg1.win 10).blk t).view.emb (ix2 h p)
      = (ix2 h (⟨t.val * 6400 + p.val, by omega⟩ : Fin 800000) : S4x800000.Idx) := by
    funext a; apply Fin.ext
    match a with
    | ⟨0, _⟩ => show win1_10.index t (0 : Fin 2) * 4 + 1 * h.val = h.val; omega
    | ⟨1, _⟩ => show win1_10.index t (1 : Fin 2) * 6400 + 1 * p.val = t.val * 6400 + p.val; omega
  show out1_10 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (ix2 h p)
    = Cert.Spec.logit (Cert.Spec.scoreOf (V c main_v5) (V c main_v6) (V c main_arg2) (V c main_arg3) (V c main_arg4)
        (V c main_arg5) (V c main_arg8) (V c main_arg9) (V c main_arg10) (V c main_arg11))
        (((cfg1.win 10).blk t).view.emb (ix2 h p))
  rw [hemb, logit_scoreOf_apply]
  refine (congrFun (out_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)) (ix2 h p)).trans ?_
  unfold blockLogit
  rw [wqBlock V c t, bqBlock V c t, wkBlock V c t, bkBlock V c t, we1Block V c t, be1Block V c t, we2Block V c t, be2Block V c t]
  have es : (fun u : Fin 64 => (iblk1 V c 0 t : Vec Ideal S6400x64 .f32) (ix2 p u))
      = fun u => (V c main_v5 : Arr2 800000 64) (ix2 (⟨t.val * 6400 + p.val, by omega⟩ : Fin 800000) u) :=
    funext fun u => srcBlock_apply V c t p u _ rfl
  have ed : (fun u : Fin 64 => (iblk1 V c 1 t : Vec Ideal S6400x64 .f32) (ix2 p u))
      = fun u => (V c main_v6 : Arr2 800000 64) (ix2 (⟨t.val * 6400 + p.val, by omega⟩ : Fin 800000) u) :=
    funext fun u => dstBlock_apply V c t p u _ rfl
  show rowScore (fun u : Fin 64 => (iblk1 V c 0 t : Vec Ideal S6400x64 .f32) (ix2 p u))
      (fun u : Fin 64 => (iblk1 V c 1 t : Vec Ideal S6400x64 .f32) (ix2 p u)) _ _ _ _ _ _ _ _ h * Cert.Spec.cinv = _
  rw [es, ed]

/-- An index of the output array lies in point t's block when, on each axis, it lies in the block's range. -/
theorem mem_blk (t : Fin cfg1.N) (i : S4x800000.Idx) :
    i ∈ ((cfg1.win 10).blk t).view.set
      ↔ ∀ a : Fin 2, win1_10.index t a * S4x6400.size a ≤ (i a).val
          ∧ (i a).val < win1_10.index t a * S4x6400.size a + S4x6400.size a := by
  show i ∈ ((View.whole main_v7).slice (win1_10.rect t)).set ↔ _
  rw [View.set_slice_whole, Rect.mem_set_unit]
  exact Iff.rfl

/-- Every entry (h, e) of the output array lies in the block of point e / 6400. -/
theorem cover (i : S4x800000.Idx) :
    ∃ t : Fin cfg1.N, (cfg1.win 10).flush t = true ∧ i ∈ ((cfg1.win 10).blk t).view.set := by
  have hi0 : (i 0).val < 4 := (i 0).isLt
  have hi1 : (i 1).val < 800000 := (i 1).isLt
  obtain ⟨hq, hlo, hhi⟩ := Cert.LibBlocks.row_in_block (nb := 125) (bs := 6400) (r := (i 1).val) (by omega) (by omega)
  obtain ⟨t, ht⟩ : ∃ t : Fin cfg1.N, t.val = (i 1).val / 6400 :=
    ⟨⟨(i 1).val / 6400, Nat.lt_of_lt_of_eq hq N_1.symm⟩, rfl⟩
  obtain ⟨i0, i1, i2, i3, i4, i5, i6, i7, i8, i9, i10, i11, i12, i13, i14, i15, i16, i17⟩ := idx_facts t
  refine ⟨t, flush1_10 t, ?_⟩
  rw [mem_blk]
  intro a
  match a with
  | ⟨0, _⟩ =>
    show win1_10.index t (0 : Fin 2) * 4 ≤ (i 0).val ∧ (i 0).val < win1_10.index t (0 : Fin 2) * 4 + 4
    omega
  | ⟨1, _⟩ =>
    show win1_10.index t (1 : Fin 2) * 6400 ≤ (i 1).val ∧ (i 1).val < win1_10.index t (1 : Fin 2) * 6400 + 6400
    omega

/-- Region 1 (the edge kernel, 125 blocks of 6400 edges): its output array [4, 800000] after the region is the
    scaled score, head-major, of the source rows `main_v5` and destination rows `main_v6` the region finds. -/
theorem final (c : Dev nD) :
    (dat1 (F := Ideal) V c).arrAt 10 cfg1.N
      = Cert.Spec.logit (Cert.Spec.scoreOf (V c main_v5) (V c main_v6) (V c main_arg2) (V c main_arg3) (V c main_arg4)
          (V c main_arg5) (V c main_arg8) (V c main_arg9) (V c main_arg10) (V c main_arg11)) :=
  (dat1 (F := Ideal) V c).arrAt_eq_of_cover 10 _ (fun t _ => flushed_eq V c t) cover

end Cert.KernelIdeal.Reg1

end
-- ==== Proof.KReg2.lean ====
import proofs.«408399_j1297080123525_4_alg».proof.Proof.Gen.KernelIdeal.Frame
import proofs.«408399_j1297080123525_4_alg».proof.Proof.Spec
import Idealize.ShloMosaic.Lib.Pipeline.Value
import Idealize.ShloMosaic.Lib.ValueLayout
import Idealize.ShloMosaic.PureOps.Ideal.Laws
import proofs.«408399_j1297080123525_4_alg».proof.Proof.LibBlocks

noncomputable section

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The four column slabs of a block, entry by entry -/

/-- Columns 0 … 31 of the weighted block: entry (p, q) of this slab is the value entry (p, 0 + q) times
    head 0's exponential at edge p. The exponentials arrive head-major and are read across the transposition. -/
theorem pay3_apply (x0 : Vec Ideal S6400x128 .f32) (x1 : Vec Ideal S4x6400 .f32) (p : Fin 6400) (q : Fin 32) :
    k2_pay3 x0 x1 (ix2 p q) = x0 (ix2 p ⟨0 + q.val, by omega⟩) * x1 (ix2 (⟨0, by omega⟩ : Fin 4) p) := by
  unfold k2_pay3 k2_pay1 k2_pay2
  rw [mulf_apply]
  rw [slice2_axis1_apply 0 _ slices_S6400x128_o0_0_S6400x32 p q ⟨0 + q.val, by omega⟩ rfl]
  rw [shapeCast_apply x0 shapeCasts_S6400x128_S6400x128 _ _ rfl]
  rw [broadcastTo_apply _ broadcasts_S6400x1_S6400x32 (ix2 p q) (ix2 p (0 : Fin 1)) (fun a => by
      match a with
      | ⟨0, _⟩ => rfl
      | ⟨1, _⟩ => rfl)]
  rw [slice2_axis1_apply 0 _ slices_S6400x4_o0_0_S6400x1 p (0 : Fin 1) (⟨0, by omega⟩ : Fin 4) rfl]
  rw [transpose_ix2_apply _ transposes_S4x6400_p1_0_S6400x4 p (⟨0, by omega⟩ : Fin 4)]
  rw [shapeCast_apply x1 shapeCasts_S4x6400_S4x6400 _ _ rfl]

/-- Columns 32 … 63 of the weighted block: entry (p, q) of this slab is the value entry (p, 32 + q) times
    head 1's exponential at edge p. The exponentials arrive head-major and are read across the transposition. -/
theorem pay4_apply (x0 : Vec Ideal S6400x128 .f32) (x1 : Vec Ideal S4x6400 .f32) (p : Fin 6400) (q : Fin 32) :
    k2_pay4 x0 x1 (ix2 p q) = x0 (ix2 p ⟨32 + q.val, by omega⟩) * x1 (ix2 (⟨1, by omega⟩ : Fin 4) p) := by
  unfold k2_pay4 k2_pay1 k2_pay2
  rw [mulf_apply]
  rw [slice2_axis1_apply 32 _ slices_S6400x128_o0_32_S6400x32 p q ⟨32 + q.val, by omega⟩ rfl]
  rw [shapeCast_apply x0 shapeCasts_S6400x128_S6400x128 _ _ rfl]
  rw [broadcastTo_apply _ broadcasts_S6400x1_S6400x32 (ix2 p q) (ix2 p (0 : Fin 1)) (fun a => by
      match a with
      | ⟨0, _⟩ => rfl
      | ⟨1, _⟩ => rfl)]
  rw [slice2_axis1_apply 1 _ slices_S6400x4_o0_1_S6400x1 p (0 : Fin 1) (⟨1, by omega⟩ : Fin 4) rfl]
  rw [transpose_ix2_apply _ transposes_S4x6400_p1_0_S6400x4 p (⟨1, by omega⟩ : Fin 4)]
  rw [shapeCast_apply x1 shapeCasts_S4x6400_S4x6400 _ _ rfl]

/-- Columns 64 … 95 of the weighted block: entry (p, q) of this slab is the value entry (p, 64 + q) times
    head 2's exponential at edge p. The exponentials arrive head-major and are read across the transposition. -/
theorem pay5_apply (x0 : Vec Ideal S6400x128 .f32) (x1 : Vec Ideal S4x6400 .f32) (p : Fin 6400) (q : Fin 32) :
    k2_pay5 x0 x1 (ix2 p q) = x0 (ix2 p ⟨64 + q.val, by omega⟩) * x1 (ix2 (⟨2, by omega⟩ : Fin 4) p) := by
  unfold k2_pay5 k2_pay1 k2_pay2
  rw [mulf_apply]
  rw [slice2_axis1_apply 64 _ slices_S6400x128_o0_64_S6400x32 p q ⟨64 + q.val, by omega⟩ rfl]
  rw [shapeCast_apply x0 shapeCasts_S6400x128_S6400x128 _ _ rfl]
  rw [broadcastTo_apply _ broadcasts_S6400x1_S6400x32 (ix2 p q) (ix2 p (0 : Fin 1)) (fun a => by
      match a with
      | ⟨0, _⟩ => rfl
      | ⟨1, _⟩ => rfl)]
  rw [slice2_axis1_apply 2 _ slices_S6400x4_o0_2_S6400x1 p (0 : Fin 1) (⟨2, by omega⟩ : Fin 4) rfl]
  rw [transpose_ix2_apply _ transposes_S4x6400_p1_0_S6400x4 p (⟨2, by omega⟩ : Fin 4)]
  rw [shapeCast_apply x1 shapeCasts_S4x6400_S4x6400 _ _ rfl]

/-- Columns 96 … 127 of the weighted block: entry (p, q) of this slab is the value entry (p, 96 + q) times
    head 3's exponential at edge p. The exponentials arrive head-major and are read across the transposition. -/
theorem pay6_apply (x0 : Vec Ideal S6400x128 .f32) (x1 : Vec Ideal S4x6400 .f32) (p : Fin 6400) (q : Fin 32) :
    k2_pay6 x0 x1 (ix2 p q) = x0 (ix2 p ⟨96 + q.val, by omega⟩) * x1 (ix2 (⟨3, by omega⟩ : Fin 4) p) := by
  unfold k2_pay6 k2_pay1 k2_pay2
  rw [mulf_apply]
  rw [slice2_axis1_apply 96 _ slices_S6400x128_o0_96_S6400x32 p q ⟨96 + q.val, by omega⟩ rfl]
  rw [shapeCast_apply x0 shapeCasts_S6400x128_S6400x128 _ _ rfl]
  rw [broadcastTo_apply _ broadcasts_S6400x1_S6400x32 (ix2 p q) (ix2 p (0 : Fin 1)) (fun a => by
      match a with
      | ⟨0, _⟩ => rfl
      | ⟨1, _⟩ => rfl)]
  rw [slice2_axis1_apply 3 _ slices_S6400x4_o0_3_S6400x1 p (0 : Fin 1) (⟨3, by omega⟩ : Fin 4) rfl]
  rw [transpose_ix2_apply _ transposes_S4x6400_p1_0_S6400x4 p (⟨3, by omega⟩ : Fin 4)]
  rw [shapeCast_apply x1 shapeCasts_S4x6400_S4x6400 _ _ rfl]

/-! ## The block the body leaves: one function of the two input blocks -/

/-- The four slab stores together fill the [6400, 128] block with ONE function of its index: entry (p, j) is the value
    entry (p, j) times the exponential of head j / 32 at edge p. Each slab is that function on its 32 columns, and the
    four slabs tile the block. -/
theorem out_apply (x0 : Vec Ideal S6400x128 .f32) (x1 : Vec Ideal S4x6400 .f32) (y : S6400x128.Idx) :
    out2_2 x0 x1 y = x0 y * x1 (ix2 (Cert.Spec.hOf (y 1)) (y 0)) := by
  unfold out2_2
  simp only [View.ld_unit_zero (S := S6400x128) Cert.LibBlocks.off2_zero, View.ld_unit_zero (S := S4x6400) Cert.LibBlocks.off2_zero]
  refine View.canon_apply_of_pieces (fun y : S6400x128.Idx => x0 y * x1 (ix2 (Cert.Spec.hOf (y 1)) (y 0))) _ ?_ y (cover2_2 _ _ _ _ y)
  intro pc hpc x
  simp only [List.mem_cons, List.mem_singleton, List.not_mem_nil, or_false] at hpc
  rcases hpc with rfl | rfl | rfl | rfl
  · obtain ⟨p, q, rfl⟩ : ∃ (p : Fin 6400) (q : Fin 32), x = ix2 p q := ⟨x 0, x 1, eq_ix2 (n0 := 6400) (n1 := 32) x⟩
    have hq : q.val < 32 := q.isLt
    have hemb : r2_5.emb (ix2 p q) = ix2 p (⟨96 + q.val, by omega⟩ : Fin 128) := funext fun a => Fin.ext (by
      match a with
      | ⟨0, _⟩ => show 0 + 1 * p.val = p.val; omega
      | ⟨1, _⟩ => show 96 + 1 * q.val = 96 + q.val; omega)
    show k2_pay6 x0 x1 (ix2 p q) = x0 (r2_5.emb (ix2 p q)) * x1 (ix2 (Cert.Spec.hOf ((r2_5.emb (ix2 p q)) 1)) ((r2_5.emb (ix2 p q)) 0))
    rw [hemb, pay6_apply]
    have hh : Cert.Spec.hOf (⟨96 + q.val, by omega⟩ : Fin 128) = (⟨3, by omega⟩ : Fin 4) := Fin.ext (by
      show (96 + q.val) / 32 = 3; omega)
    show _ = x0 (ix2 p ⟨96 + q.val, _⟩) * x1 (ix2 (Cert.Spec.hOf (⟨96 + q.val, _⟩ : Fin 128)) p)
    rw [hh]
  · obtain ⟨p, q, rfl⟩ : ∃ (p : Fin 6400) (q : Fin 32), x = ix2 p q := ⟨x 0, x 1, eq_ix2 (n0 := 6400) (n1 := 32) x⟩
    have hq : q.val < 32 := q.isLt
    have hemb : r2_4.emb (ix2 p q) = ix2 p (⟨64 + q.val, by omega⟩ : Fin 128) := funext fun a => Fin.ext (by
      match a with
      | ⟨0, _⟩ => show 0 + 1 * p.val = p.val; omega
      | ⟨1, _⟩ => show 64 + 1 * q.val = 64 + q.val; omega)
    show k2_pay5 x0 x1 (ix2 p q) = x0 (r2_4.emb (ix2 p q)) * x1 (ix2 (Cert.Spec.hOf ((r2_4.emb (ix2 p q)) 1)) ((r2_4.emb (ix2 p q)) 0))
    rw [hemb, pay5_apply]
    have hh : Cert.Spec.hOf (⟨64 + q.val, by omega⟩ : Fin 128) = (⟨2, by omega⟩ : Fin 4) := Fin.ext (by
      show (64 + q.val) / 32 = 2; omega)
    show _ = x0 (ix2 p ⟨64 + q.val, _⟩) * x1 (ix2 (Cert.Spec.hOf (⟨64 + q.val, _⟩ : Fin 128)) p)
    rw [hh]
  · obtain ⟨p, q, rfl⟩ : ∃ (p : Fin 6400) (q : Fin 32), x = ix2 p q := ⟨x 0, x 1, eq_ix2 (n0 := 6400) (n1 := 32) x⟩
    have hq : q.val < 32 := q.isLt
    have hemb : r2_3.emb (ix2 p q) = ix2 p (⟨32 + q.val, by omega⟩ : Fin 128) := funext fun a => Fin.ext (by
      match a with
      | ⟨0, _⟩ => show 0 + 1 * p.val = p.val; omega
      | ⟨1, _⟩ => show 32 + 1 * q.val = 32 + q.val; omega)
    show k2_pay4 x0 x1 (ix2 p q) = x0 (r2_3.emb (ix2 p q)) * x1 (ix2 (Cert.Spec.hOf ((r2_3.emb (ix2 p q)) 1)) ((r2_3.emb (ix2 p q)) 0))
    rw [hemb, pay4_apply]
    have hh : Cert.Spec.hOf (⟨32 + q.val, by omega⟩ : Fin 128) = (⟨1, by omega⟩ : Fin 4) := Fin.ext (by
      show (32 + q.val) / 32 = 1; omega)
    show _ = x0 (ix2 p ⟨32 + q.val, _⟩) * x1 (ix2 (Cert.Spec.hOf (⟨32 + q.val, _⟩ : Fin 128)) p)
    rw [hh]
  · obtain ⟨p, q, rfl⟩ : ∃ (p : Fin 6400) (q : Fin 32), x = ix2 p q := ⟨x 0, x 1, eq_ix2 (n0 := 6400) (n1 := 32) x⟩
    have hq : q.val < 32 := q.isLt
    have hemb : r2_2.emb (ix2 p q) = ix2 p (⟨0 + q.val, by omega⟩ : Fin 128) := funext fun a => Fin.ext (by
      match a with
      | ⟨0, _⟩ => show 0 + 1 * p.val = p.val; omega
      | ⟨1, _⟩ => show 0 + 1 * q.val = 0 + q.val; omega)
    show k2_pay3 x0 x1 (ix2 p q) = x0 (r2_2.emb (ix2 p q)) * x1 (ix2 (Cert.Spec.hOf ((r2_2.emb (ix2 p q)) 1)) ((r2_2.emb (ix2 p q)) 0))
    rw [hemb, pay3_apply]
    have hh : Cert.Spec.hOf (⟨0 + q.val, by omega⟩ : Fin 128) = (⟨0, by omega⟩ : Fin 4) := Fin.ext (by
      show (0 + q.val) / 32 = 0; omega)
    show _ = x0 (ix2 p ⟨0 + q.val, _⟩) * x1 (ix2 (Cert.Spec.hOf (⟨0 + q.val, _⟩ : Fin 128)) p)
    rw [hh]

/-! ## From blocks to the array -/

/-- The index maps over the 125 grid points: the value block and the output block are both row block t, all 128
    columns; the exponentials' block is all 4 heads, column block t. -/
theorem idx_facts : ∀ t : Fin cfg2.N, win2_2.index t (0 : Fin 2) = t.val
    ∧ win2_2.index t (1 : Fin 2) = 0
    ∧ win2_0.index t (0 : Fin 2) = t.val
    ∧ win2_0.index t (1 : Fin 2) = 0
    ∧ win2_1.index t (0 : Fin 2) = 0
    ∧ win2_1.index t (1 : Fin 2) = t.val :=
  (by decide +kernel : ∀ t : Fin grid2.N, _)

/-- Block t of the weighted value rows, entry by entry: the value block's entry j is the array's entry at row
    6400 t + j₀, and the exponentials' block, read at (head of column j₁, j₀), is the array's entry at that head and
    edge 6400 t + j₀. -/
theorem blk_weighted (A : Cert.Spec.Arr2 800000 128) (P : Cert.Spec.Arr2 4 800000) (t : Fin cfg2.N) (j : S6400x128.Idx) :
    A (((cfg2.win 0).blk t).view.emb j) * P (((cfg2.win 1).blk t).view.emb (ix2 (Cert.Spec.hOf (j 1)) (j 0)))
      = Cert.Spec.weighted A P (((cfg2.win 2).blk t).view.emb j) := by
  obtain ⟨e0, e1, e2, e3, e4, e5⟩ := idx_facts t
  have hj0 : (j 0).val < 6400 := (j 0).isLt
  have hj1 : (j 1).val < 128 := (j 1).isLt
  show _ = A (((cfg2.win 2).blk t).view.emb j)
      * P (ix2 (Cert.Spec.hOf ((((cfg2.win 2).blk t).view.emb j) 1)) ((((cfg2.win 2).blk t).view.emb j) 0))
  have h0 : ((cfg2.win 0).blk t).view.emb j = ((cfg2.win 2).blk t).view.emb j := by
    funext a; apply Fin.ext
    match a with
    | ⟨0, _⟩ => show win2_0.index t (0 : Fin 2) * 6400 + 1 * (j 0).val = win2_2.index t (0 : Fin 2) * 6400 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb (ix2 (Cert.Spec.hOf (j 1)) (j 0))
      = ix2 (Cert.Spec.hOf ((((cfg2.win 2).blk t).view.emb j) 1)) ((((cfg2.win 2).blk t).view.emb j) 0) := by
    funext a; apply Fin.ext
    match a with
    | ⟨0, _⟩ =>
      show win2_1.index t (0 : Fin 2) * 4 + 1 * ((j 1).val / 32) = (win2_2.index t (1 : Fin 2) * 128 + 1 * (j 1).val) / 32
      omega
    | ⟨1, _⟩ =>
      show win2_1.index t (1 : Fin 2) * 6400 + 1 * (j 0).val = win2_2.index t (0 : Fin 2) * 6400 + 1 * (j 0).val
      omega
  rw [h0, h1]
  rfl

/-- What point t writes back is block t (edges 6400 t … 6400 t + 6399, all 128 columns) of the weighted value rows of
    the arrays the region finds. -/
theorem flushed_eq (c : Dev nD) (t : Fin cfg2.N) :
    (dat2 (F := Ideal) V c).flushed 2 t
      = ((cfg2.win 2).blk t).view.read (Elt Ideal) (Cert.Spec.weighted (V c main_v15) (V c main_v12)) := by
  show (cfg2.win 2).cut (grid2.coords t) ((dat2 V c).after 2 t) = _
  rw [after2_2]
  funext j
  show out2_2 (iblk2 V c 0 t) (iblk2 V c 1 t) j
    = Cert.Spec.weighted (V c main_v15) (V c main_v12) (((cfg2.win 2).blk t).view.emb j)
  rw [out_apply]
  exact blk_weighted (V c main_v15) (V c main_v12) t j

/-- An entry of the output array is in point t's block iff each coordinate is in the block's range on its axis. -/
theorem mem_blk (t : Fin cfg2.N) (i : S800000x128.Idx) :
    i ∈ ((cfg2.win 2).blk t).view.set ↔ ∀ a : Fin 2, win2_2.index t a * S6400x128.size a ≤ (i a).val
      ∧ (i a).val < win2_2.index t a * S6400x128.size a + S6400x128.size a := by
  show i ∈ ((View.whole main_v16).slice (win2_2.rect t)).set ↔ _
  rw [View.set_slice_whole, Rect.mem_set_unit]
  exact Iff.rfl

/-- The 125 row blocks fill the array: edge e lies in block e / 6400. -/
theorem cover (i : S800000x128.Idx) :
    ∃ t : Fin cfg2.N, (cfg2.win 2).flush t = true ∧ i ∈ ((cfg2.win 2).blk t).view.set := by
  have hi0 : (i 0).val < 800000 := (i 0).isLt
  have hi1 : (i 1).val < 128 := (i 1).isLt
  have hN : cfg2.N = 125 := rfl
  let t : Fin cfg2.N := ⟨(i 0).val / 6400, by rw [hN]; omega⟩
  obtain ⟨e0, e1, -, -, -, -⟩ := idx_facts t
  have ht : t.val = (i 0).val / 6400 := rfl
  refine ⟨t, flush2_2 t, ?_⟩
  rw [mem_blk]
  intro a
  match a with
  | ⟨0, _⟩ => show win2_2.index t (0 : Fin 2) * 6400 ≤ (i 0).val ∧ (i 0).val < win2_2.index t (0 : Fin 2) * 6400 + 6400; omega
  | ⟨1, _⟩ => show win2_2.index t (1 : Fin 2) * 128 ≤ (i 1).val ∧ (i 1).val < win2_2.index t (1 : Fin 2) * 128 + 128; omega

/-- Region 2 (the weighting kernel, 125 blocks of 6400 edges): its output array [800000, 128] after the region is
    the value rows `main_v15` weighted head by head by the exponentials `main_v12` [4, 800000]. -/
theorem final (c : Dev nD) :
    (dat2 (F := Ideal) V c).arrAt 2 cfg2.N = Cert.Spec.weighted (V c main_v15) (V c main_v12) :=
  (dat2 (F := Ideal) V c).arrAt_eq_of_cover 2 _ (fun t _ => flushed_eq V c t) cover

end Cert.KernelIdeal.Reg2

end
-- ==== Proof.KReg3.lean ====
/-
  THE LAST REGION: COLUMN SCALING, OUTPUT PROJECTION AND LAYER NORMALISATION, TWO BLOCKS OF 25000 ROWS.

  The region works the node sums [50000, 128] in two blocks of 25000 consecutive rows; the column factors [128], the
  projection matrix [128, 128], its bias, the gain and the offset [128] are staged whole at both points. On a block x
  the body computes, row by row,

    y (p, j)   = Σ_k (x (p, k) · factor k) · Wo (k, j) + bo j        (a matrix product from a zero accumulator),
    mean p     = (Σ_j y (p, j)) / 128,
    var p      = (Σ_j (y (p, j) − mean p)²) / 128,
    out (p, q) = ((y (p, q) − mean p) · rsqrt (var p + ε)) · gain q + offset q,

  with 128 and ε kept as their single-precision words. Every quantity of row p depends on row p of the block alone, so
  the block's result is rows 25000 t … 25000 t + 24999 of the same formulas on the whole array: the specification's
  layer normalisation of the affine map of the column-scaled node sums. The two blocks tile the 50000 rows (row r is in
  block r / 25000), so after the region the output array is that function everywhere.

  The order: the layout operations and the two reductions read at an element; the projection and the normalisation of a
  block at an element, as one row function each; the specification's row as the same two row functions; each window's
  block as rows of its array; what a point writes back; the cover; the array after the region.
-/
import proofs.«408399_j1297080123525_4_alg».proof.Proof.Gen.KernelIdeal.Frame
import proofs.«408399_j1297080123525_4_alg».proof.Proof.Spec
import Idealize.ShloMosaic.Lib.Pipeline.Value
import Idealize.ShloMosaic.Lib.ValueLayout
import Idealize.ShloMosaic.PureOps.Ideal.Laws
import proofs.«408399_j1297080123525_4_alg».proof.Proof.LibBlocks

noncomputable section

open scoped BigOperators

namespace Cert.KernelIdeal.Reg3

open Cert.KernelIdeal Cert.KernelIdeal.Gen Idealize.ShloMosaic Idealize.ShloMosaic.TcCoe Idealize.SL.Sem
open Idealize.ShloMosaic.Pipeline (Dat)
open Idealize.ShloMosaic.ValueIdx

/-! ## Layout operations and reductions of a [25000, 128] block, read at an element -/

/-- A vector of 128 entries laid out as one row and repeated down 25000 rows reads, at (p, q), the vector's entry q. -/
theorem rowBroadcast_apply {α : Type} (v : S128.Idx → α) (p : Fin 25000) (q : Fin 128) :
    broadcastTo S25000x128 (shapeCast S1x128 v shapeCasts_S128_S1x128) broadcasts_S1x128_S25000x128 (ix2 p q) = v (ix1 q) := by
  rw [broadcastTo_1b_ab_apply, shapeCast_a_1a_apply]

/-- A column of 25000 entries repeated across 128 columns reads, at (p, q), the column's entry p. -/
theorem colBroadcast_apply {α : Type} (w : S25000x1.Idx → α) (p : Fin 25000) (q : Fin 128) :
    broadcastTo S25000x128 w broadcasts_S25000x1_S25000x128 (ix2 p q) = w (ix2 p (0 : Fin 1)) := by
  refine broadcastTo_apply w broadcasts_S25000x1_S25000x128 (ix2 p q) (ix2 p (0 : Fin 1)) fun ax => ?_
  match ax with
  | ⟨0, _⟩ => rfl
  | ⟨1, _⟩ => rfl

/-- A vector of 25000 entries stood up as a column reads, at (p, 0), the vector's entry p. -/
theorem asColumn_apply {α : Type} (u : S25000.Idx → α) (p : Fin 25000) :
    shapeCast S25000x1 u shapeCasts_S25000_S25000x1 (ix2 p (0 : Fin 1)) = u (ix1 p) :=
  shapeCast_apply u shapeCasts_S25000_S25000x1 _ _ (by
    rw [Shape.rowMajor_val_two, Shape.rowMajor_val_one]
    show p.val = p.val * 1 + 0
    omega)

/-- The sum along the 128 columns of a block, at row p. -/
theorem laneSum_apply (src : FVec Ideal S25000x128 .f32) (p : Fin 25000) :
    multiReduction .add [1] S25000 src 0x00000000#32 reduces_S25000x128_S25000 (.inl rfl) rfl (ix1 p)
      = ∑ k : Fin 128, src (ix2 p k) := by
  refine (Ideal.multiReduction_add_single src 0x00000000#32 reduces_S25000x128_S25000 (.inl rfl) rfl (ix1 p)).trans ?_
  refine Finset.sum_congr rfl fun k _ => congrArg src (funext fun ax => Fin.ext ?_)
  match ax with
  | ⟨0, _⟩ => rfl
  | ⟨1, _⟩ => rfl

/-- The block product into a zero accumulator at (p, q): the sum over k of left (p, k) right (k, q). -/
theorem blockProduct_apply (l : FVec Ideal S25000x128 .f32) (r : FVec Ideal S128x128 .f32) (p : Fin 25000) (q : Fin 128) :
    matmul dot_S25000x128_S128x128_S25000x128_1_0_0_1_n_n none l r (constant S25000x128 .f32 0x00000000#32) (ix2 p q)
      = ∑ k : Fin 128, l (ix2 p k) * r (ix2 k q) :=
  Cert.LibBlocks.matmul_plain_apply dot_S25000x128_S128x128_S25000x128_1_0_0_1_n_n rfl none l r p q

/-! ## One row of the projection and of the normalisation -/

/-- One row of the projection: from the row's 128 node sums a, entry j is Σ_k (a k · f k) · Wo (k, j) + bo j. -/
def rowLin (a : Fin 128 → EReal) (f : Cert.Spec.Arr1 128) (Wo : Cert.Spec.Arr2 128 128) (bo : Cert.Spec.Arr1 128) (j : Fin 128) : EReal :=
  (∑ k : Fin 128, (a k * f (ix1 k)) * Wo (ix2 k j)) + bo (ix1 j)

/-- One row of the normalisation: the row y less its mean, over the root of its variance plus epsilon, times the gain, plus
    the offset. -/
def rowNorm (y : Fin 128 → EReal) (g b : Cert.Spec.Arr1 128) (q : Fin 128) : EReal :=
  ((y q - Ideal.div (∑ j : Fin 128, y j) Cert.Spec.c128)
      * Ideal.rsqrt (Ideal.div (∑ j : Fin 128, (y j - Ideal.div (∑ j : Fin 128, y j) Cert.Spec.c128)
          * (y j - Ideal.div (∑ j : Fin 128, y j) Cert.Spec.c128)) Cert.Spec.c128 + Cert.Spec.eps))
    * g (ix1 q) + b (ix1 q)

/-- The specification's row r, entry q, is the row normalisation of the row projection of the node sums' row r. -/
theorem spec_row (agg : Cert.Spec.Arr2 50000 128) (f : Cert.Spec.Arr1 128) (Wo : Cert.Spec.Arr2 128 128) (bo g b : Cert.Spec.Arr1 128)
    (r : Fin 50000) (q : Fin 128) :
    Cert.Spec.lnorm (Cert.Spec.lin (Cert.Spec.scaleCols agg f) Wo bo) g b (ix2 r q)
      = rowNorm (rowLin (fun k => agg (ix2 r k)) f Wo bo) g b q := rfl

/-! ## The block's arithmetic at an element -/

/-- The block's projection: the node sums times the column factors, times Wo on the matrix unit from a zero accumulator,
    plus the bias row. -/
def projBlk (x0 : FVec Ideal S25000x128 .f32) (x1 : FVec Ideal S128 .f32) (x2 : FVec Ideal S128x128 .f32) (x3 : FVec Ideal S128 .f32) :
    FVec Ideal S25000x128 .f32 :=
  addf (matmul dot_S25000x128_S128x128_S25000x128_1_0_0_1_n_n none
      (mulf (shapeCast S25000x128 x0 shapeCasts_S25000x128_S25000x128)
        (broadcastTo S25000x128 (shapeCast S1x128 (shapeCast S128 x1 shapeCasts_S128_S128) shapeCasts_S128_S1x128) broadcasts_S1x128_S25000x128))
      x2 (constant S25000x128 .f32 0x00000000#32))
    (broadcastTo S25000x128 (shapeCast S1x128 x3 shapeCasts_S128_S1x128) broadcasts_S1x128_S25000x128)

/-- The projection at (p, q). -/
theorem projBlk_apply (x0 : FVec Ideal S25000x128 .f32) (x1 : FVec Ideal S128 .f32) (x2 : FVec Ideal S128x128 .f32) (x3 : FVec Ideal S128 .f32)
    (p : Fin 25000) (q : Fin 128) :
    projBlk x0 x1 x2 x3 (ix2 p q) = rowLin (fun k => x0 (ix2 p k)) x1 x2 x3 q := by
  unfold projBlk rowLin
  rw [addf_apply, blockProduct_apply, rowBroadcast_apply]
  congr 1
  refine Finset.sum_congr rfl fun k _ => ?_
  rw [mulf_apply, shapeCast_self, shapeCast_self, rowBroadcast_apply]

/-- The reciprocal square root of a vector at an index. -/
theorem rsqrt_apply {s : Shape} {φ : FTy} (a : FVec Ideal s φ) (i : s.Idx) : rsqrt a i = Ideal.rsqrt (a i) := rfl

/-- The column of row means of a block: each row's lane sum over the word of 128. -/
def meanCol (y : FVec Ideal S25000x128 .f32) : FVec Ideal S25000x1 .f32 :=
  divf (shapeCast S25000x1 (multiReduction .add [1] S25000 y 0x00000000#32 reduces_S25000x128_S25000 (.inl rfl) rfl) shapeCasts_S25000_S25000x1)
    (broadcast S25000x1 (Scalar.ofBits (F := Ideal) .f32 0x43000000#32))

/-- The block less its row means. -/
def centred (y : FVec Ideal S25000x128 .f32) : FVec Ideal S25000x128 .f32 :=
  subf y (broadcastTo S25000x128 (meanCol y) broadcasts_S25000x1_S25000x128)

/-- The column of row variances of a block: each row's lane sum of the centred squares over the word of 128. -/
def varCol (y : FVec Ideal S25000x128 .f32) : FVec Ideal S25000x1 .f32 :=
  divf (shapeCast S25000x1 (multiReduction .add [1] S25000 (mulf (centred y) (centred y)) 0x00000000#32 reduces_S25000x128_S25000 (.inl rfl) rfl)
      shapeCasts_S25000_S25000x1)
    (broadcast S25000x1 (Scalar.ofBits (F := Ideal) .f32 0x43000000#32))

/-- The block's layer normalisation with gain row x4 and offset row x5. -/
def normBlk (y : FVec Ideal S25000x128 .f32) (x4 x5 : FVec Ideal S128 .f32) : FVec Ideal S25000x128 .f32 :=
  addf (mulf (mulf (centred y)
        (broadcastTo S25000x128 (rsqrt (addf (varCol y) (broadcast S25000x1 (Scalar.ofBits (F := Ideal) .f32 0x3727C5AC#32))))
          broadcasts_S25000x1_S25000x128))
      (broadcastTo S25000x128 (shapeCast S1x128 x4 shapeCasts_S128_S1x128) broadcasts_S1x128_S25000x128))
    (broadcastTo S25000x128 (shapeCast S1x128 x5 shapeCasts_S128_S1x128) broadcasts_S1x128_S25000x128)

/-- The body's stored value is the normalisation of the projection. -/
theorem pay_eq (x0 : FVec Ideal S25000x128 .f32) (x1 : FVec Ideal S128 .f32) (x2 : FVec Ideal S128x128 .f32) (x3 x4 x5 : FVec Ideal S128 .f32) :
    k3_pay1 (F := Ideal) x0 x1 x2 x3 x4 x5 = normBlk (projBlk x0 x1 x2 x3) x4 x5 := rfl

/-- Row p's mean. -/
theorem meanCol_apply (y : FVec Ideal S25000x128 .f32) (p : Fin 25000) :
    meanCol y (ix2 p (0 : Fin 1)) = Ideal.div (∑ j : Fin 128, y (ix2 p j)) Cert.Spec.c128 := by
  unfold meanCol
  rw [divf_apply, asColumn_apply, laneSum_apply]
  rfl

/-- The centred block at (p, q). -/
theorem centred_apply (y : FVec Ideal S25000x128 .f32) (p : Fin 25000) (q : Fin 128) :
    centred y (ix2 p q) = y (ix2 p q) - Ideal.div (∑ j : Fin 128, y (ix2 p j)) Cert.Spec.c128 := by
  unfold centred
  rw [subf_apply, colBroadcast_apply, meanCol_apply]

/-- Row p's variance. -/
theorem varCol_apply (y : FVec Ideal S25000x128 .f32) (p : Fin 25000) :
    varCol y (ix2 p (0 : Fin 1))
      = Ideal.div (∑ j : Fin 128, (y (ix2 p j) - Ideal.div (∑ j : Fin 128, y (ix2 p j)) Cert.Spec.c128)
          * (y (ix2 p j) - Ideal.div (∑ j : Fin 128, y (ix2 p j)) Cert.Spec.c128)) Cert.Spec.c128 := by
  unfold varCol
  rw [divf_apply, asColumn_apply, laneSum_apply]
  refine congrArg₂ Ideal.div (Finset.sum_congr rfl fun j _ => ?_) rfl
  rw [mulf_apply, centred_apply]

/-- The normalised block at (p, q) is the row normalisation of row p. -/
theorem normBlk_apply (y : FVec Ideal S25000x128 .f32) (x4 x5 : FVec Ideal S128 .f32) (p : Fin 25000) (q : Fin 128) :
    normBlk y x4 x5 (ix2 p q) = rowNorm (fun j => y (ix2 p j)) x4 x5 q := by
  unfold normBlk rowNorm
  rw [addf_apply, mulf_apply, mulf_apply, centred_apply, rowBroadcast_apply, rowBroadcast_apply, colBroadcast_apply,
    rsqrt_apply, addf_apply, varCol_apply]
  rfl

/-- The body's stored value at (p, q), from the block's row p. -/
theorem pay_apply (x0 : FVec Ideal S25000x128 .f32) (x1 : FVec Ideal S128 .f32) (x2 : FVec Ideal S128x128 .f32) (x3 x4 x5 : FVec Ideal S128 .f32)
    (p : Fin 25000) (q : Fin 128) :
    k3_pay1 (F := Ideal) x0 x1 x2 x3 x4 x5 (ix2 p q) = rowNorm (rowLin (fun k => x0 (ix2 p k)) x1 x2 x3) x4 x5 q := by
  rw [pay_eq, normBlk_apply]
  exact congrArg (fun y => rowNorm y x4 x5 q) (funext fun j => projBlk_apply x0 x1 x2 x3 p j)

/-! ## From the blocks to the array -/

variable (V : (c : Dev nD) → (b : Ref sig .tc) → Buf (Elt Ideal) ((c : Thread nD τ).loc b))

/-- The specification's array of the buffers the region finds. -/
abbrev target (c : Dev nD) : Cert.Spec.Arr2 50000 128 :=
  Cert.Spec.lnorm (Cert.Spec.lin (Cert.Spec.scaleCols (V c main_v19) (V c main_v24)) (V c main_arg12) (V c main_arg13))
    (V c main_arg14) (V c main_arg15)

/-- The zero offset of a one-axis block, as the constant function. -/
theorem off1_zero : (![0] : Fin 1 → Nat) = fun _ => 0 := funext fun a => by fin_cases a; rfl

/-- The block indices of the seven windows at each of the two grid points: the node sums' and the output's row block is the
    point's number, every other index is zero. -/
theorem idx_facts : ∀ t : Fin cfg3.N, win3_0.index t (0 : Fin 2) = t.val ∧ win3_0.index t (1 : Fin 2) = 0
    ∧ win3_1.index t (0 : Fin 1) = 0
    ∧ win3_2.index t (0 : Fin 2) = 0 ∧ win3_2.index t (1 : Fin 2) = 0
    ∧ win3_3.index t (0 : Fin 1) = 0 ∧ win3_4.index t (0 : Fin 1) = 0 ∧ win3_5.index t (0 : Fin 1) = 0
    ∧ win3_6.index t (0 : Fin 2) = t.val ∧ win3_6.index t (1 : Fin 2) = 0 :=
  (by decide +kernel : ∀ t : Fin grid3.N, _)

/-- The stored value at (p, q) of a block whose row p is row r of the node sums and whose other operands are the whole
    arrays: the specification at (r, q). -/
theorem block_value (x0 : FVec Ideal S25000x128 .f32) (x1 : FVec Ideal S128 .f32) (x2 : FVec Ideal S128x128 .f32) (x3 x4 x5 : FVec Ideal S128 .f32)
    (agg : Cert.Spec.Arr2 50000 128) (f : Cert.Spec.Arr1 128) (Wo : Cert.Spec.Arr2 128 128) (bo g b : Cert.Spec.Arr1 128)
    (p : Fin 25000) (q : Fin 128) (r : Fin 50000)
    (h0 : ∀ k : Fin 128, x0 (ix2 p k) = agg (ix2 r k)) (h1 : x1 = f) (h2 : x2 = Wo) (h3 : x3 = bo) (h4 : x4 = g) (h5 : x5 = b) :
    k3_pay1 (F := Ideal) x0 x1 x2 x3 x4 x5 (ix2 p q)
      = Cert.Spec.lnorm (Cert.Spec.lin (Cert.Spec.scaleCols agg f) Wo bo) g b (ix2 r q) := by
  subst h1 h2 h3 h4 h5
  rw [pay_apply, spec_row]
  exact congrArg (fun a => rowNorm (rowLin a x1 x2 x3) x4 x5 q) (funext h0)

/-- Point t's block of the node sums holds rows 25000 t … 25000 t + 24999. -/
theorem aggBlock_apply (c : Dev nD) (t : Fin cfg3.N) (p : Fin 25000) (k : Fin 128) (r : Fin 50000) (hr : r.val = 25000 * t.val + p.val) :
    (iblk3 V c 0 t : S25000x128.Idx → EReal) (ix2 p k) = (V c main_v19 : S50000x128.Idx → EReal) (ix2 r k) := by
  show (V c main_v19 : S50000x128.Idx → EReal) (((cfg3.win 0).blk t).view.emb (ix2 p k)) = _
  refine congrArg (V c main_v19 : S50000x128.Idx → EReal) (funext fun a => Fin.ext ?_)
  match a with
  | ⟨0, _⟩ => show win3_0.index t (0 : Fin 2) * 25000 + 1 * p.val = r.val; rw [(idx_facts t).1, hr]; omega
  | ⟨1, _⟩ => show win3_0.index t (1 : Fin 2) * 128 + 1 * k.val = k.val; rw [(idx_facts t).2.1]; omega

/-- The column factors' window holds the whole vector at every point. -/
theorem factorBlock_eq (c : Dev nD) (t : Fin cfg3.N) : (iblk3 V c 1 t : S128.Idx → EReal) = V c main_v24 := by
  funext y
  show (V c main_v24 : S128.Idx → EReal) (((cfg3.win 1).blk t).view.emb y) = _
  refine congrArg (V c main_v24 : S128.Idx → EReal) (funext fun a => Fin.ext ?_)
  match a with
  | ⟨0, _⟩ => show win3_1.index t (0 : Fin 1) * 128 + 1 * (y 0).val = (y 0).val; rw [(idx_facts t).2.2.1]; omega

/-- The projection matrix's window holds the whole matrix at every point. -/
theorem WoBlock_eq (c : Dev nD) (t : Fin cfg3.N) : (iblk3 V c 2 t : S128x128.Idx → EReal) = V c main_arg12 := by
  funext y
  show (V c main_arg12 : S128x128.Idx → EReal) (((cfg3.win 2).blk t).view.emb y) = _
  refine congrArg (V c main_arg12 : S128x128.Idx → EReal) (funext fun a => Fin.ext ?_)
  match a with
  | ⟨0, _⟩ => show win3_2.index t (0 : Fin 2) * 128 + 1 * (y 0).val = (y 0).val; rw [(idx_facts t).2.2.2.1]; omega
  | ⟨1, _⟩ => show win3_2.index t (1 : Fin 2) * 128 + 1 * (y 1).val = (y 1).val; rw [(idx_facts t).2.2.2.2.1]; omega

/-- The bias window holds the whole bias at every point. -/
theorem boBlock_eq (c : Dev nD) (t : Fin cfg3.N) : (iblk3 V c 3 t : S128.Idx → EReal) = V c main_arg13 := by
  funext y
  show (V c main_arg13 : S128.Idx → EReal) (((cfg3.win 3).blk t).view.emb y) = _
  refine congrArg (V c main_arg13 : S128.Idx → EReal) (funext fun a => Fin.ext ?_)
  match a with
  | ⟨0, _⟩ => show win3_3.index t (0 : Fin 1) * 128 + 1 * (y 0).val = (y 0).val; rw [(idx_facts t).2.2.2.2.2.1]; omega

/-- The gain window holds the whole gain at every point. -/
theorem gainBlock_eq (c : Dev nD) (t : Fin cfg3.N) : (iblk3 V c 4 t : S128.Idx → EReal) = V c main_arg14 := by
  funext y
  show (V c main_arg14 : S128.Idx → EReal) (((cfg3.win 4).blk t).view.emb y) = _
  refine congrArg (V c main_arg14 : S128.Idx → EReal) (funext fun a => Fin.ext ?_)
  match a with
  | ⟨0, _⟩ => show win3_4.index t (0 : Fin 1) * 128 + 1 * (y 0).val = (y 0).val; rw [(idx_facts t).2.2.2.2.2.2.1]; omega

/-- The offset window holds the whole offset at every point. -/
theorem offsetBlock_eq (c : Dev nD) (t : Fin cfg3.N) : (iblk3 V c 5 t : S128.Idx → EReal) = V c main_arg15 := by
  funext y
  show (V c main_arg15 : S128.Idx → EReal) (((cfg3.win 5).blk t).view.emb y) = _
  refine congrArg (V c main_arg15 : S128.Idx → EReal) (funext fun a => Fin.ext ?_)
  match a with
  | ⟨0, _⟩ => show win3_5.index t (0 : Fin 1) * 128 + 1 * (y 0).val = (y 0).val; rw [(idx_facts t).2.2.2.2.2.2.2.1]; omega

/-- What point t writes back is block t of the specification's array: rows 25000 t … 25000 t + 24999. -/
theorem flushed_eq (c : Dev nD) (t : Fin cfg3.N) :
    (dat3 (F := Ideal) V c).flushed 6 t = ((cfg3.win 6).blk t).view.read (Elt Ideal) (target V c) := by
  show (cfg3.win 6).cut (grid3.coords t) ((dat3 V c).after 6 t) = _
  rw [after3_6]
  unfold out3_6
  rw [View.canon_unit_zero Cert.LibBlocks.off2_zero]
  simp only [View.ld_unit_zero (S := S25000x128) Cert.LibBlocks.off2_zero, View.ld_unit_zero (S := S128) off1_zero,
    View.ld_unit_zero (S := S128x128) Cert.LibBlocks.off2_zero]
  funext j
  have hN : cfg3.N = 2 := N_3
  have ht : t.val < 2 := hN ▸ t.isLt
  have hj0 : (j 0).val < 25000 := (j 0).isLt
  have hr : 25000 * t.val + (j 0).val < 50000 := by omega
  have hi : ((cfg3.win 6).blk t).view.emb j = (ix2 (⟨25000 * t.val + (j 0).val, hr⟩ : Fin 50000) (j 1) : S50000x128.Idx) := by
    funext a; apply Fin.ext
    match a with
    | ⟨0, _⟩ => show win3_6.index t (0 : Fin 2) * 25000 + 1 * (j 0).val = 25000 * t.val + (j 0).val; rw [(idx_facts t).2.2.2.2.2.2.2.2.1]; omega
    | ⟨1, _⟩ => show win3_6.index t (1 : Fin 2) * 128 + 1 * (j 1).val = (j 1).val; rw [(idx_facts t).2.2.2.2.2.2.2.2.2]; omega
  show k3_pay1 (F := Ideal) (iblk3 V c 0 t) (iblk3 V c 1 t) (iblk3 V c 2 t) (iblk3 V c 3 t) (iblk3 V c 4 t) (iblk3 V c 5 t) j
    = target V c (((cfg3.win 6).blk t).view.emb j)
  rw [hi]
  refine (congrArg (k3_pay1 (F := Ideal) (iblk3 V c 0 t) (iblk3 V c 1 t) (iblk3 V c 2 t) (iblk3 V c 3 t) (iblk3 V c 4 t) (iblk3 V c 5 t)) (eq_ix2 j)).trans ?_
  exact block_value (iblk3 V c 0 t) (iblk3 V c 1 t) (iblk3 V c 2 t) (iblk3 V c 3 t) (iblk3 V c 4 t) (iblk3 V c 5 t)
    (V c main_v19) (V c main_v24) (V c main_arg12) (V c main_arg13) (V c main_arg14) (V c main_arg15) (j 0) (j 1) ⟨25000 * t.val + (j 0).val, hr⟩
    (fun k => aggBlock_apply V c t (j 0) k _ rfl) (factorBlock_eq V c t) (WoBlock_eq V c t) (boBlock_eq V c t) (gainBlock_eq V c t) (offsetBlock_eq V c t)

/-- An index of the array is in point t's block iff each coordinate is in the block's range on its axis. -/
theorem mem_blk (t : Fin cfg3.N) (i : S50000x128.Idx) :
    i ∈ ((cfg3.win 6).blk t).view.set ↔ ∀ a : Fin 2, win3_6.index t a * S25000x128.size a ≤ (i a).val
      ∧ (i a).val < win3_6.index t a * S25000x128.size a + S25000x128.size a := by
  show i ∈ ((View.whole main_v25).slice (win3_6.rect t)).set ↔ _
  rw [View.set_slice_whole, Rect.mem_set_unit]
  exact Iff.rfl

/-- Row r lies in the block of the point r / 25000, which writes back. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 2 := N_3
  obtain ⟨hb, hlo, hhi⟩ := Cert.LibBlocks.row_in_block (nb := 2) (bs := 25000) (r := (i 0).val) (by omega) (by omega)
  refine ⟨⟨(i 0).val / 25000, by rw [hN]; exact hb⟩, flush3_6 _, ?_⟩
  rw [mem_blk]
  intro a
  match a with
  | ⟨0, _⟩ =>
    show win3_6.index ⟨(i 0).val / 25000, _⟩ (0 : Fin 2) * 25000 ≤ (i 0).val
      ∧ (i 0).val < win3_6.index ⟨(i 0).val / 25000, _⟩ (0 : Fin 2) * 25000 + 25000
    rw [(idx_facts _).2.2.2.2.2.2.2.2.1]
    exact ⟨hlo, hhi⟩
  | ⟨1, _⟩ =>
    show win3_6.index ⟨(i 0).val / 25000, _⟩ (1 : Fin 2) * 128 ≤ (i 1).val
      ∧ (i 1).val < win3_6.index ⟨(i 0).val / 25000, _⟩ (1 : Fin 2) * 128 + 128
    rw [(idx_facts _).2.2.2.2.2.2.2.2.2]
    omega

/-- Region 3 (normalise, project, layer-normalise; two blocks of 25000 rows): its output array after the region. -/
theorem final (c : Dev nD) :
    (dat3 (F := Ideal) V c).arrAt 6 cfg3.N
      = Cert.Spec.lnorm (Cert.Spec.lin (Cert.Spec.scaleCols (V c main_v19) (V c main_v24)) (V c main_arg12) (V c main_arg13))
          (V c main_arg14) (V c main_arg15) :=
  (dat3 (F := Ideal) V c).arrAt_eq_of_cover 6 (target V c) (fun t _ => flushed_eq V c t) cover

end Cert.KernelIdeal.Reg3

end
-- ==== Proof.LibRowOps.lean ====
/-
  ROWS OF A TABLE GATHERED BY INDEX AND ADDED BACK BY INDEX, and the linearity that lets a matrix product pass through
  such a sum.

  A graph layer reads rows of a table `x : [N, D]` at source indices (`x[src]`, a gather of whole rows) and adds rows
  into a table at destination indices (a segment sum: a scatter with an add body). This file reads the two operations
  at one element, generically in the sizes: the gather of whole rows is the table's row at the start index, read signed
  and clamped into `[0, N − 1]`; the scatter-add of whole rows adds to element `(n, c)` the updates' elements `(e, c)`
  over the edges `e` whose index, read signed, is exactly `n` (an index outside `[0, N − 1]` hits no row). Last,
  the linearity law over the reals inside the extended reals: a row plus a sum of rows, times a matrix, is the row times
  the matrix plus the sum of the rows times the matrix. In the extended reals multiplication does not distribute over
  addition in general (`⊤ + ⊥`), so the law is stated for coerced reals, where it is the reals' own.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import Mathlib.Algebra.BigOperators.Ring.Finset

noncomputable section

open scoped BigOperators

namespace Cert.LibRowOps

open Idealize.ShloMosaic Idealize.ShloMosaic.ValueIdx

/-! ## Linearity over the reals inside the extended reals -/

/-- A finite sum of coerced reals is the coercion of the real sum (the coercion `ℝ → EReal` is additive, and a finite
    sum is an iterated addition). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LINEARITY LAW. For real tables `xr : [N, A]`, `wr : [A, B]`, a source map `s` on the edges and any decidable
    relation `hit e n` ("edge `e` lands on row `n`"): the row `n` plus the sum of the source rows of the edges that
    hit `n`, multiplied by `wr`, is the product of row `n` plus the sum over those edges of the products of their
    source rows. All terms are coerced reals, so both sides are the coercion of one real number, and there the
    statement is distributivity and an exchange of two finite sums. -/
theorem matvec_segsum {N A B E : Nat} (xr : Fin N → Fin A → ℝ) (wr : Fin A → Fin B → ℝ) (s : Fin E → Fin N)
    (hit : Fin E → Fin N → Prop) [∀ e n, Decidable (hit e n)] (n : Fin N) (j : Fin B) :
    ∑ k : Fin A, (((xr n k : ℝ) : EReal) + ∑ e ∈ Finset.univ.filter (hit · n), ((xr (s e) k : ℝ) : EReal))
        * ((wr k j : ℝ) : EReal)
      = (∑ k : Fin A, ((xr n k : ℝ) : EReal) * ((wr k j : ℝ) : EReal))
        + ∑ e ∈ Finset.univ.filter (hit · n), ∑ k : Fin A, ((xr (s e) k : ℝ) : EReal) * ((wr k j : ℝ) : EReal) := by
  -- every term is a coerced real: push the coercion outside, to one real number on each side
  simp only [coe_sum, ← EReal.coe_add, ← EReal.coe_mul]
  congr 1
  -- in ℝ: distribute the product over the sum, split the outer sum, exchange the two sums
  simp only [add_mul, Finset.sum_add_distrib, Finset.sum_mul]
  rw [Finset.sum_comm]

/-! ## The gather of whole rows, read at an element -/

/-- The dimension numbers of `x[src]` for a table `x : [N, D]` and start indices `src : [E, 1]`, result `[E, D]`:
    the result's axis 1 is the offset axis (a whole row of width `D`), the table's axis 0 is collapsed (slice size 1)
    and is the one axis the start index names, the index vector lies on axis 1 of the start indices. The conditions
    `wf` are decided on a program's literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, c)`: the table at row `src[e, 0]`, read as a signed integer and clamped into
    `[0, N − 1]`, and column `c`. On the table's axis 0 the operand index is the clamped start (no batching axis; the
    axis is collapsed, so no offset); on axis 1 the start is `0` (the start index does not name it) and the offset is
    the result's coordinate on its one offset axis. -/
theorem rowGather_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ =>
    -- the row: start + 0 + 0, the start read at `[e, 0]` and clamped to `N − 1`
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the column: 0 + 0 + the result's coordinate on its offset axis
    show (rowGatherDims N E D wf).start y idx 1 + (rowGatherDims N E D wf).batchCoord y 1
      + (rowGatherDims N E D wf).offCoord y 1 = _
    rw [GatherDims.batchCoord_eq_zero _ _ _ List.not_mem_nil]
    unfold GatherDims.start
    rw [dif_neg (show (1 : Fin 2) ∉ (rowGatherDims N E D wf).startIndexMap from
      (show ¬ ((1 : Fin 2) ∈ ([0] : List (Fin 2))) by decide))]
    unfold GatherDims.offCoord
    rw [dif_pos (show (1 : Fin 2) ∈ (rowGatherDims N E D wf).sKept from (GatherDims.mem_sKept _ _).mpr
      ⟨(show ¬ ((1 : Fin 2) ∈ ([0] : List (Fin 2))) by decide), List.not_mem_nil⟩)]
    simp only [Nat.add_zero, Nat.zero_add]
    rfl

/-! ## The scatter-add of whole rows, read at an element -/

/-- WHERE AN UPDATE LANDS, for any scatter dimension numbers: update index `j` lands at operand index `i` exactly
    when on every operand axis the start (read signed, not clamped) plus the window coordinate is `i`'s coordinate.
    (The definition asks the sum to be inside the operand on every axis and then takes it as the index; a sum that equals
    a coordinate of an index is inside.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      have hf := Option.some.inj h
      intro a
      have := congrArg Fin.val (congrFun hf a)
      simp only at this
      have h0 := (hh a).1
      omega
    · exact absurd h (by simp)
  · intro h
    have hh : ∀ a, 0 ≤ d.start j idx a + d.window j a ∧ d.start j idx a + d.window j a < s.size a := by
      intro a; rw [h a]; exact ⟨Int.natCast_nonneg _, by exact_mod_cast (i a).isLt⟩
    rw [dif_pos hh]
    congr 1
    funext a; refine Fin.ext ?_
    show (d.start j idx a + d.window j a).toNat = (i a).val
    rw [h a]; simp

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a segment sum of rows: operand `[N, D]`, scatter indices `[E, 1]`, updates `[E, D]`:
    the updates' axis 1 is the window axis (a whole row), the operand's axis 0 is the inserted one and the one axis the
    scatter index names, the index vector lies on axis 1 of the scatter indices. The conditions `wf` are decided on a
    program's literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N E D w : Nat} (wf : ScatterDims.WF ⟨2, ![N, D]⟩ ⟨2, ![E, 1]⟩ ⟨2, ![E, D]⟩ [1] [0] [0] 1)
  (j : (⟨2, ![E, D]⟩ : Shape).Idx) (idx : IVec ⟨2, ![E, 1]⟩ w)

/-- On the operand's axis 0 the start of update `(e, c)` is the scatter index `dst[e, 0]`, read signed. -/
theorem rowScatter_start0 :
    (rowScatterDims N E D wf).start j idx 0 = (idx (ix2 (j 0) ⟨0, Nat.one_pos⟩)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
theorem rowScatter_start1 : (rowScatterDims N E D wf).start j idx 1 = 0 := by
  unfold ScatterDims.start
  rw [dif_neg (show (1 : Fin 2) ∉ (rowScatterDims N E D wf).scatterDimsToOperandDims from
    (show ¬ ((1 : Fin 2) ∈ ([0] : List (Fin 2))) by decide))]

/-- On the operand's axis 0, an inserted axis, the window coordinate is `0`. -/
theorem rowScatter_window0 : (rowScatterDims N E D wf).window j 0 = 0 := by
  unfold ScatterDims.window
  rw [dif_neg (fun h => (mem_kept _ _).mp h (List.mem_singleton.mpr rfl))]

/-- On the operand's axis 1 the window coordinate is the update's column. -/
theorem rowScatter_window1 : (rowScatterDims N E D wf).window j 1 = (j 1).val := by
  unfold ScatterDims.window
  rw [dif_pos (show (1 : Fin 2) ∈ (rowScatterDims N E D wf).sKept from (mem_kept _ _).mpr
    (show ¬ ((1 : Fin 2) ∈ ([0] : List (Fin 2))) by decide))]
  rfl

/-- WHERE A ROW UPDATE LANDS: update `(e, c)` lands at operand element `(n, c')` exactly when the scatter index
    `dst[e, 0]`, read signed, is `n` and `c = c'`. In particular a negative index, or one that is `N` or more, lands
    nowhere. -/
theorem rowScatter_resultIdx (i : (⟨2, ![N, D]⟩ : Shape).Idx) :
    (rowScatterDims N E D wf).resultIdx? j idx = some i ↔
      (idx (ix2 (j 0) ⟨0, Nat.one_pos⟩)).toInt = ((i 0).val : Int) ∧ (j 1).val = (i 1).val := by
  rw [resultIdx?_eq_some_iff, Fin.forall_fin_two, rowScatter_start0, rowScatter_start1, rowScatter_window0,
    rowScatter_window1]
  constructor
  · rintro ⟨h0, h1⟩; exact ⟨by simpa using h0, by exact_mod_cast (by simpa using h1)⟩
  · rintro ⟨h0, h1⟩
    exact ⟨by simpa using h0, by simpa using (by exact_mod_cast h1 : ((j 1).val : Int) = ((i 1).val : Int))⟩

/-- The same with the update index given by its coordinates `(e, b)`. -/
theorem rowScatter_resultIdx_ix2 (e : Fin E) (b : Fin D) (i : (⟨2, ![N, D]⟩ : Shape).Idx) :
    (rowScatterDims N E D wf).resultIdx? (ix2 e b) idx = some i ↔
      (idx (ix2 e ⟨0, Nat.one_pos⟩)).toInt = ((i 0).val : Int) ∧ b.val = (i 1).val :=
  rowScatter_resultIdx wf (ix2 e b) idx i

/-- THE ROW SCATTER-ADD READ AT `(n, c)`: the operand's element plus the sum, over the edges `e` whose scatter index
    read signed is `n`, of the updates' element `(e, c)`. The sum over the update indices `(e, b)` that land at
    `(n, c)` is a double sum over `e` and `b`; for each `e` the inner sum has at most the one term `b = c`. -/
theorem rowScatterAdd_apply (x : (⟨2, ![N, D]⟩ : Shape).Idx → EReal) (upd : (⟨2, ![E, D]⟩ : Shape).Idx → EReal)
    (i : (⟨2, ![N, D]⟩ : Shape).Idx) :
    Ideal.hostScatterAdd (rowScatterDims N E D wf) x idx upd i
      = x i + ∑ e ∈ Finset.univ.filter (fun e : Fin E => (idx (ix2 e ⟨0, Nat.one_pos⟩)).toInt = ((i 0).val : Int)),
          upd (ix2 e (i 1)) := by
  unfold Ideal.hostScatterAdd
  congr 1
  rw [Finset.sum_filter, Finset.sum_filter, sum_idx2]
  refine Finset.sum_congr rfl fun e _ => ?_
  simp only [rowScatter_resultIdx_ix2]
  by_cases he : (idx (ix2 e ⟨0, Nat.one_pos⟩)).toInt = ((i 0).val : Int)
  · rw [if_pos he]
    rw [Finset.sum_eq_single (show Fin D from i 1)]
    · rw [if_pos ⟨he, rfl⟩]
    · intro b _ hb
      rw [if_neg (fun h => hb (Fin.ext h.2))]
    · intro h; exact absurd (Finset.mem_univ _) h
  · rw [if_neg he]
    exact Finset.sum_eq_zero fun b _ => if_neg (fun h => he h.1)

end Scatter

/-! ## The same three readings for a record that IS one of these dimension numbers

A program prints its dimension numbers as a record of its own, with literal sizes; such a record is one of the two above
by `rfl`, and these forms take the record and that equation. -/

/-- `rowGather_apply` for any record equal to `rowGatherDims N E D wf`. -/
theorem rowGather_apply_of {α : Type} {N E D w : Nat} (hN : 0 < N)
    {wf : GatherDims.WF ⟨2, ![N, D]⟩ ⟨2, ![E, 1]⟩ ⟨2, ![E, D]⟩ [1] [0] [] [0] [] 1 ![1, D]}
    (d : GatherDims ⟨2, ![N, D]⟩ ⟨2, ![E, 1]⟩ ⟨2, ![E, D]⟩) (hd : d = rowGatherDims N E D wf)
    (x : (⟨2, ![N, D]⟩ : Shape).Idx → α) (idx : IVec ⟨2, ![E, 1]⟩ w) (y : (⟨2, ![E, D]⟩ : Shape).Idx) :
    Host.gather d x idx y
      = x (ix2 ⟨min (idx (ix2 (y 0) ⟨0, Nat.one_pos⟩)).toInt.toNat (N - 1), by omega⟩ (y 1)) := by
  subst hd; exact rowGather_apply hN wf x idx y

/-- `rowScatter_resultIdx` for any record equal to `rowScatterDims N E D wf`. -/
theorem rowScatter_resultIdx_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (j : (⟨2, ![E, D]⟩ : Shape).Idx) (idx : IVec ⟨2, ![E, 1]⟩ w) (i : (⟨2, ![N, D]⟩ : Shape).Idx) :
    d.resultIdx? j idx = some i ↔
      (idx (ix2 (j 0) ⟨0, Nat.one_pos⟩)).toInt = ((i 0).val : Int) ∧ (j 1).val = (i 1).val := by
  subst hd; exact rowScatter_resultIdx wf j idx i

/-- `rowScatterAdd_apply` for any record equal to `rowScatterDims N E D wf`. -/
theorem rowScatterAdd_apply_of {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = rowScatterDims N E D wf)
    (x : (⟨2, ![N, D]⟩ : Shape).Idx → EReal) (idx : IVec ⟨2, ![E, 1]⟩ w) (upd : (⟨2, ![E, D]⟩ : Shape).Idx → EReal)
    (i : (⟨2, ![N, D]⟩ : Shape).Idx) :
    Ideal.hostScatterAdd d x idx upd i
      = x i + ∑ e ∈ Finset.univ.filter (fun e : Fin E => (idx (ix2 e ⟨0, Nat.one_pos⟩)).toInt = ((i 0).val : Int)),
          upd (ix2 e (i 1)) := by
  subst hd; exact rowScatterAdd_apply wf idx x upd i

end Cert.LibRowOps

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.KTake.lean ====
/-
  A table's rows taken at index words, as the host spells it, is the table's rows at the nodes the words name.

  The host's "take" of rows of a table x : [50000, D] at index words idx : [800000] is printed as: the words wrapped
  (a word below zero has 50000 added), laid as an [800000, 1] column; a mask, per edge, that the wrapped word lies in
  [0, 49999] as a signed number (an "and" over the column's one entry); the gather of whole rows at the column; and a
  choice, entry by entry, of the gathered row where the mask holds and of a fill value where it does not. When every
  word, read signed, names a node, the mask holds everywhere, so the fill is never chosen; and the gather reads the
  table at the wrapped word read signed and clamped into the table, which is the node the word names.
-/
import Idealize.ShloMosaic.PureOps.Ideal
import Idealize.ShloMosaic.Lib.ValueIdx
import Idealize.ShloMosaic.Lib.StableHlo.Predicate
import proofs.«408399_j1297080123525_4_alg».proof.Proof.Spec
import proofs.«408399_j1297080123525_4_alg».proof.Proof.LibRowOps
import proofs.«408399_j1297080123525_4_alg».proof.Proof.LibReal

noncomputable section

namespace Cert.KernelIdeal.KTake

open Idealize.ShloMosaic Idealize.ShloMosaic.ValueIdx Idealize.ShloMosaic.StableHlo.Predicate Cert.Spec

/-- A word that names a node is not below zero, so wrapping leaves it as it is. -/
theorem wrap_of_inRange (w : BitVec 32) (h0 : 0 ≤ w.toInt) : wrap w = w := by
  unfold wrap
  have h : IntOp.cmpi .slt w 0#32 = 0#1 := by
    show BitVec.ofBool (w.slt 0#32) = 0#1
    have : w.slt 0#32 = false := by
      rw [Bool.eq_false_iff]; intro hc
      have := BitVec.slt_iff_toInt_lt.mp hc
      have h00 : (0#32 : BitVec 32).toInt = 0 := by decide
      omega
    rw [this]; rfl
  rw [h]; exact select_zero _ _

/-- For a word that names a node, the two signed comparisons of the mask, 0 ≤ · and · ≤ 49999, both hold of the
    wrapped word. -/
theorem mask_of_inRange (w : BitVec 32) (h0 : 0 ≤ w.toInt) (h1 : w.toInt < 50000) :
    IntOp.andi (IntOp.cmpi .sge (wrap w) 0#32) (IntOp.cmpi .sle (wrap w) 49999#32) = 1#1 := by
  rw [wrap_of_inRange w h0]
  have ha : IntOp.cmpi .sge w 0#32 = 1#1 := by
    show BitVec.ofBool ((0#32 : BitVec 32).sle w) = 1#1
    have : (0#32 : BitVec 32).sle w = true := by
      rw [BitVec.sle_iff_toInt_le]
      have h00 : (0#32 : BitVec 32).toInt = 0 := by decide
      omega
    rw [this]; rfl
  have hb : IntOp.cmpi .sle w 49999#32 = 1#1 := by
    show BitVec.ofBool (w.sle 49999#32) = 1#1
    have : w.sle 49999#32 = true := by
      rw [BitVec.sle_iff_toInt_le]
      have h00 : (49999#32 : BitVec 32).toInt = 49999 := by decide
      omega
    rw [this]; rfl
  rw [ha, hb]; rfl

/-- An "and" folded from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self]
    exact ih fun n hn => h n (List.mem_cons_of_mem _ hn)

/-- The host's "and" reduction from the initial value 1 of a mask that is 1 everywhere is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_one (fun n => x (s.rowMajor.symm n)) _ fun n _ => hx _

/-- The wrapped words, entry by entry. -/
theorem wrapped_apply (hb0 : (⟨0, ![]⟩ : Shape).BroadcastsInDim ⟨1, ![800000]⟩ ![]) (idx : Idx1 800000)
    (k : (⟨1, ![800000]⟩ : Shape).Idx) :
    select (cmpi .slt idx (broadcastInDim ⟨1, ![800000]⟩ ![] hb0 (constantI ⟨0, ![]⟩ 32 0#32)))
      (addi idx (broadcastInDim ⟨1, ![800000]⟩ ![] hb0 (constantI ⟨0, ![]⟩ 32 50000#32))) idx k = wrap (idx k) := rfl

/-- The column of wrapped words read at edge e: the edge's word, wrapped. -/
theorem column_apply (hb0 : (⟨0, ![]⟩ : Shape).BroadcastsInDim ⟨1, ![800000]⟩ ![])
    (hb1 : (⟨1, ![800000]⟩ : Shape).BroadcastsInDim ⟨2, ![800000, 1]⟩ ![0]) (idx : Idx1 800000) (e : Fin 800000) :
    broadcastInDim ⟨2, ![800000, 1]⟩ ![0] hb1
        (select (cmpi .slt idx (broadcastInDim ⟨1, ![800000]⟩ ![] hb0 (constantI ⟨0, ![]⟩ 32 0#32)))
          (addi idx (broadcastInDim ⟨1, ![800000]⟩ ![] hb0 (constantI ⟨0, ![]⟩ 32 50000#32))) idx)
        (ix2 e (⟨0, Nat.one_pos⟩ : Fin 1)) = wrap (idx (ix1 e)) := by
  have hcol : (ix2 e (⟨0, Nat.one_pos⟩ : Fin 1) : (⟨2, ![800000, 1]⟩ : Shape).Idx) = ixP e := by
    funext a; match a with | ⟨0, _⟩ => rfl | ⟨1, _⟩ => rfl
  have hrow : (Shape.Idx.ofFin e : (⟨1, ![800000]⟩ : Shape).Idx) = ix1 e := by
    funext a; match a with | ⟨0, _⟩ => rfl
  rw [hcol, bcast_col1, hrow, wrapped_apply]

/-- THE TAKE UNDER IN-RANGE WORDS. The printed take of the table's rows at the index words — wrap, column, mask, gather,
    choice against a fill — is, when every word read signed names a node, the table's rows at the nodes the words name.
    The column count D, the fill and the shape facts are arbitrary; the gather's record is any record equal to the
    whole-row gather's dimension numbers. -/
theorem take_rows {D : Nat}
    (hb0 : (⟨0, ![]⟩ : Shape).BroadcastsInDim ⟨1, ![800000]⟩ ![])
    (hb1 : (⟨1, ![800000]⟩ : Shape).BroadcastsInDim ⟨2, ![800000, 1]⟩ ![0])
    (hb2 : (⟨0, ![]⟩ : Shape).BroadcastsInDim ⟨2, ![800000, 1]⟩ ![])
    (hb3 : (⟨1, ![1]⟩ : Shape).BroadcastsInDim ⟨2, ![1, 1]⟩ ![1])
    (hb4 : (⟨2, ![1, 1]⟩ : Shape).BroadcastsInDim ⟨2, ![800000, 1]⟩ ![0, 1])
    (hr : (⟨2, ![800000, 1]⟩ : Shape).ReducesTo [1] ⟨1, ![800000]⟩) (hu : 0 < (⟨0, ![]⟩ : Shape).numel)
    (hb5 : (⟨1, ![800000]⟩ : Shape).BroadcastsInDim ⟨2, ![800000, D]⟩ ![0])
    {wf : GatherDims.WF ⟨2, ![50000, D]⟩ ⟨2, ![800000, 1]⟩ ⟨2, ![800000, D]⟩ [1] [0] [] [0] [] 1 ![1, D]}
    (d : GatherDims ⟨2, ![50000, D]⟩ ⟨2, ![800000, 1]⟩ ⟨2, ![800000, D]⟩)
    (hd : d = Cert.LibRowOps.rowGatherDims 50000 800000 D wf)
    (x : Arr2 50000 D) (idx : Idx1 800000) (hin : InRange idx) (fill : Arr2 800000 D) :
    select
      (broadcastInDim ⟨2, ![800000, D]⟩ ![0] hb5
        (Host.reduce IntOp.andi
          (andi
            (cmpi .sge
              (broadcastInDim ⟨2, ![800000, 1]⟩ ![0] hb1
                (select (cmpi .slt idx (broadcastInDim ⟨1, ![800000]⟩ ![] hb0 (constantI ⟨0, ![]⟩ 32 0#32)))
                  (addi idx (broadcastInDim ⟨1, ![800000]⟩ ![] hb0 (constantI ⟨0, ![]⟩ 32 50000#32))) idx))
              (broadcastInDim ⟨2, ![800000, 1]⟩ ![] hb2 (constantI ⟨0, ![]⟩ 32 0#32)))
            (cmpi .sle
              (broadcastInDim ⟨2, ![800000, 1]⟩ ![0] hb1
                (select (cmpi .slt idx (broadcastInDim ⟨1, ![800000]⟩ ![] hb0 (constantI ⟨0, ![]⟩ 32 0#32)))
                  (addi idx (broadcastInDim ⟨1, ![800000]⟩ ![] hb0 (constantI ⟨0, ![]⟩ 32 50000#32))) idx))
              (broadcastInDim ⟨2, ![800000, 1]⟩ ![0, 1] hb4
                (broadcastInDim ⟨2, ![1, 1]⟩ ![1] hb3 (constantI ⟨1, ![1]⟩ 32 49999#32)))))
          (constantI ⟨0, ![]⟩ 1 1#1) hr hu))
      (Host.gather d x
        (broadcastInDim ⟨2, ![800000, 1]⟩ ![0] hb1
          (select (cmpi .slt idx (broadcastInDim ⟨1, ![800000]⟩ ![] hb0 (constantI ⟨0, ![]⟩ 32 0#32)))
            (addi idx (broadcastInDim ⟨1, ![800000]⟩ ![] hb0 (constantI ⟨0, ![]⟩ 32 50000#32))) idx)))
      fill
      = rows x idx := by
  -- the mask holds at every entry: at each column entry the wrapped word of some edge passes both comparisons
  rw [Cert.LibReal.select_of_true]
  · funext i
    rw [Cert.LibRowOps.rowGather_apply_of (by decide) d hd]
    have hv := column_apply hb0 hb1 idx (i 0)
    refine congrArg x ?_
    refine congrArg (fun r => ix2 r (i 1)) ?_
    apply Fin.ext
    show min (_ : BitVec 32).toInt.toNat (50000 - 1) = min (wrap (idx (ix1 (i 0)))).toInt.toNat 49999
    rw [hv]
  · intro i
    show Host.reduce IntOp.andi _ _ hr hu _ = 1#1
    refine reduce_andi_of_all _ _ hr hu (fun k => ?_) (fun _ => rfl) _
    exact mask_of_inRange _ (hin _).1 (hin _).2

end Cert.KernelIdeal.KTake

end
-- ==== Proof.LibTypedOps.lean ====
/-
  A host operation written over TYPED references (a buffer together with the equation "its type is T") is the same
  operation written over the buffers themselves: the typed form only transports the operation's values along those
  equations, and when an equation is `rfl` the transport is the identity. Stated for the four arities a straight-line
  callee uses; with them a list of typed operations is rewritten, operation by operation, to the plain list, whose
  results can then be read without any transport in the way.
-/
import Idealize.ShloMosaic.Lib.StableHlo

noncomputable section

namespace Idealize.ShloMosaic.StableHlo.TRef

open Idealize.ShloMosaic Idealize.ShloMosaic.StableHlo

variable {τ : Topo} {sig : RefSig} {Val : EltTy → Type}

/-- A typed reference whose type equation is `rfl`. -/
abbrev plain (r : Ref sig .tc) (hd : r.space ≠ .host) (hu : r.isScoped = false) : TRef sig r.ty := ⟨r, rfl, hd, hu⟩

theorem nullary_plain (y : Ref sig .tc) (hd hu) (v : y.ty.Contents Val) :
    TRef.nullary (τ := τ) (plain y hd hu) v = StableHlo.nullary y v (plain y hd hu).dev := rfl

theorem unary_plain (x y : Ref sig .tc) (hdx hux hdy huy) (f : x.ty.Contents Val → y.ty.Contents Val) :
    TRef.unary (τ := τ) (plain x hdx hux) (plain y hdy huy) f
      = StableHlo.unary x y f (plain x hdx hux).dev (plain y hdy huy).dev := rfl

theorem binary_plain (a b y : Ref sig .tc) (hda hua hdb hub hdy huy)
    (f : a.ty.Contents Val → b.ty.Contents Val → y.ty.Contents Val) :
    TRef.binary (τ := τ) (plain a hda hua) (plain b hdb hub) (plain y hdy huy) f
      = StableHlo.binary a b y f (plain a hda hua).dev (plain b hdb hub).dev (plain y hdy huy).dev := rfl

theorem ternary_plain (c a b y : Ref sig .tc) (hdc huc hda hua hdb hub hdy huy)
    (f : c.ty.Contents Val → a.ty.Contents Val → b.ty.Contents Val → y.ty.Contents Val) :
    TRef.ternary (τ := τ) (plain c hdc huc) (plain a hda hua) (plain b hdb hub) (plain y hdy huy) f
      = StableHlo.ternary c a b y f (plain c hdc huc).dev (plain a hda hua).dev (plain b hdb hub).dev (plain y hdy huy).dev := rfl

end Idealize.ShloMosaic.StableHlo.TRef

end
-- ==== Proof.KHostA.lean ====
import proofs.«408399_j1297080123525_4_alg».proof.Proof.Gen.KernelIdeal.Frame
import proofs.«408399_j1297080123525_4_alg».proof.Proof.Spec
import Idealize.ShloMosaic.Lib.StableHlo.Run
import proofs.«408399_j1297080123525_4_alg».proof.Proof.LibRowOps
import proofs.«408399_j1297080123525_4_alg».proof.Proof.LibReal
import proofs.«408399_j1297080123525_4_alg».proof.Proof.KTake
import proofs.«408399_j1297080123525_4_alg».proof.Proof.LibTypedOps
import Idealize.ShloMosaic.Lib.ValueLayout

noncomputable section

namespace Cert.KernelIdeal.KHostA

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

open Idealize.ShloMosaic.ValueIdx

/-- Closes "no operation of this host stretch writes the reference": each operation writes one reference, and the
    reference asked about is none of them. -/
local macro "not_written" : tactic => `(tactic| (
  simp only [hostOps0, hostOps1, hostOps1_1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## An argument's buffer through the first half of the run

No host stretch writes an argument, and a region either stages it as an input (and leaves it as entered) or does not
touch it: after each of the first four segments the buffer holds what it held at launch. -/

theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by not_written))
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by not_written))).trans (W2_arg0 m ρ c)
theorem W4_arg0 (c : Dev nD) : W4 m ρ c (Proc.devRef .tc main_arg0) = m ((c : Thread nD τ).loc main_arg0) :=
  (StableHlo.after_of_forall_not_mem (b := Proc.devRef .tc main_arg0) _ _ (List.forall_iff_forall_mem.mp (by not_written))).trans (W3_arg0 m ρ c)
theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by not_written))
theorem W2_arg1 (c : Dev nD) : W2 m ρ c (Proc.devRef .tc main_arg1) = m ((c : Thread nD τ).loc main_arg1) :=
  (W2_of_ne m ρ c main_arg1 (by decide)).trans (W1_arg1 m ρ c)
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by not_written))).trans (W2_arg1 m ρ c)
theorem W4_arg1 (c : Dev nD) : W4 m ρ c (Proc.devRef .tc main_arg1) = m ((c : Thread nD τ).loc main_arg1) :=
  (StableHlo.after_of_forall_not_mem (b := Proc.devRef .tc main_arg1) _ _ (List.forall_iff_forall_mem.mp (by not_written))).trans (W3_arg1 m ρ c)
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by not_written))
theorem W2_arg2 (c : Dev nD) : W2 m ρ c (Proc.devRef .tc main_arg2) = m ((c : Thread nD τ).loc main_arg2) :=
  (W2_of_ne m ρ c main_arg2 (by decide)).trans (W1_arg2 m ρ c)
theorem W3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by not_written))).trans (W2_arg2 m ρ c)
theorem W4_arg2 (c : Dev nD) : W4 m ρ c (Proc.devRef .tc main_arg2) = m ((c : Thread nD τ).loc main_arg2) :=
  (StableHlo.after_of_forall_not_mem (b := Proc.devRef .tc main_arg2) _ _ (List.forall_iff_forall_mem.mp (by not_written))).trans (W3_arg2 m ρ c)
theorem W1_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by not_written))
theorem W2_arg3 (c : Dev nD) : W2 m ρ c (Proc.devRef .tc main_arg3) = m ((c : Thread nD τ).loc main_arg3) :=
  (W2_of_ne m ρ c main_arg3 (by decide)).trans (W1_arg3 m ρ c)
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by not_written))).trans (W2_arg3 m ρ c)
theorem W4_arg3 (c : Dev nD) : W4 m ρ c (Proc.devRef .tc main_arg3) = m ((c : Thread nD τ).loc main_arg3) :=
  (StableHlo.after_of_forall_not_mem (b := Proc.devRef .tc main_arg3) _ _ (List.forall_iff_forall_mem.mp (by not_written))).trans (W3_arg3 m ρ c)
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by not_written))
theorem W2_arg4 (c : Dev nD) : W2 m ρ c (Proc.devRef .tc main_arg4) = m ((c : Thread nD τ).loc main_arg4) :=
  (W2_of_ne m ρ c main_arg4 (by decide)).trans (W1_arg4 m ρ c)
theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by not_written))).trans (W2_arg4 m ρ c)
theorem W4_arg4 (c : Dev nD) : W4 m ρ c (Proc.devRef .tc main_arg4) = m ((c : Thread nD τ).loc main_arg4) :=
  (StableHlo.after_of_forall_not_mem (b := Proc.devRef .tc main_arg4) _ _ (List.forall_iff_forall_mem.mp (by not_written))).trans (W3_arg4 m ρ c)
theorem W1_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by not_written))
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by not_written))).trans (W2_arg5 m ρ c)
theorem W4_arg5 (c : Dev nD) : W4 m ρ c (Proc.devRef .tc main_arg5) = m ((c : Thread nD τ).loc main_arg5) :=
  (StableHlo.after_of_forall_not_mem (b := Proc.devRef .tc main_arg5) _ _ (List.forall_iff_forall_mem.mp (by not_written))).trans (W3_arg5 m ρ c)
theorem W1_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by not_written))
theorem W2_arg6 (c : Dev nD) : W2 m ρ c (Proc.devRef .tc main_arg6) = m ((c : Thread nD τ).loc main_arg6) :=
  ((W2_arr m ρ c 1).trans (((dat0 (V1 m ρ) c).arrAt_in 1 rfl _).trans (A_eq0 (V1 m ρ) c 1))).trans (W1_arg6 m ρ c)
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by not_written))).trans (W2_arg6 m ρ c)
theorem W4_arg6 (c : Dev nD) : W4 m ρ c (Proc.devRef .tc main_arg6) = m ((c : Thread nD τ).loc main_arg6) :=
  (StableHlo.after_of_forall_not_mem (b := Proc.devRef .tc main_arg6) _ _ (List.forall_iff_forall_mem.mp (by not_written))).trans (W3_arg6 m ρ c)
theorem W1_arg7 (c : Dev nD) : W1 m ρ c (Proc.devRef .tc main_arg7) = m ((c : Thread nD τ).loc main_arg7) :=
  StableHlo.after_of_forall_not_mem (b := Proc.devRef .tc main_arg7) _ _ (List.forall_iff_forall_mem.mp (by not_written))
theorem W2_arg7 (c : Dev nD) : W2 m ρ c (Proc.devRef .tc main_arg7) = m ((c : Thread nD τ).loc main_arg7) :=
  ((W2_arr m ρ c 2).trans (((dat0 (V1 m ρ) c).arrAt_in 2 rfl _).trans (A_eq0 (V1 m ρ) c 2))).trans (W1_arg7 m ρ c)
theorem W3_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by not_written))).trans (W2_arg7 m ρ c)
theorem W4_arg7 (c : Dev nD) : W4 m ρ c (Proc.devRef .tc main_arg7) = m ((c : Thread nD τ).loc main_arg7) :=
  (StableHlo.after_of_forall_not_mem (b := Proc.devRef .tc main_arg7) _ _ (List.forall_iff_forall_mem.mp (by not_written))).trans (W3_arg7 m ρ c)
theorem W1_arg8 (c : Dev nD) : W1 m ρ c (Proc.devRef .tc main_arg8) = m ((c : Thread nD τ).loc main_arg8) :=
  StableHlo.after_of_forall_not_mem (b := Proc.devRef .tc main_arg8) _ _ (List.forall_iff_forall_mem.mp (by not_written))
theorem W2_arg8 (c : Dev nD) : W2 m ρ c (Proc.devRef .tc main_arg8) = m ((c : Thread nD τ).loc main_arg8) :=
  (W2_of_ne m ρ c main_arg8 (by decide)).trans (W1_arg8 m ρ c)
theorem W3_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by not_written))).trans (W2_arg8 m ρ c)
theorem W4_arg8 (c : Dev nD) : W4 m ρ c (Proc.devRef .tc main_arg8) = m ((c : Thread nD τ).loc main_arg8) :=
  (StableHlo.after_of_forall_not_mem (b := Proc.devRef .tc main_arg8) _ _ (List.forall_iff_forall_mem.mp (by not_written))).trans (W3_arg8 m ρ c)
theorem W1_arg9 (c : Dev nD) : W1 m ρ c (Proc.devRef .tc main_arg9) = m ((c : Thread nD τ).loc main_arg9) :=
  StableHlo.after_of_forall_not_mem (b := Proc.devRef .tc main_arg9) _ _ (List.forall_iff_forall_mem.mp (by not_written))
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by not_written))).trans (W2_arg9 m ρ c)
theorem W4_arg9 (c : Dev nD) : W4 m ρ c (Proc.devRef .tc main_arg9) = m ((c : Thread nD τ).loc main_arg9) :=
  (StableHlo.after_of_forall_not_mem (b := Proc.devRef .tc main_arg9) _ _ (List.forall_iff_forall_mem.mp (by not_written))).trans (W3_arg9 m ρ c)
theorem W1_arg10 (c : Dev nD) : W1 m ρ c (Proc.devRef .tc main_arg10) = m ((c : Thread nD τ).loc main_arg10) :=
  StableHlo.after_of_forall_not_mem (b := Proc.devRef .tc main_arg10) _ _ (List.forall_iff_forall_mem.mp (by not_written))
theorem W2_arg10 (c : Dev nD) : W2 m ρ c (Proc.devRef .tc main_arg10) = m ((c : Thread nD τ).loc main_arg10) :=
  (W2_of_ne m ρ c main_arg10 (by decide)).trans (W1_arg10 m ρ c)
theorem W3_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by not_written))).trans (W2_arg10 m ρ c)
theorem W4_arg10 (c : Dev nD) : W4 m ρ c (Proc.devRef .tc main_arg10) = m ((c : Thread nD τ).loc main_arg10) :=
  (StableHlo.after_of_forall_not_mem (b := Proc.devRef .tc main_arg10) _ _ (List.forall_iff_forall_mem.mp (by not_written))).trans (W3_arg10 m ρ c)
theorem W1_arg11 (c : Dev nD) : W1 m ρ c (Proc.devRef .tc main_arg11) = m ((c : Thread nD τ).loc main_arg11) :=
  StableHlo.after_of_forall_not_mem (b := Proc.devRef .tc main_arg11) _ _ (List.forall_iff_forall_mem.mp (by not_written))
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by not_written))).trans (W2_arg11 m ρ c)
theorem W4_arg11 (c : Dev nD) : W4 m ρ c (Proc.devRef .tc main_arg11) = m ((c : Thread nD τ).loc main_arg11) :=
  (StableHlo.after_of_forall_not_mem (b := Proc.devRef .tc main_arg11) _ _ (List.forall_iff_forall_mem.mp (by not_written))).trans (W3_arg11 m ρ c)

/-! Region 0's entry: the arguments it stages are as launched. -/
theorem V1_arg0 (c : Dev nD) : V1 m ρ c main_arg0 = (m ((c : Thread nD τ).loc main_arg0)) := W1_arg0 m ρ c
theorem V1_arg6 (c : Dev nD) : V1 m ρ c main_arg6 = (m ((c : Thread nD τ).loc main_arg6)) := W1_arg6 m ρ c
theorem V1_arg7 (c : Dev nD) : V1 m ρ c main_arg7 = (m ((c : Thread nD τ).loc main_arg7)) := W1_arg7 m ρ c

/-! ## The source and destination words

Row r of the edge list [2, E] is cut out as a [1, E] slice and reshaped to [E]: its entry e is the list's (r, e). -/

theorem edgeRow_apply (r : Fin 2) (ei : (⟨2, ![2, 800000]⟩ : Shape).Idx → BitVec 32)
    (hs : (⟨2, ![2, 800000]⟩ : Shape).Slices ![r.val, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![r.val, 0] ei hs) hc (ix1 e) = ei (ix2 r e) := by
  rw [shapeCast_1a_a_apply, slice2_axis0_apply r.val ei hs (0 : Fin 1) e r (by simp)]

theorem W1_src (c : Dev nD) : W1 m ρ c (Proc.devRef .tc main_v1) = Cert.Spec.srcOf (m ((c : Thread nD τ).loc main_arg1)) := by
  show StableHlo.after hostOps0 _ (Proc.devRef .tc main_v1) = _
  after_results
  funext i
  obtain ⟨e, rfl⟩ : ∃ e : Fin 800000, i = ix1 e := ⟨i 0, eq_ix1 i⟩
  exact edgeRow_apply 0 _ _ _ e
theorem W1_dst (c : Dev nD) : W1 m ρ c (Proc.devRef .tc main_v3) = Cert.Spec.dstOf (m ((c : Thread nD τ).loc main_arg1)) := by
  show StableHlo.after hostOps0 _ (Proc.devRef .tc main_v3) = _
  after_results
  funext i
  obtain ⟨e, rfl⟩ : ∃ e : Fin 800000, i = ix1 e := ⟨i 0, eq_ix1 i⟩
  exact edgeRow_apply 1 _ _ _ e

/-- Region 0 does not touch the source words, nor the destination words, which the first take does not write either. -/
theorem W2_src (c : Dev nD) : W2 m ρ c (Proc.devRef .tc main_v1) = Cert.Spec.srcOf (m ((c : Thread nD τ).loc main_arg1)) :=
  (W2_of_ne m ρ c main_v1 (by decide)).trans (W1_src m ρ c)
theorem W3_dst (c : Dev nD) : W3 m ρ c (Proc.devRef .tc main_v3) = Cert.Spec.dstOf (m ((c : Thread nD τ).loc main_arg1)) :=
  (StableHlo.after_of_forall_not_mem (b := Proc.devRef .tc main_v3) _ _ (List.forall_iff_forall_mem.mp (by not_written))).trans ((W2_of_ne m ρ c main_v3 (by decide)).trans (W1_dst m ρ c))

/-! ## The two takes

Each take is the same twenty-three operations over buffers of its own. Written over the buffers directly (the
operations' values need no transport between a buffer's type and the value's type, the two being the same), the
result buffer's contents after the stretch are the printed take of the table at the index words, which under in-range
words is the table's rows at the nodes the words name. -/

/-- The first take's operations, each written over its buffers directly. -/
abbrev takeOps0 : List (HloOp τ sig (Elt Ideal)) :=
  [ StableHlo.nullary main_call0_c ((constantI S_ 32 0#32) : (⟨S_, .i32⟩ : BufTy).Contents (Elt Ideal)),
    StableHlo.unary main_call0_c main_call0_v0 ((broadcastInDim S800000 ![] bcast_S_S800000) : (⟨S_, .i32⟩ : BufTy).Contents (Elt Ideal) → (⟨S800000, .i32⟩ : BufTy).Contents (Elt Ideal)),
    StableHlo.binary main_v1 main_call0_v0 main_call0_v1 ((cmpi .slt) : (⟨S800000, .i32⟩ : BufTy).Contents (Elt Ideal) → (⟨S800000, .i32⟩ : BufTy).Contents (Elt Ideal) → (⟨S800000, .i1⟩ : BufTy).Contents (Elt Ideal)),
    StableHlo.nullary main_call0_c_0 ((constantI S_ 32 50000#32) : (⟨S_, .i32⟩ : BufTy).Contents (Elt Ideal)),
    StableHlo.unary main_call0_c_0 main_call0_v2 ((broadcastInDim S800000 ![] bcast_S_S800000) : (⟨S_, .i32⟩ : BufTy).Contents (Elt Ideal) → (⟨S800000, .i32⟩ : BufTy).Contents (Elt Ideal)),
    StableHlo.binary main_v1 main_call0_v2 main_call0_v3 ((addi) : (⟨S800000, .i32⟩ : BufTy).Contents (Elt Ideal) → (⟨S800000, .i32⟩ : BufTy).Contents (Elt Ideal) → (⟨S800000, .i32⟩ : BufTy).Contents (Elt Ideal)),
    StableHlo.ternary main_call0_v1 main_call0_v3 main_v1 main_call0_v4 ((select) : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    StableHlo.unary main_call0_v4 main_call0_v5 ((broadcastInDim S800000x1 ![0] bcast_S800000_S800000x1_0) : (⟨S800000, .i32⟩ : BufTy).Contents (Elt Ideal) → (⟨S800000x1, .i32⟩ : BufTy).Contents (Elt Ideal)),
    StableHlo.nullary main_call0_c_1 ((constantI S1 32 49999#32) : (⟨S1, .i32⟩ : BufTy).Contents (Elt Ideal)),
    StableHlo.nullary main_call0_c_2 ((constantI S_ 32 0#32) : (⟨S_, .i32⟩ : BufTy).Contents (Elt Ideal)),
    StableHlo.unary main_call0_c_2 main_call0_v6 ((broadcastInDim S800000x1 ![] bcast_S_S800000x1) : (⟨S_, .i32⟩ : BufTy).Contents (Elt Ideal) → (⟨S800000x1, .i32⟩ : BufTy).Contents (Elt Ideal)),
    StableHlo.binary main_call0_v5 main_call0_v6 main_call0_v7 ((cmpi .sge) : (⟨S800000x1, .i32⟩ : BufTy).Contents (Elt Ideal) → (⟨S800000x1, .i32⟩ : BufTy).Contents (Elt Ideal) → (⟨S800000x1, .i1⟩ : BufTy).Contents (Elt Ideal)),
    StableHlo.unary main_call0_c_1 main_call0_v8 ((broadcastInDim S1x1 ![1] bcast_S1_S1x1_1) : (⟨S1, .i32⟩ : BufTy).Contents (Elt Ideal) → (⟨S1x1, .i32⟩ : BufTy).Contents (Elt Ideal)),
    StableHlo.unary main_call0_v8 main_call0_v9 ((broadcastInDim S800000x1 ![0, 1] bcast_S1x1_S800000x1_0_1) : (⟨S1x1, .i32⟩ : BufTy).Contents (Elt Ideal) → (⟨S800000x1, .i32⟩ : BufTy).Contents (Elt Ideal)),
    StableHlo.binary main_call0_v5 main_call0_v9 main_call0_v10 ((cmpi .sle) : (⟨S800000x1, .i32⟩ : BufTy).Contents (Elt Ideal) → (⟨S800000x1, .i32⟩ : BufTy).Contents (Elt Ideal) → (⟨S800000x1, .i1⟩ : BufTy).Contents (Elt Ideal)),
    StableHlo.binary main_call0_v7 main_call0_v10 main_call0_v11 ((andi) : (⟨S800000x1, .i1⟩ : BufTy).Contents (Elt Ideal) → (⟨S800000x1, .i1⟩ : BufTy).Contents (Elt Ideal) → (⟨S800000x1, .i1⟩ : BufTy).Contents (Elt Ideal)),
    StableHlo.nullary main_call0_c_3 ((constantI S_ 1 1#1) : (⟨S_, .i1⟩ : BufTy).Contents (Elt Ideal)),
    StableHlo.binary main_call0_v11 main_call0_c_3 main_call0_v12 ((fun x v => Host.reduce IntOp.andi x v reducesTo_S800000x1_S800000_d1 h_S_) : (⟨S800000x1, .i1⟩ : BufTy).Contents (Elt Ideal) → (⟨S_, .i1⟩ : BufTy).Contents (Elt Ideal) → (⟨S800000, .i1⟩ : BufTy).Contents (Elt Ideal)),
    StableHlo.binary main_arg0 main_call0_v5 main_call0_v13 ((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)),
    StableHlo.unary main_call0_v12 main_call0_v14 ((broadcastInDim S800000x64 ![0] bcast_S800000_S800000x64_0) : (⟨S800000, .i1⟩ : BufTy).Contents (Elt Ideal) → (⟨S800000x64, .i1⟩ : BufTy).Contents (Elt Ideal)),
    StableHlo.nullary main_call0_cst ((constant (F := Ideal) S_ .f32 0x7FC00000#32) : (⟨S_, .f32⟩ : BufTy).Contents (Elt Ideal)),
    StableHlo.unary main_call0_cst main_call0_v15 ((broadcastInDim S800000x64 ![] bcast_S_S800000x64) : (⟨S_, .f32⟩ : BufTy).Contents (Elt Ideal) → (⟨S800000x64, .f32⟩ : BufTy).Contents (Elt Ideal)),
    StableHlo.ternary main_call0_v14 main_call0_v13 main_call0_v15 main_v5 ((select) : (⟨S800000x64, .i1⟩ : BufTy).Contents (Elt Ideal) → (⟨S800000x64, .f32⟩ : BufTy).Contents (Elt Ideal) → (⟨S800000x64, .f32⟩ : BufTy).Contents (Elt Ideal) → (⟨S800000x64, .f32⟩ : BufTy).Contents (Elt Ideal)) ]

/-- The second take's operations, each written over its buffers directly. -/
abbrev takeOps1 : List (HloOp τ sig (Elt Ideal)) :=
  [ StableHlo.nullary main_call1_c ((constantI S_ 32 0#32) : (⟨S_, .i32⟩ : BufTy).Contents (Elt Ideal)),
    StableHlo.unary main_call1_c main_call1_v0 ((broadcastInDim S800000 ![] bcast_S_S800000) : (⟨S_, .i32⟩ : BufTy).Contents (Elt Ideal) → (⟨S800000, .i32⟩ : BufTy).Contents (Elt Ideal)),
    StableHlo.binary main_v3 main_call1_v0 main_call1_v1 ((cmpi .slt) : (⟨S800000, .i32⟩ : BufTy).Contents (Elt Ideal) → (⟨S800000, .i32⟩ : BufTy).Contents (Elt Ideal) → (⟨S800000, .i1⟩ : BufTy).Contents (Elt Ideal)),
    StableHlo.nullary main_call1_c_0 ((constantI S_ 32 50000#32) : (⟨S_, .i32⟩ : BufTy).Contents (Elt Ideal)),
    StableHlo.unary main_call1_c_0 main_call1_v2 ((broadcastInDim S800000 ![] bcast_S_S800000) : (⟨S_, .i32⟩ : BufTy).Contents (Elt Ideal) → (⟨S800000, .i32⟩ : BufTy).Contents (Elt Ideal)),
    StableHlo.binary main_v3 main_call1_v2 main_call1_v3 ((addi) : (⟨S800000, .i32⟩ : BufTy).Contents (Elt Ideal) → (⟨S800000, .i32⟩ : BufTy).Contents (Elt Ideal) → (⟨S800000, .i32⟩ : BufTy).Contents (Elt Ideal)),
    StableHlo.ternary main_call1_v1 main_call1_v3 main_v3 main_call1_v4 ((select) : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    StableHlo.unary main_call1_v4 main_call1_v5 ((broadcastInDim S800000x1 ![0] bcast_S800000_S800000x1_0) : (⟨S800000, .i32⟩ : BufTy).Contents (Elt Ideal) → (⟨S800000x1, .i32⟩ : BufTy).Contents (Elt Ideal)),
    StableHlo.nullary main_call1_c_1 ((constantI S1 32 49999#32) : (⟨S1, .i32⟩ : BufTy).Contents (Elt Ideal)),
    StableHlo.nullary main_call1_c_2 ((constantI S_ 32 0#32) : (⟨S_, .i32⟩ : BufTy).Contents (Elt Ideal)),
    StableHlo.unary main_call1_c_2 main_call1_v6 ((broadcastInDim S800000x1 ![] bcast_S_S800000x1) : (⟨S_, .i32⟩ : BufTy).Contents (Elt Ideal) → (⟨S800000x1, .i32⟩ : BufTy).Contents (Elt Ideal)),
    StableHlo.binary main_call1_v5 main_call1_v6 main_call1_v7 ((cmpi .sge) : (⟨S800000x1, .i32⟩ : BufTy).Contents (Elt Ideal) → (⟨S800000x1, .i32⟩ : BufTy).Contents (Elt Ideal) → (⟨S800000x1, .i1⟩ : BufTy).Contents (Elt Ideal)),
    StableHlo.unary main_call1_c_1 main_call1_v8 ((broadcastInDim S1x1 ![1] bcast_S1_S1x1_1) : (⟨S1, .i32⟩ : BufTy).Contents (Elt Ideal) → (⟨S1x1, .i32⟩ : BufTy).Contents (Elt Ideal)),
    StableHlo.unary main_call1_v8 main_call1_v9 ((broadcastInDim S800000x1 ![0, 1] bcast_S1x1_S800000x1_0_1) : (⟨S1x1, .i32⟩ : BufTy).Contents (Elt Ideal) → (⟨S800000x1, .i32⟩ : BufTy).Contents (Elt Ideal)),
    StableHlo.binary main_call1_v5 main_call1_v9 main_call1_v10 ((cmpi .sle) : (⟨S800000x1, .i32⟩ : BufTy).Contents (Elt Ideal) → (⟨S800000x1, .i32⟩ : BufTy).Contents (Elt Ideal) → (⟨S800000x1, .i1⟩ : BufTy).Contents (Elt Ideal)),
    StableHlo.binary main_call1_v7 main_call1_v10 main_call1_v11 ((andi) : (⟨S800000x1, .i1⟩ : BufTy).Contents (Elt Ideal) → (⟨S800000x1, .i1⟩ : BufTy).Contents (Elt Ideal) → (⟨S800000x1, .i1⟩ : BufTy).Contents (Elt Ideal)),
    StableHlo.nullary main_call1_c_3 ((constantI S_ 1 1#1) : (⟨S_, .i1⟩ : BufTy).Contents (Elt Ideal)),
    StableHlo.binary main_call1_v11 main_call1_c_3 main_call1_v12 ((fun x v => Host.reduce IntOp.andi x v reducesTo_S800000x1_S800000_d1 h_S_) : (⟨S800000x1, .i1⟩ : BufTy).Contents (Elt Ideal) → (⟨S_, .i1⟩ : BufTy).Contents (Elt Ideal) → (⟨S800000, .i1⟩ : BufTy).Contents (Elt Ideal)),
    StableHlo.binary main_arg0 main_call1_v5 main_call1_v13 ((fun x i => Host.gather gather_S50000x64_S800000x1_S800000x64_1_0_n_n_0_1_164 x i) : (⟨S50000x64, .f32⟩ : BufTy).Contents (Elt Ideal) → (⟨S800000x1, .i32⟩ : BufTy).Contents (Elt Ideal) → (⟨S800000x64, .f32⟩ : BufTy).Contents (Elt Ideal)),
    StableHlo.unary main_call1_v12 main_call1_v14 ((broadcastInDim S800000x64 ![0] bcast_S800000_S800000x64_0) : (⟨S800000, .i1⟩ : BufTy).Contents (Elt Ideal) → (⟨S800000x64, .i1⟩ : BufTy).Contents (Elt Ideal)),
    StableHlo.nullary main_call1_cst ((constant (F := Ideal) S_ .f32 0x7FC00000#32) : (⟨S_, .f32⟩ : BufTy).Contents (Elt Ideal)),
    StableHlo.unary main_call1_cst main_call1_v15 ((broadcastInDim S800000x64 ![] bcast_S_S800000x64) : (⟨S_, .f32⟩ : BufTy).Contents (Elt Ideal) → (⟨S800000x64, .f32⟩ : BufTy).Contents (Elt Ideal)),
    StableHlo.ternary main_call1_v14 main_call1_v13 main_call1_v15 main_v6 ((select) : (⟨S800000x64, .i1⟩ : BufTy).Contents (Elt Ideal) → (⟨S800000x64, .f32⟩ : BufTy).Contents (Elt Ideal) → (⟨S800000x64, .f32⟩ : BufTy).Contents (Elt Ideal) → (⟨S800000x64, .f32⟩ : BufTy).Contents (Elt Ideal)) ]

theorem hostOps1_eq : (hostOps1 : List (HloOp τ sig (Elt Ideal))) = takeOps0 := by
  iterate 17 (refine congrArg₂ List.cons rfl ?_)
  refine congrArg₂ List.cons (StableHlo.TRef.binary_plain main_call0_v11 main_call0_c_3 main_call0_v12 _ _ _ _ _ _ _) ?_
  rfl

theorem hostOps1_1_eq : (hostOps1_1 : List (HloOp τ sig (Elt Ideal))) = takeOps1 := by
  iterate 17 (refine congrArg₂ List.cons rfl ?_)
  refine congrArg₂ List.cons (StableHlo.TRef.binary_plain main_call1_v11 main_call1_c_3 main_call1_v12 _ _ _ _ _ _ _) ?_
  rfl

set_option maxHeartbeats 400000 in
theorem take0 (V : Valuation τ sig (Elt Ideal)) (hin : Cert.Spec.InRange (V (Proc.devRef .tc main_v1))) :
    StableHlo.after hostOps1 V (Proc.devRef .tc main_v5)
      = Cert.Spec.rows (V (Proc.devRef .tc main_arg0)) (V (Proc.devRef .tc main_v1)) := by
  rw [hostOps1_eq]
  after_results_simp
  exact Cert.KernelIdeal.KTake.take_rows (D := 64) _ _ _ _ _ _ _ _ _ rfl _ _ hin _

set_option maxHeartbeats 400000 in
theorem take1 (V : Valuation τ sig (Elt Ideal)) (hin : Cert.Spec.InRange (V (Proc.devRef .tc main_v3))) :
    StableHlo.after hostOps1_1 V (Proc.devRef .tc main_v6)
      = Cert.Spec.rows (V (Proc.devRef .tc main_arg0)) (V (Proc.devRef .tc main_v3)) := by
  rw [hostOps1_1_eq]
  after_results_simp
  exact Cert.KernelIdeal.KTake.take_rows (D := 64) _ _ _ _ _ _ _ _ _ rfl _ _ hin _

/-! Region 1's entry: the two row gathers (in range, the fill's mask is all ones), and the arguments as launched. -/
theorem V4_xs (c : Dev nD) (hsrc : Cert.Spec.InRange (Cert.Spec.srcOf (m ((c : Thread nD τ).loc main_arg1)))) :
    V4 m ρ c main_v5 = Cert.Spec.rows (m ((c : Thread nD τ).loc main_arg0)) (Cert.Spec.srcOf (m ((c : Thread nD τ).loc main_arg1))) := by
  have hin : Cert.Spec.InRange (W2 m ρ c (Proc.devRef .tc main_v1)) := by rw [W2_src]; exact hsrc
  calc V4 m ρ c main_v5
    _ = W3 m ρ c (Proc.devRef .tc main_v5) := StableHlo.after_of_forall_not_mem (b := Proc.devRef .tc main_v5) _ _ (List.forall_iff_forall_mem.mp (by not_written))
    _ = Cert.Spec.rows (W2 m ρ c (Proc.devRef .tc main_arg0)) (W2 m ρ c (Proc.devRef .tc main_v1)) := take0 (W2 m ρ c) hin
    _ = _ := by rw [W2_arg0, W2_src]
theorem V4_xd (c : Dev nD) (hdst : Cert.Spec.InRange (Cert.Spec.dstOf (m ((c : Thread nD τ).loc main_arg1)))) :
    V4 m ρ c main_v6 = Cert.Spec.rows (m ((c : Thread nD τ).loc main_arg0)) (Cert.Spec.dstOf (m ((c : Thread nD τ).loc main_arg1))) := by
  have hin : Cert.Spec.InRange (W3 m ρ c (Proc.devRef .tc main_v3)) := by rw [W3_dst]; exact hdst
  calc V4 m ρ c main_v6
    _ = Cert.Spec.rows (W3 m ρ c (Proc.devRef .tc main_arg0)) (W3 m ρ c (Proc.devRef .tc main_v3)) := take1 (W3 m ρ c) hin
    _ = _ := by rw [W3_arg0, W3_dst]
theorem V4_arg2 (c : Dev nD) : V4 m ρ c main_arg2 = (m ((c : Thread nD τ).loc main_arg2)) := W4_arg2 m ρ c
theorem V4_arg3 (c : Dev nD) : V4 m ρ c main_arg3 = (m ((c : Thread nD τ).loc main_arg3)) := W4_arg3 m ρ c
theorem V4_arg4 (c : Dev nD) : V4 m ρ c main_arg4 = (m ((c : Thread nD τ).loc main_arg4)) := W4_arg4 m ρ c
theorem V4_arg5 (c : Dev nD) : V4 m ρ c main_arg5 = (m ((c : Thread nD τ).loc main_arg5)) := W4_arg5 m ρ c
theorem V4_arg8 (c : Dev nD) : V4 m ρ c main_arg8 = (m ((c : Thread nD τ).loc main_arg8)) := W4_arg8 m ρ c
theorem V4_arg9 (c : Dev nD) : V4 m ρ c main_arg9 = (m ((c : Thread nD τ).loc main_arg9)) := W4_arg9 m ρ c
theorem V4_arg10 (c : Dev nD) : V4 m ρ c main_arg10 = (m ((c : Thread nD τ).loc main_arg10)) := W4_arg10 m ρ c
theorem V4_arg11 (c : Dev nD) : V4 m ρ c main_arg11 = (m ((c : Thread nD τ).loc main_arg11)) := W4_arg11 m ρ c

end Cert.KernelIdeal.KHostA

end
-- ==== Proof.KNodeSum.lean ====
import proofs.«408399_j1297080123525_4_alg».proof.Proof.Spec
import proofs.«408399_j1297080123525_4_alg».proof.Proof.LibRowOps
import Idealize.ShloMosaic.PureOps.Ideal.Laws
import Idealize.ShloMosaic.Lib.ValueIdx

noncomputable section

namespace Cert.KernelIdeal.KNodeSum

open Idealize.ShloMosaic Idealize.ShloMosaic.ValueIdx
open scoped BigOperators

/-- Rows of updates [E, D] added into a table [N, D] at index words [E, 1], read at (n, c): the table's entry plus the
    sum, over the edges whose word read signed is n, of the updates' entries (e, c). -/
theorem scatterRows_apply {N E D w : Nat} {wf : ScatterDims.WF ⟨2, ![N, D]⟩ ⟨2, ![E, 1]⟩ ⟨2, ![E, D]⟩ [1] [0] [0] 1}
    (d : ScatterDims ⟨2, ![N, D]⟩ ⟨2, ![E, 1]⟩ ⟨2, ![E, D]⟩) (hd : d = Cert.LibRowOps.rowScatterDims N E D wf)
    (x : FVec Ideal ⟨2, ![N, D]⟩ .f32) (idx : IVec ⟨2, ![E, 1]⟩ w) (upd : FVec Ideal ⟨2, ![E, D]⟩ .f32)
    (i : (⟨2, ![N, D]⟩ : Shape).Idx) :
    Host.scatterAdd (F := Ideal) (φ := .f32) d x idx upd i
      = x i + ∑ e ∈ Finset.univ.filter (fun e : Fin E => (idx (ix2 e ⟨0, Nat.one_pos⟩)).toInt = ((i 0).val : Int)),
          upd (ix2 e (i 1)) :=
  Cert.LibRowOps.rowScatterAdd_apply_of d hd x idx upd i

/-- Edge rows added into a zero table [50000, 128] at a column of index words that are the destination words: the
    node sums. At (n, j) both are 0 plus the sum of the rows' entries (e, j) over the edges whose word read signed is n. -/
theorem scatter_nodeSum {wf : ScatterDims.WF ⟨2, ![50000, 128]⟩ ⟨2, ![800000, 1]⟩ ⟨2, ![800000, 128]⟩ [1] [0] [0] 1}
    (d : ScatterDims ⟨2, ![50000, 128]⟩ ⟨2, ![800000, 1]⟩ ⟨2, ![800000, 128]⟩)
    (hd : d = Cert.LibRowOps.rowScatterDims 50000 800000 128 wf)
    (z : Cert.Spec.Arr2 50000 128) (hz : ∀ i, z i = 0) (col : IVec ⟨2, ![800000, 1]⟩ 32) (dst : Cert.Spec.Idx1 800000)
    (hcol : ∀ e : Fin 800000, col (ix2 e ⟨0, Nat.one_pos⟩) = dst (ix1 e)) (u : Cert.Spec.Arr2 800000 128) :
    Host.scatterAdd (F := Ideal) (φ := .f32) d z col u = Cert.Spec.nodeSum dst u := by
  funext i
  rw [scatterRows_apply d hd z col u i, hz]
  unfold Cert.Spec.nodeSum Cert.Spec.sel
  refine congrArg (0 + ·) ?_
  refine Finset.sum_congr (Finset.filter_congr fun e _ => ?_) fun e _ => rfl
  rw [hcol]

end Cert.KernelIdeal.KNodeSum

end
-- ==== Proof.KHostB_Take.lean ====
/-
  The third row gather of the layer: the value table's rows at the source words.

  Region 2 is entered with, in one of its input buffers, the host's "take" of the value table (region 0's output, 128
  columns) at the source words. The take is the same twenty-three operations as the two takes of the node table; under
  in-range source words its result is the value table's rows at the nodes the words name. Neither the table nor the
  words are written between the segments where they are made and this take, so the take reads them as made.
-/
import proofs.«408399_j1297080123525_4_alg».proof.Proof.KHostA

noncomputable section

namespace Cert.KernelIdeal.KHostBTake

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Closes "no operation of this host stretch writes the reference": each operation writes one reference, and the
    reference asked about is none of them. -/
local macro "not_written" : tactic => `(tactic| (
  simp only [hostOps1, hostOps1_1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The value table, region 0's output, is written by nothing up to the third take. -/
theorem W6_table (c : Dev nD) : W6 m ρ c (Proc.devRef .tc main_v4) = W2 m ρ c (Proc.devRef .tc main_v4) :=
  calc W6 m ρ c (Proc.devRef .tc main_v4)
    _ = W5 m ρ c (Proc.devRef .tc main_v4) := StableHlo.after_of_forall_not_mem (b := Proc.devRef .tc main_v4) _ _ (List.forall_iff_forall_mem.mp (by not_written))
    _ = W4 m ρ c (Proc.devRef .tc main_v4) := W5_of_ne m ρ c main_v4 (by decide)
    _ = W3 m ρ c (Proc.devRef .tc main_v4) := StableHlo.after_of_forall_not_mem (b := Proc.devRef .tc main_v4) _ _ (List.forall_iff_forall_mem.mp (by not_written))
    _ = W2 m ρ c (Proc.devRef .tc main_v4) := StableHlo.after_of_forall_not_mem (b := Proc.devRef .tc main_v4) _ _ (List.forall_iff_forall_mem.mp (by not_written))

/-- The source words, made by the first host stretch, are written by nothing up to the third take. -/
theorem W6_src (c : Dev nD) : W6 m ρ c (Proc.devRef .tc main_v1) = W1 m ρ c (Proc.devRef .tc main_v1) :=
  calc W6 m ρ c (Proc.devRef .tc main_v1)
    _ = W5 m ρ c (Proc.devRef .tc main_v1) := StableHlo.after_of_forall_not_mem (b := Proc.devRef .tc main_v1) _ _ (List.forall_iff_forall_mem.mp (by not_written))
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by not_written))
    _ = W2 m ρ c (Proc.devRef .tc main_v1) := StableHlo.after_of_forall_not_mem (b := Proc.devRef .tc main_v1) _ _ (List.forall_iff_forall_mem.mp (by not_written))
    _ = W1 m ρ c (Proc.devRef .tc main_v1) := W2_of_ne m ρ c main_v1 (by decide)

/-- The third take's operations, each written over its buffers directly. -/
abbrev takeOps2 : List (HloOp τ sig (Elt Ideal)) :=
  [ StableHlo.nullary main_call2_c ((constantI S_ 32 0#32) : (⟨S_, .i32⟩ : BufTy).Contents (Elt Ideal)),
    StableHlo.unary main_call2_c main_call2_v0 ((broadcastInDim S800000 ![] bcast_S_S800000) : (⟨S_, .i32⟩ : BufTy).Contents (Elt Ideal) → (⟨S800000, .i32⟩ : BufTy).Contents (Elt Ideal)),
    StableHlo.binary main_v1 main_call2_v0 main_call2_v1 ((cmpi .slt) : (⟨S800000, .i32⟩ : BufTy).Contents (Elt Ideal) → (⟨S800000, .i32⟩ : BufTy).Contents (Elt Ideal) → (⟨S800000, .i1⟩ : BufTy).Contents (Elt Ideal)),
    StableHlo.nullary main_call2_c_0 ((constantI S_ 32 50000#32) : (⟨S_, .i32⟩ : BufTy).Contents (Elt Ideal)),
    StableHlo.unary main_call2_c_0 main_call2_v2 ((broadcastInDim S800000 ![] bcast_S_S800000) : (⟨S_, .i32⟩ : BufTy).Contents (Elt Ideal) → (⟨S800000, .i32⟩ : BufTy).Contents (Elt Ideal)),
    StableHlo.binary main_v1 main_call2_v2 main_call2_v3 ((addi) : (⟨S800000, .i32⟩ : BufTy).Contents (Elt Ideal) → (⟨S800000, .i32⟩ : BufTy).Contents (Elt Ideal) → (⟨S800000, .i32⟩ : BufTy).Contents (Elt Ideal)),
    StableHlo.ternary main_call2_v1 main_call2_v3 main_v1 main_call2_v4 ((select) : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    StableHlo.unary main_call2_v4 main_call2_v5 ((broadcastInDim S800000x1 ![0] bcast_S800000_S800000x1_0) : (⟨S800000, .i32⟩ : BufTy).Contents (Elt Ideal) → (⟨S800000x1, .i32⟩ : BufTy).Contents (Elt Ideal)),
    StableHlo.nullary main_call2_c_1 ((constantI S1 32 49999#32) : (⟨S1, .i32⟩ : BufTy).Contents (Elt Ideal)),
    StableHlo.nullary main_call2_c_2 ((constantI S_ 32 0#32) : (⟨S_, .i32⟩ : BufTy).Contents (Elt Ideal)),
    StableHlo.unary main_call2_c_2 main_call2_v6 ((broadcastInDim S800000x1 ![] bcast_S_S800000x1) : (⟨S_, .i32⟩ : BufTy).Contents (Elt Ideal) → (⟨S800000x1, .i32⟩ : BufTy).Contents (Elt Ideal)),
    StableHlo.binary main_call2_v5 main_call2_v6 main_call2_v7 ((cmpi .sge) : (⟨S800000x1, .i32⟩ : BufTy).Contents (Elt Ideal) → (⟨S800000x1, .i32⟩ : BufTy).Contents (Elt Ideal) → (⟨S800000x1, .i1⟩ : BufTy).Contents (Elt Ideal)),
    StableHlo.unary main_call2_c_1 main_call2_v8 ((broadcastInDim S1x1 ![1] bcast_S1_S1x1_1) : (⟨S1, .i32⟩ : BufTy).Contents (Elt Ideal) → (⟨S1x1, .i32⟩ : BufTy).Contents (Elt Ideal)),
    StableHlo.unary main_call2_v8 main_call2_v9 ((broadcastInDim S800000x1 ![0, 1] bcast_S1x1_S800000x1_0_1) : (⟨S1x1, .i32⟩ : BufTy).Contents (Elt Ideal) → (⟨S800000x1, .i32⟩ : BufTy).Contents (Elt Ideal)),
    StableHlo.binary main_call2_v5 main_call2_v9 main_call2_v10 ((cmpi .sle) : (⟨S800000x1, .i32⟩ : BufTy).Contents (Elt Ideal) → (⟨S800000x1, .i32⟩ : BufTy).Contents (Elt Ideal) → (⟨S800000x1, .i1⟩ : BufTy).Contents (Elt Ideal)),
    StableHlo.binary main_call2_v7 main_call2_v10 main_call2_v11 ((andi) : (⟨S800000x1, .i1⟩ : BufTy).Contents (Elt Ideal) → (⟨S800000x1, .i1⟩ : BufTy).Contents (Elt Ideal) → (⟨S800000x1, .i1⟩ : BufTy).Contents (Elt Ideal)),
    StableHlo.nullary main_call2_c_3 ((constantI S_ 1 1#1) : (⟨S_, .i1⟩ : BufTy).Contents (Elt Ideal)),
    StableHlo.binary main_call2_v11 main_call2_c_3 main_call2_v12 ((fun x v => Host.reduce IntOp.andi x v reducesTo_S800000x1_S800000_d1 h_S_) : (⟨S800000x1, .i1⟩ : BufTy).Contents (Elt Ideal) → (⟨S_, .i1⟩ : BufTy).Contents (Elt Ideal) → (⟨S800000, .i1⟩ : BufTy).Contents (Elt Ideal)),
    StableHlo.binary main_v4 main_call2_v5 main_call2_v13 ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)),
    StableHlo.unary main_call2_v12 main_call2_v14 ((broadcastInDim S800000x128 ![0] bcast_S800000_S800000x128_0) : (⟨S800000, .i1⟩ : BufTy).Contents (Elt Ideal) → (⟨S800000x128, .i1⟩ : BufTy).Contents (Elt Ideal)),
    StableHlo.nullary main_call2_cst ((constant (F := Ideal) S_ .f32 0x7FC00000#32) : (⟨S_, .f32⟩ : BufTy).Contents (Elt Ideal)),
    StableHlo.unary main_call2_cst main_call2_v15 ((broadcastInDim S800000x128 ![] bcast_S_S800000x128) : (⟨S_, .f32⟩ : BufTy).Contents (Elt Ideal) → (⟨S800000x128, .f32⟩ : BufTy).Contents (Elt Ideal)),
    StableHlo.ternary main_call2_v14 main_call2_v13 main_call2_v15 main_v15 ((select) : (⟨S800000x128, .i1⟩ : BufTy).Contents (Elt Ideal) → (⟨S800000x128, .f32⟩ : BufTy).Contents (Elt Ideal) → (⟨S800000x128, .f32⟩ : BufTy).Contents (Elt Ideal) → (⟨S800000x128, .f32⟩ : BufTy).Contents (Elt Ideal)) ]

theorem hostOps2_1_eq : (hostOps2_1 : List (HloOp τ sig (Elt Ideal))) = takeOps2 := by
  iterate 17 (refine congrArg₂ List.cons rfl ?_)
  refine congrArg₂ List.cons (StableHlo.TRef.binary_plain main_call2_v11 main_call2_c_3 main_call2_v12 _ _ _ _ _ _ _) ?_
  rfl

set_option maxHeartbeats 400000 in
/-- The third take's result buffer after its stretch, from any contents with in-range source words. -/
theorem take2 (V : Valuation τ sig (Elt Ideal)) (hin : Cert.Spec.InRange (V (Proc.devRef .tc main_v1))) :
    StableHlo.after hostOps2_1 V (Proc.devRef .tc main_v15)
      = Cert.Spec.rows (V (Proc.devRef .tc main_v4)) (V (Proc.devRef .tc main_v1)) := by
  rw [hostOps2_1_eq]
  after_results_simp
  exact Cert.KernelIdeal.KTake.take_rows (D := 128) _ _ _ _ _ _ _ _ _ rfl _ _ hin _

theorem V7_vsrc (c : Dev nD) (hsrc : Cert.Spec.InRange (W1 m ρ c (Proc.devRef .tc main_v1))) :
    V7 m ρ c main_v15 = Cert.Spec.rows (W2 m ρ c (Proc.devRef .tc main_v4)) (W1 m ρ c (Proc.devRef .tc main_v1)) := by
  have hin : Cert.Spec.InRange (W6 m ρ c (Proc.devRef .tc main_v1)) := by rw [W6_src]; exact hsrc
  calc V7 m ρ c main_v15
    _ = Cert.Spec.rows (W6 m ρ c (Proc.devRef .tc main_v4)) (W6 m ρ c (Proc.devRef .tc main_v1)) := take2 (W6 m ρ c) hin
    _ = _ := by rw [W6_table, W6_src]

end Cert.KernelIdeal.KHostBTake

end
-- ==== Proof.KHostB.lean ====
import proofs.«408399_j1297080123525_4_alg».proof.Proof.Gen.KernelIdeal.Frame
import proofs.«408399_j1297080123525_4_alg».proof.Proof.Spec
import Idealize.ShloMosaic.Lib.StableHlo.Run
import proofs.«408399_j1297080123525_4_alg».proof.Proof.LibRowOps
import proofs.«408399_j1297080123525_4_alg».proof.Proof.LibReal
import proofs.«408399_j1297080123525_4_alg».proof.Proof.KNodeSum
import proofs.«408399_j1297080123525_4_alg».proof.Proof.KHostB_Take
import Idealize.ShloMosaic.Lib.Pipeline.Value
import Idealize.ShloMosaic.Lib.IdealHost
import Idealize.ShloMosaic.Lib.ValueLayout

set_option Elab.async false

noncomputable section

namespace Cert.KernelIdeal.KHostB

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A buffer that no operation of a host stretch writes holds after the stretch what it held before. -/
local macro "pass_stretch " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

open Idealize.ShloMosaic.ValueIdx

/-! ## The shifted exponentials -/

/-- The single-precision word of −∞ is the bottom of the extended reals. -/
theorem ofBits_neg_inf : Ideal.ofBits .f32 0xFF800000#32 = (⊥ : EReal) := by
  simp [Ideal.ofBits, Ideal.ieee]

/-- Removing the edge axis of a [4, E] array leaves the heads. -/
theorem reduces_S4x800000 : S4x800000.Reduces [1] S4 := by decide

/-- The index (h, e) is the head index h with the edge coordinate e put back on axis 1. -/
theorem lift_S4x800000 (hR : S4x800000.Reduces [1] S4) (h : Fin 4) (e : Fin 800000) :
    hR.lift (ix1 h) e = ix2 h e := by
  funext a
  refine Fin.ext ?_
  fin_cases a
  · rfl
  · rfl

/-- A head's maximum over the edges, as the host's reduction from −∞ computes it: the order of the fold does not
    matter, so it is the fold over the edges. -/
theorem hostMax_apply (x : FVec Ideal S4x800000 .f32) (hr : S4x800000.ReducesTo [1] S4) (hu : 0 < S_.numel) (h : Fin 4) :
    Host.reduce (FloatOps.maximumf (F := Ideal) (φ := .f32)) x (constant (F := Ideal) S_ .f32 0xFF800000#32) hr hu (ix1 h)
      = Cert.Spec.mx x h := by
  rw [Host.reduce_eq_fold_single _ x _ hr reduces_S4x800000 hu (ix1 h)]
  unfold Cert.Spec.mx
  rw [constant_apply, ofBits_neg_inf]
  have hf : (x ∘ reduces_S4x800000.lift (ix1 h)) = fun e : Fin 800000 => x (ix2 h e) := by
    funext e; exact congrArg x (lift_S4x800000 _ h e)
  rw [hf]
  rfl

/-- A per-head vector broadcast first to a column [4, 1] and then along the edges reads, at (h, e), the head's entry. -/
theorem bcastHead_apply (v : (⟨1, ![4]⟩ : Shape).Idx → EReal) (hb1 : S4.BroadcastsInDim S4x1 ![0])
    (hb2 : S4x1.BroadcastsInDim S4x800000 ![0, 1]) (h : Fin 4) (e : Fin 800000) :
    broadcastInDim S4x800000 ![0, 1] hb2 (broadcastInDim S4x1 ![0] hb1 v) (ix2 h e) = v (ix1 h) := by
  rw [broadcastInDim_apply ![0, 1] hb2 _ (ix2 h e) (ix2 h (0 : Fin 1)) (fun a => by fin_cases a <;> rfl)]
  rw [broadcastInDim_apply ![0] hb1 _ (ix2 h (0 : Fin 1)) (ix1 h) (fun a => by fin_cases a; rfl)]

/-- The host's exp(x − max x), the maximum taken per head over the edges from −∞, is the specification's array of
    shifted exponentials. -/
theorem shiftedExp_eq (x : FVec Ideal S4x800000 .f32) (hr : S4x800000.ReducesTo [1] S4) (hu : 0 < S_.numel)
    (hb1 : S4.BroadcastsInDim S4x1 ![0]) (hb2 : S4x1.BroadcastsInDim S4x800000 ![0, 1]) :
    (Host.exp (subf x (broadcastInDim S4x800000 ![0, 1] hb2 (broadcastInDim S4x1 ![0] hb1
      (Host.reduce (FloatOps.maximumf (F := Ideal) (φ := .f32)) x (constant (F := Ideal) S_ .f32 0xFF800000#32) hr hu))))
        : FVec Ideal S4x800000 .f32) = Cert.Spec.ex x := by
  funext i
  rw [eq_ix2 i]
  show Ideal.exp (x (ix2 (i 0) (i 1)) - broadcastInDim S4x800000 ![0, 1] hb2 (broadcastInDim S4x1 ![0] hb1
      (Host.reduce (FloatOps.maximumf (F := Ideal) (φ := .f32)) x (constant (F := Ideal) S_ .f32 0xFF800000#32) hr hu)) (ix2 (i 0) (i 1)))
    = Ideal.exp (x (ix2 (i 0) (i 1)) - Cert.Spec.mx x (i 0))
  rw [bcastHead_apply _ hb1 hb2 (i 0) (i 1), hostMax_apply x hr hu (i 0)]

/-! ## The reciprocals of the heads' sums -/

/-- A head's sum of an [4, E] array over the edges, as the host's reduction from the word of zero computes it. -/
theorem hostSum_apply (p : FVec Ideal S4x800000 .f32) (hr : S4x800000.ReducesTo [1] S4) (hu : 0 < S_.numel) (h : Fin 4) :
    Host.reduceAdd p (constant (F := Ideal) S_ .f32 0x00000000#32) hr hu (ix1 h) = ∑ e : Fin 800000, p (ix2 h e) := by
  rw [hostReduceAdd_apply, Ideal.hostReduceAdd_single hr reduces_S4x800000, constant_apply, Ideal.ofBits_zero_f32, zero_add]
  exact Finset.sum_congr rfl fun e _ => congrArg p (lift_S4x800000 _ h e)

/-- The per-head sums laid as a column [4, 1] and read back as a vector [4] are the sums. -/
theorem column_cast_apply (s : (⟨1, ![4]⟩ : Shape).Idx → EReal) (hb1 : S4.BroadcastsInDim S4x1 ![0])
    (hc : S4x1.ShapeCasts S4) (a : Fin 4) :
    shapeCast S4 (broadcastInDim S4x1 ![0] hb1 s) hc (ix1 a) = s (ix1 a) := by
  rw [shapeCast_apply _ hc (ix1 a) (ix2 a (0 : Fin 1)) (by
    rw [Shape.rowMajor_val_two, Shape.rowMajor_val_one]; show a.val * 1 + 0 = a.val; omega)]
  exact broadcastInDim_apply ![0] hb1 _ (ix2 a (0 : Fin 1)) (ix1 a) (fun b => by fin_cases b; rfl)

/-- A per-head vector repeated 32 times along a second axis and flattened to 128 columns reads, at column j, the entry
    of the head j / 32. -/
theorem perColumn_apply (r : (⟨1, ![4]⟩ : Shape).Idx → EReal) (hb3 : S4.BroadcastsInDim S4x32 ![0])
    (hc : S4x32.ShapeCasts S128) (j : Fin 128) :
    shapeCast S128 (broadcastInDim S4x32 ![0] hb3 r) hc (ix1 j) = r (ix1 (Cert.Spec.hOf j)) := by
  have h1 : j.val / 32 < 4 := by omega
  have h2 : j.val % 32 < 32 := Nat.mod_lt _ (by decide)
  rw [shapeCast_apply _ hc (ix1 j) (ix2 (⟨j.val / 32, h1⟩ : Fin 4) (⟨j.val % 32, h2⟩ : Fin 32)) (by
    rw [Shape.rowMajor_val_two, Shape.rowMajor_val_one]; show j.val / 32 * 32 + j.val % 32 = j.val; omega)]
  exact broadcastInDim_apply ![0] hb3 r (ix2 (⟨j.val / 32, h1⟩ : Fin 4) (⟨j.val % 32, h2⟩ : Fin 32)) (ix1 (Cert.Spec.hOf j))
    (fun b => by fin_cases b; rfl)

/-- The host's 1 / Σ p per head, spread over the head's 32 columns, is the specification's per-column reciprocal. -/
theorem invDen_eq (x : FVec Ideal S4x800000 .f32) (hr : S4x800000.ReducesTo [1] S4) (hu : 0 < S_.numel)
    (hb1 : S4.BroadcastsInDim S4x1 ![0]) (hc1 : S4x1.ShapeCasts S4) (hb0 : S_.BroadcastsInDim S4 ![])
    (hb3 : S4.BroadcastsInDim S4x32 ![0]) (hc2 : S4x32.ShapeCasts S128) :
    (shapeCast S128 (broadcastInDim S4x32 ![0] hb3
      (Host.divf (broadcastInDim S4 ![] hb0 (constant (F := Ideal) S_ .f32 0x3F800000#32))
        (shapeCast S4 (broadcastInDim S4x1 ![0] hb1
          (Host.reduceAdd (Cert.Spec.ex x : FVec Ideal S4x800000 .f32) (constant (F := Ideal) S_ .f32 0x00000000#32) hr hu)) hc1))) hc2
        : FVec Ideal S128 .f32) = Cert.Spec.invDen x := by
  funext j
  obtain ⟨j0, rfl⟩ : ∃ j0 : Fin 128, j = ix1 j0 := ⟨j 0, eq_ix1 j⟩
  rw [perColumn_apply _ hb3 hc2 j0, hostDivf_apply, broadcastInDim_scalar_apply, constant_apply,
    Ideal.ofBits_one_f32, column_cast_apply _ hb1 hc1, hostSum_apply _ hr hu]
  rfl

/-! ## The node sums -/

/-- The table the node sums start from is zero everywhere. -/
theorem zeroTable_apply (hb0 : S_.BroadcastsInDim S50000x128 ![]) (i : S50000x128.Idx) :
    broadcastInDim S50000x128 ![] hb0 (constant (F := Ideal) S_ .f32 0x00000000#32) i = 0 := by
  rw [broadcastInDim_scalar_apply, constant_apply, Ideal.ofBits_zero_f32]

/-- The destination words laid as a column [E, 1] read, at edge e, the edge's word. -/
theorem dstColumn_apply (hb1 : S800000.BroadcastsInDim S800000x1 ![0]) (dst : Cert.Spec.Idx1 800000) (e : Fin 800000) :
    broadcastInDim S800000x1 ![0] hb1 dst (ix2 e (⟨0, Nat.one_pos⟩ : Fin 1)) = dst (ix1 e) :=
  broadcastInDim_apply ![0] hb1 dst (ix2 e (⟨0, Nat.one_pos⟩ : Fin 1)) (ix1 e) (fun b => by fin_cases b; rfl)

/-- The program's scatter record is the whole-row scatter's dimension numbers. -/
theorem scatterRec_eq : scatter_S50000x128_S800000x1_S800000x128_1_0_0_1
    = Cert.LibRowOps.rowScatterDims 50000 800000 128 scatter_S50000x128_S800000x1_S800000x128_1_0_0_1_wf := rfl

/-! Region 2's entry: the shifted exponentials of region 1's output, and the value rows gathered from region 0's
    output at the source words (which the first host stretch wrote: `W1 … main_v1`). -/
theorem V7_p (c : Dev nD) : V7 m ρ c main_v12 = Cert.Spec.ex (W5 m ρ c (Proc.devRef .tc main_v7)) := by
  have e6 : W7 m ρ c (Proc.devRef .tc main_v12) = W6 m ρ c (Proc.devRef .tc main_v12) := by pass_stretch hostOps2_1
  refine e6.trans ?_
  have e5 : (W6 m ρ c (Proc.devRef .tc main_v12) : FVec Ideal S4x800000 .f32)
      = Host.exp (subf (W5 m ρ c (Proc.devRef .tc main_v7)) (broadcastInDim S4x800000 ![0, 1] bcast_S4x1_S4x800000_0_1
          (broadcastInDim S4x1 ![0] bcast_S4_S4x1_0
            (Host.reduce (FloatOps.maximumf (F := Ideal) (φ := .f32)) (W5 m ρ c (Proc.devRef .tc main_v7))
              (constant (F := Ideal) S_ .f32 0xFF800000#32) reducesTo_S4x800000_S4_d1 h_S_)))) := by
    show StableHlo.after hostOps2 _ (Proc.devRef .tc main_v12) = _
    after_results
  refine e5.trans ?_
  generalize W5 m ρ c (Proc.devRef .tc main_v7) = x
  exact shiftedExp_eq x _ _ _ _

theorem V7_vsrc (c : Dev nD) (hsrc : Cert.Spec.InRange (W1 m ρ c (Proc.devRef .tc main_v1))) :
    V7 m ρ c main_v15 = Cert.Spec.rows (W2 m ρ c (Proc.devRef .tc main_v4)) (W1 m ρ c (Proc.devRef .tc main_v1)) :=
  Cert.KernelIdeal.KHostBTake.V7_vsrc m ρ c hsrc

/-! Region 3's entry: the node sums of region 2's output by the destination words, the per-column reciprocals of
    the heads' sums of exponentials, and the arguments as launched. -/

theorem V9_agg (c : Dev nD) :
    V9 m ρ c main_v19 = Cert.Spec.nodeSum (W1 m ρ c (Proc.devRef .tc main_v3)) (W8 m ρ c (Proc.devRef .tc main_v16)) := by
  -- the destination words are written before region 0 and never again
  have e3 : W8 m ρ c (Proc.devRef .tc main_v3) = W1 m ρ c (Proc.devRef .tc main_v3) :=
    calc W8 m ρ c (Proc.devRef .tc main_v3)
      _ = W7 m ρ c (Proc.devRef .tc main_v3) := W8_of_ne m ρ c main_v3 (by decide)
      _ = W6 m ρ c (Proc.devRef .tc main_v3) := by pass_stretch hostOps2_1
      _ = W5 m ρ c (Proc.devRef .tc main_v3) := by pass_stretch hostOps2
      _ = W4 m ρ c (Proc.devRef .tc main_v3) := W5_of_ne m ρ c main_v3 (by decide)
      _ = W3 m ρ c (Proc.devRef .tc main_v3) := by pass_stretch hostOps1_1
      _ = W2 m ρ c (Proc.devRef .tc main_v3) := by pass_stretch hostOps1
      _ = W1 m ρ c (Proc.devRef .tc main_v3) := W2_of_ne m ρ c main_v3 (by decide)
  show StableHlo.after hostOps3 _ (Proc.devRef .tc main_v19) = _
  after_results
  rw [e3]
  exact Cert.KernelIdeal.KNodeSum.scatter_nodeSum scatter_S50000x128_S800000x1_S800000x128_1_0_0_1 scatterRec_eq _
    (fun i => zeroTable_apply _ i) _ _ (fun e => dstColumn_apply _ _ e) _

theorem V9_inv (c : Dev nD) : V9 m ρ c main_v24 = Cert.Spec.invDen (W5 m ρ c (Proc.devRef .tc main_v7)) := by
  -- the column of the heads' sums, written by the third stretch, passes the take and region 2 untouched
  have e14 : (W8 m ρ c (Proc.devRef .tc main_v14) : FVec Ideal S4x1 .f32)
      = broadcastInDim S4x1 ![0] bcast_S4_S4x1_0
          (Host.reduceAdd (Cert.Spec.ex (W5 m ρ c (Proc.devRef .tc main_v7)) : FVec Ideal S4x800000 .f32)
            (constant (F := Ideal) S_ .f32 0x00000000#32) reducesTo_S4x800000_S4_d1 h_S_) := by
    refine ((W8_of_ne m ρ c main_v14 (by decide)).trans (by pass_stretch hostOps2_1)).trans ?_
    show StableHlo.after hostOps2 _ (Proc.devRef .tc main_v14) = _
    after_results
    rw [shiftedExp_eq]
  show StableHlo.after hostOps3 _ (Proc.devRef .tc main_v24) = _
  after_results
  rw [e14]
  exact invDen_eq _ _ _ _ _ _ _ _

theorem V9_arg12 (c : Dev nD) : V9 m ρ c main_arg12 = (m ((c : Thread nD τ).loc main_arg12)) :=
  calc W9 m ρ c (Proc.devRef .tc main_arg12)
    _ = W8 m ρ c (Proc.devRef .tc main_arg12) := by pass_stretch hostOps3
    _ = W7 m ρ c (Proc.devRef .tc main_arg12) := W8_of_ne m ρ c main_arg12 (by decide)
    _ = W6 m ρ c (Proc.devRef .tc main_arg12) := by pass_stretch hostOps2_1
    _ = W5 m ρ c (Proc.devRef .tc main_arg12) := by pass_stretch hostOps2
    _ = W4 m ρ c (Proc.devRef .tc main_arg12) := W5_of_ne m ρ c main_arg12 (by decide)
    _ = W3 m ρ c (Proc.devRef .tc main_arg12) := by pass_stretch hostOps1_1
    _ = W2 m ρ c (Proc.devRef .tc main_arg12) := by pass_stretch hostOps1
    _ = W1 m ρ c (Proc.devRef .tc main_arg12) := W2_of_ne m ρ c main_arg12 (by decide)
    _ = W0 m ρ c (Proc.devRef .tc main_arg12) := by pass_stretch hostOps0
    _ = m ((c : Thread nD τ).loc main_arg12) := rfl

theorem V9_arg13 (c : Dev nD) : V9 m ρ c main_arg13 = (m ((c : Thread nD τ).loc main_arg13)) :=
  calc W9 m ρ c (Proc.devRef .tc main_arg13)
    _ = W8 m ρ c (Proc.devRef .tc main_arg13) := by pass_stretch hostOps3
    _ = W7 m ρ c (Proc.devRef .tc main_arg13) := W8_of_ne m ρ c main_arg13 (by decide)
    _ = W6 m ρ c (Proc.devRef .tc main_arg13) := by pass_stretch hostOps2_1
    _ = W5 m ρ c (Proc.devRef .tc main_arg13) := by pass_stretch hostOps2
    _ = W4 m ρ c (Proc.devRef .tc main_arg13) := W5_of_ne m ρ c main_arg13 (by decide)
    _ = W3 m ρ c (Proc.devRef .tc main_arg13) := by pass_stretch hostOps1_1
    _ = W2 m ρ c (Proc.devRef .tc main_arg13) := by pass_stretch hostOps1
    _ = W1 m ρ c (Proc.devRef .tc main_arg13) := W2_of_ne m ρ c main_arg13 (by decide)
    _ = W0 m ρ c (Proc.devRef .tc main_arg13) := by pass_stretch hostOps0
    _ = m ((c : Thread nD τ).loc main_arg13) := rfl

theorem V9_arg14 (c : Dev nD) : V9 m ρ c main_arg14 = (m ((c : Thread nD τ).loc main_arg14)) :=
  calc W9 m ρ c (Proc.devRef .tc main_arg14)
    _ = W8 m ρ c (Proc.devRef .tc main_arg14) := by pass_stretch hostOps3
    _ = W7 m ρ c (Proc.devRef .tc main_arg14) := W8_of_ne m ρ c main_arg14 (by decide)
    _ = W6 m ρ c (Proc.devRef .tc main_arg14) := by pass_stretch hostOps2_1
    _ = W5 m ρ c (Proc.devRef .tc main_arg14) := by pass_stretch hostOps2
    _ = W4 m ρ c (Proc.devRef .tc main_arg14) := W5_of_ne m ρ c main_arg14 (by decide)
    _ = W3 m ρ c (Proc.devRef .tc main_arg14) := by pass_stretch hostOps1_1
    _ = W2 m ρ c (Proc.devRef .tc main_arg14) := by pass_stretch hostOps1
    _ = W1 m ρ c (Proc.devRef .tc main_arg14) := W2_of_ne m ρ c main_arg14 (by decide)
    _ = W0 m ρ c (Proc.devRef .tc main_arg14) := by pass_stretch hostOps0
    _ = m ((c : Thread nD τ).loc main_arg14) := rfl

theorem V9_arg15 (c : Dev nD) : V9 m ρ c main_arg15 = (m ((c : Thread nD τ).loc main_arg15)) :=
  calc W9 m ρ c (Proc.devRef .tc main_arg15)
    _ = W8 m ρ c (Proc.devRef .tc main_arg15) := by pass_stretch hostOps3
    _ = W7 m ρ c (Proc.devRef .tc main_arg15) := W8_of_ne m ρ c main_arg15 (by decide)
    _ = W6 m ρ c (Proc.devRef .tc main_arg15) := by pass_stretch hostOps2_1
    _ = W5 m ρ c (Proc.devRef .tc main_arg15) := by pass_stretch hostOps2
    _ = W4 m ρ c (Proc.devRef .tc main_arg15) := W5_of_ne m ρ c main_arg15 (by decide)
    _ = W3 m ρ c (Proc.devRef .tc main_arg15) := by pass_stretch hostOps1_1
    _ = W2 m ρ c (Proc.devRef .tc main_arg15) := by pass_stretch hostOps1
    _ = W1 m ρ c (Proc.devRef .tc main_arg15) := W2_of_ne m ρ c main_arg15 (by decide)
    _ = W0 m ρ c (Proc.devRef .tc main_arg15) := by pass_stretch hostOps0
    _ = m ((c : Thread nD τ).loc main_arg15) := rfl

end Cert.KernelIdeal.KHostB

end
-- ==== Proof.KValue.lean ====
import proofs.«408399_j1297080123525_4_alg».proof.Proof.Gen.KernelIdeal.Frame
import proofs.«408399_j1297080123525_4_alg».proof.Proof.Spec
import proofs.«408399_j1297080123525_4_alg».proof.Proof.KReg0
import proofs.«408399_j1297080123525_4_alg».proof.Proof.KReg1
import proofs.«408399_j1297080123525_4_alg».proof.Proof.KReg2
import proofs.«408399_j1297080123525_4_alg».proof.Proof.KReg3
import proofs.«408399_j1297080123525_4_alg».proof.Proof.KHostA
import proofs.«408399_j1297080123525_4_alg».proof.Proof.KHostB

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! Each region's output array sits in the fold where the region leaves it. -/

theorem out3 (c : Dev nD) : W10 m ρ c (Proc.devRef .tc main_v25) = (dat3 (V9 m ρ) c).arrAt 6 cfg3.N := W10_arr m ρ c 6
theorem out2 (c : Dev nD) : W8 m ρ c (Proc.devRef .tc main_v16) = (dat2 (V7 m ρ) c).arrAt 2 cfg2.N := W8_arr m ρ c 2
theorem out1 (c : Dev nD) : W5 m ρ c (Proc.devRef .tc main_v7) = (dat1 (V4 m ρ) c).arrAt 10 cfg1.N := W5_arr m ρ c 10
theorem out0 (c : Dev nD) : W2 m ρ c (Proc.devRef .tc main_v4) = (dat0 (V1 m ρ) c).arrAt 3 cfg0.N := W2_arr m ρ c 3

/-- Region 0's output: the value rows x·Wv + bv of all nodes. -/
theorem values (c : Dev nD) :
    W2 m ρ c (Proc.devRef .tc main_v4) = Cert.Spec.lin (m ((c : Thread nD τ).loc main_arg0)) (m ((c : Thread nD τ).loc main_arg6)) (m ((c : Thread nD τ).loc main_arg7)) := by
  rw [out0 m ρ c, Reg0.final (V1 m ρ) c, KHostA.V1_arg0 m ρ c, KHostA.V1_arg6 m ρ c, KHostA.V1_arg7 m ρ c]

/-- Region 1's output: the scaled scores of the layer, head-major. -/
theorem scores (c : Dev nD) (hsrc : Cert.Spec.InRange (Cert.Spec.srcOf (m ((c : Thread nD τ).loc main_arg1)))) (hdst : Cert.Spec.InRange (Cert.Spec.dstOf (m ((c : Thread nD τ).loc main_arg1)))) :
    W5 m ρ c (Proc.devRef .tc main_v7) = (Cert.Spec.L (m ((c : Thread nD τ).loc main_arg0)) (Cert.Spec.srcOf (m ((c : Thread nD τ).loc main_arg1))) (Cert.Spec.dstOf (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11))) := by
  rw [out1 m ρ c, Reg1.final (V4 m ρ) c, KHostA.V4_xs m ρ c hsrc, KHostA.V4_xd m ρ c hdst, KHostA.V4_arg2 m ρ c,
    KHostA.V4_arg3 m ρ c, KHostA.V4_arg4 m ρ c, KHostA.V4_arg5 m ρ c, KHostA.V4_arg8 m ρ c, KHostA.V4_arg9 m ρ c,
    KHostA.V4_arg10 m ρ c, KHostA.V4_arg11 m ρ c]
  rfl

/-- Region 2's output: the edges' value rows weighted by the shifted exponentials of the scores. -/
theorem weightedRows (c : Dev nD) (hsrc : Cert.Spec.InRange (Cert.Spec.srcOf (m ((c : Thread nD τ).loc main_arg1)))) :
    W8 m ρ c (Proc.devRef .tc main_v16)
      = Cert.Spec.weighted (Cert.Spec.rows (W2 m ρ c (Proc.devRef .tc main_v4)) (Cert.Spec.srcOf (m ((c : Thread nD τ).loc main_arg1)))) (Cert.Spec.ex (W5 m ρ c (Proc.devRef .tc main_v7))) := by
  have hs1 : Cert.Spec.InRange (W1 m ρ c (Proc.devRef .tc main_v1)) := by rw [KHostA.W1_src m ρ c]; exact hsrc
  rw [out2 m ρ c, Reg2.final (V7 m ρ) c, KHostB.V7_p m ρ c, KHostB.V7_vsrc m ρ c hs1, KHostA.W1_src m ρ c]

/-- Region 3's output over what it is entered at: the node sums and the reciprocals of the heads' sums. -/
theorem normalised (c : Dev nD) :
    W10 m ρ c (Proc.devRef .tc main_v25)
      = Cert.Spec.lnorm (Cert.Spec.lin (Cert.Spec.scaleCols (Cert.Spec.nodeSum (Cert.Spec.dstOf (m ((c : Thread nD τ).loc main_arg1))) (W8 m ρ c (Proc.devRef .tc main_v16)))
          (Cert.Spec.invDen (W5 m ρ c (Proc.devRef .tc main_v7)))) (m ((c : Thread nD τ).loc main_arg12)) (m ((c : Thread nD τ).loc main_arg13))) (m ((c : Thread nD τ).loc main_arg14)) (m ((c : Thread nD τ).loc main_arg15)) := by
  rw [out3 m ρ c, Reg3.final (V9 m ρ) c, KHostB.V9_agg m ρ c, KHostB.V9_inv m ρ c, KHostB.V9_arg12 m ρ c, KHostB.V9_arg13 m ρ c,
    KHostB.V9_arg14 m ρ c, KHostB.V9_arg15 m ρ c, KHostA.W1_dst m ρ c]

/-- The kernel program's result array, as the fold of its ten segments leaves it, is the layer's formula with the
    normalisation after the node sum, when every word of the edge list names a node. -/
theorem value (c : Dev nD) (hsrc : Cert.Spec.InRange (Cert.Spec.srcOf (m ((c : Thread nD τ).loc main_arg1)))) (hdst : Cert.Spec.InRange (Cert.Spec.dstOf (m ((c : Thread nD τ).loc main_arg1)))) :
    W10 m ρ c (Proc.devRef .tc main_v25) = Cert.Spec.outK (m ((c : Thread nD τ).loc main_arg0)) (Cert.Spec.srcOf (m ((c : Thread nD τ).loc main_arg1))) (Cert.Spec.dstOf (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [normalised m ρ c, weightedRows m ρ c hsrc, scores m ρ c hsrc hdst, values m ρ c]
  rfl

end Cert.KernelIdeal.KValue

end
-- ==== Proof.LibRowOps3.lean ====
/-
  WHOLE ROWS OF A RANK-3 TABLE GATHERED BY INDEX AND ADDED BACK BY INDEX, read at one element.

  A table `x : [N, A, B]` (per node, `A` heads of `B` channels) is read at start indices `[E, 1]` (a gather of whole
  `[A, B]` rows) and rows of updates `[E, A, B]` are added into a table at scatter indices `[E, 1]`. Read at one element:
  the gather is the table's row at the start index, read signed and clamped into `[0, N − 1]`; the scatter-add adds to
  element `(n, a, b)` the updates' elements `(e, a, b)` over the edges `e` whose index, read signed, is exactly `n`.
  Generic in the sizes, the index width and (for the gather) the element type.
-/
import Idealize.ShloMosaic.PureOps.Ideal
import Idealize.ShloMosaic.PureOps.Ideal.Laws
import Idealize.ShloMosaic.Lib.ValueIdx
import Mathlib.Data.EReal.Basic
import Mathlib.Algebra.BigOperators.Group.Finset.Basic
import Mathlib.Algebra.BigOperators.Group.Finset.Sigma
import proofs.«408399_j1297080123525_4_alg».proof.Proof.LibRowOps

noncomputable section

open scoped BigOperators

namespace Cert.LibRowOps3

open Idealize.ShloMosaic Idealize.ShloMosaic.ValueIdx

/-- The dimension numbers of `x[src]` for a table `x : [N, A, B]` and start indices `src : [E, 1]`, result `[E, A, B]`. -/
abbrev rowGatherDims3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- THE ROW GATHER READ AT `(e, a, b)`: the table at row `src[e, 0]`, read signed and clamped into `[0, N − 1]`. -/
theorem rowGather3_apply_of {α : Type} {N E A B w : Nat} (hN : 0 < N)
    {wf : GatherDims.WF ⟨3, ![N, A, B]⟩ ⟨2, ![E, 1]⟩ ⟨3, ![E, A, B]⟩ [1, 2] [0] [] [0] [] 1 ![1, A, B]}
    (d : GatherDims ⟨3, ![N, A, B]⟩ ⟨2, ![E, 1]⟩ ⟨3, ![E, A, B]⟩) (hd : d = rowGatherDims3 N E A B wf)
    (x : (⟨3, ![N, A, B]⟩ : Shape).Idx → α) (idx : IVec ⟨2, ![E, 1]⟩ w) (y : (⟨3, ![E, A, B]⟩ : Shape).Idx) :
    Host.gather d x idx y
      = x (ix3 ⟨min (idx (ix2 (y 0) ⟨0, Nat.one_pos⟩)).toInt.toNat (N - 1), by omega⟩ (y 1) (y 2)) := by
  subst hd
  unfold Host.gather
  congr 1
  funext a
  refine Fin.ext ?_
  match a with
  | ⟨0, _⟩ =>
    -- the row: start + 0 + 0, the start read at `[e, 0]` and clamped to `N − 1`
    show (rowGatherDims3 N E A B wf).start y idx 0 + (rowGatherDims3 N E A B wf).batchCoord y 0
      + (rowGatherDims3 N E A B wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGatherDims3 N E A B wf).startIndexMap from List.mem_singleton.mpr rfl)]
    have hsi : (rowGatherDims3 N E A B wf).siIdx y ⟨List.idxOf (0 : Fin 3) (rowGatherDims3 N E A B wf).startIndexMap,
        List.idxOf_lt_length_iff.2 (List.mem_singleton.mpr rfl)⟩ = ix2 (y 0) ⟨0, Nat.one_pos⟩ := by
      funext b; refine Fin.ext ?_
      match b with
      | ⟨0, _⟩ => rfl
      | ⟨1, _⟩ => rfl
    rw [hsi]
    rfl
  | ⟨1, _⟩ =>
    -- the head: 0 + 0 + the result's coordinate on its first offset axis
    show (rowGatherDims3 N E A B wf).start y idx 1 + (rowGatherDims3 N E A B wf).batchCoord y 1
      + (rowGatherDims3 N E A B wf).offCoord y 1 = _
    rw [GatherDims.batchCoord_eq_zero _ _ _ List.not_mem_nil]
    unfold GatherDims.start
    rw [dif_neg (show (1 : Fin 3) ∉ (rowGatherDims3 N E A B wf).startIndexMap from
      (show ¬ ((1 : Fin 3) ∈ ([0] : List (Fin 3))) by decide))]
    unfold GatherDims.offCoord
    rw [dif_pos (show (1 : Fin 3) ∈ (rowGatherDims3 N E A B wf).sKept from (GatherDims.mem_sKept _ _).mpr
      ⟨(show ¬ ((1 : Fin 3) ∈ ([0] : List (Fin 3))) by decide), List.not_mem_nil⟩)]
    simp only [Nat.add_zero, Nat.zero_add]
    rfl
  | ⟨2, _⟩ =>
    -- the channel: 0 + 0 + the result's coordinate on its second offset axis
    show (rowGatherDims3 N E A B wf).start y idx 2 + (rowGatherDims3 N E A B wf).batchCoord y 2
      + (rowGatherDims3 N E A B wf).offCoord y 2 = _
    rw [GatherDims.batchCoord_eq_zero _ _ _ List.not_mem_nil]
    unfold GatherDims.start
    rw [dif_neg (show (2 : Fin 3) ∉ (rowGatherDims3 N E A B wf).startIndexMap from
      (show ¬ ((2 : Fin 3) ∈ ([0] : List (Fin 3))) by decide))]
    unfold GatherDims.offCoord
    rw [dif_pos (show (2 : Fin 3) ∈ (rowGatherDims3 N E A B wf).sKept from (GatherDims.mem_sKept _ _).mpr
      ⟨(show ¬ ((2 : Fin 3) ∈ ([0] : List (Fin 3))) by decide), List.not_mem_nil⟩)]
    simp only [Nat.add_zero, Nat.zero_add]
    rfl

/-- The dimension numbers of a segment sum of `[A, B]` rows: operand `[N, A, B]`, scatter indices `[E, 1]`, updates
    `[E, A, B]`. -/
abbrev rowScatterDims3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- A sum over a rank-3 index set is the triple sum over the coordinates. -/
private theorem sum_idx3' {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let eqv : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp eqv.symm f, Fintype.sum_prod_type]
  refine Finset.sum_congr rfl fun a _ => ?_
  rw [Fintype.sum_prod_type]
  rfl

section Scatter
variable {N E A B w : Nat} (wf : ScatterDims.WF ⟨3, ![N, A, B]⟩ ⟨2, ![E, 1]⟩ ⟨3, ![E, A, B]⟩ [1, 2] [0] [0] 1)
  (j : (⟨3, ![E, A, B]⟩ : Shape).Idx) (idx : IVec ⟨2, ![E, 1]⟩ w)

/-- On the operand's axis 0 the start of update `(e, a, b)` is the scatter index `dst[e, 0]`, read signed. -/
private theorem start0 :
    (rowScatterDims3 N E A B wf).start j idx 0 = (idx (ix2 (j 0) ⟨0, Nat.one_pos⟩)).toInt := by
  unfold ScatterDims.start
  rw [dif_pos (show (0 : Fin 3) ∈ (rowScatterDims3 N E A B wf).scatterDimsToOperandDims from List.mem_singleton.mpr rfl)]
  have hsi : (rowScatterDims3 N E A B wf).siIdx j ⟨List.idxOf (0 : Fin 3) (rowScatterDims3 N E A B wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the operand's axis 1, which the scatter index does not name, the start is `0`. -/
private theorem start1 : (rowScatterDims3 N E A B wf).start j idx 1 = 0 := by
  unfold ScatterDims.start
  rw [dif_neg (show (1 : Fin 3) ∉ (rowScatterDims3 N E A B wf).scatterDimsToOperandDims from
    (show ¬ ((1 : Fin 3) ∈ ([0] : List (Fin 3))) by decide))]

/-- On the operand's axis 2, which the scatter index does not name, the start is `0`. -/
private theorem start2 : (rowScatterDims3 N E A B wf).start j idx 2 = 0 := by
  unfold ScatterDims.start
  rw [dif_neg (show (2 : Fin 3) ∉ (rowScatterDims3 N E A B wf).scatterDimsToOperandDims from
    (show ¬ ((2 : Fin 3) ∈ ([0] : List (Fin 3))) by decide))]

/-- On the operand's axis 0, an inserted axis, the window coordinate is `0`. -/
private theorem window0 : (rowScatterDims3 N E A B wf).window j 0 = 0 := by
  unfold ScatterDims.window
  rw [dif_neg (fun h => (Cert.LibRowOps.mem_kept _ _).mp h (List.mem_singleton.mpr rfl))]

/-- On the operand's axis 1 the window coordinate is the update's head. -/
private theorem window1 : (rowScatterDims3 N E A B wf).window j 1 = (j 1).val := by
  unfold ScatterDims.window
  rw [dif_pos (show (1 : Fin 3) ∈ (rowScatterDims3 N E A B wf).sKept from (Cert.LibRowOps.mem_kept _ _).mpr
    (show ¬ ((1 : Fin 3) ∈ ([0] : List (Fin 3))) by decide))]
  rfl

/-- On the operand's axis 2 the window coordinate is the update's channel. -/
private theorem window2 : (rowScatterDims3 N E A B wf).window j 2 = (j 2).val := by
  unfold ScatterDims.window
  rw [dif_pos (show (2 : Fin 3) ∈ (rowScatterDims3 N E A B wf).sKept from (Cert.LibRowOps.mem_kept _ _).mpr
    (show ¬ ((2 : Fin 3) ∈ ([0] : List (Fin 3))) by decide))]
  rfl

/-- WHERE A ROW UPDATE LANDS: update `(e, a, b)` lands at operand element `(n, a', b')` exactly when the scatter index
    `dst[e, 0]`, read signed, is `n` and `a = a'`, `b = b'`. In particular a negative index, or one that is `N` or
    more, lands nowhere. -/
private theorem resultIdx3 (i : (⟨3, ![N, A, B]⟩ : Shape).Idx) :
    (rowScatterDims3 N E A B wf).resultIdx? j idx = some i ↔
      (idx (ix2 (j 0) ⟨0, Nat.one_pos⟩)).toInt = ((i 0).val : Int) ∧ (j 1).val = (i 1).val ∧ (j 2).val = (i 2).val := by
  rw [Cert.LibRowOps.resultIdx?_eq_some_iff, Fin.forall_fin_succ, Fin.forall_fin_two]
  show (rowScatterDims3 N E A B wf).start j idx 0 + ((rowScatterDims3 N E A B wf).window j 0 : Int) = ((i 0).val : Int) ∧
    (rowScatterDims3 N E A B wf).start j idx 1 + ((rowScatterDims3 N E A B wf).window j 1 : Int) = ((i 1).val : Int) ∧
    (rowScatterDims3 N E A B wf).start j idx 2 + ((rowScatterDims3 N E A B wf).window j 2 : Int) = ((i 2).val : Int) ↔ _
  rw [start0, start1, start2, window0, window1, window2]
  constructor
  · rintro ⟨h0, h1, h2⟩
    exact ⟨by simpa using h0, by exact_mod_cast (by simpa using h1), by exact_mod_cast (by simpa using h2)⟩
  · rintro ⟨h0, h1, h2⟩
    exact ⟨by simpa using h0,
      by simpa using (by exact_mod_cast h1 : ((j 1).val : Int) = ((i 1).val : Int)),
      by simpa using (by exact_mod_cast h2 : ((j 2).val : Int) = ((i 2).val : Int))⟩

/-- The same with the update index given by its coordinates `(e, a, b)`. -/
private theorem resultIdx3_ix3 (e : Fin E) (a : Fin A) (b : Fin B) (i : (⟨3, ![N, A, B]⟩ : Shape).Idx) :
    (rowScatterDims3 N E A B wf).resultIdx? (ix3 e a b) idx = some i ↔
      (idx (ix2 e ⟨0, Nat.one_pos⟩)).toInt = ((i 0).val : Int) ∧ a.val = (i 1).val ∧ b.val = (i 2).val :=
  resultIdx3 wf (ix3 e a b) idx i

/-- The scatter-add of the named dimension numbers read at `(n, a, b)`: the sum over the update indices `(e, a', b')`
    that land there is a triple sum; for each `e` the two inner sums have at most the one term `a' = a`, `b' = b`. -/
private theorem rowScatterAdd3_apply (x : (⟨3, ![N, A, B]⟩ : Shape).Idx → EReal)
    (upd : (⟨3, ![E, A, B]⟩ : Shape).Idx → EReal) (i : (⟨3, ![N, A, B]⟩ : Shape).Idx) :
    Ideal.hostScatterAdd (rowScatterDims3 N E A B wf) x idx upd i
      = x i + ∑ e ∈ Finset.univ.filter (fun e : Fin E => (idx (ix2 e ⟨0, Nat.one_pos⟩)).toInt = ((i 0).val : Int)),
          upd (ix3 e (i 1) (i 2)) := by
  unfold Ideal.hostScatterAdd
  congr 1
  rw [Finset.sum_filter, Finset.sum_filter, sum_idx3']
  refine Finset.sum_congr rfl fun e _ => ?_
  simp only [resultIdx3_ix3]
  by_cases he : (idx (ix2 e ⟨0, Nat.one_pos⟩)).toInt = ((i 0).val : Int)
  · rw [if_pos he]
    rw [Finset.sum_eq_single (show Fin A from i 1)]
    · rw [Finset.sum_eq_single (show Fin B from i 2)]
      · rw [if_pos ⟨he, rfl, rfl⟩]
      · intro b _ hb
        rw [if_neg (fun h => hb (Fin.ext h.2.2))]
      · intro h; exact absurd (Finset.mem_univ _) h
    · intro a _ ha
      exact Finset.sum_eq_zero fun b _ => if_neg (fun h => ha (Fin.ext h.2.1))
    · intro h; exact absurd (Finset.mem_univ _) h
  · rw [if_neg he]
    exact Finset.sum_eq_zero fun a _ => Finset.sum_eq_zero fun b _ => if_neg (fun h => he h.1)

end Scatter

/-- THE ROW SCATTER-ADD READ AT `(n, a, b)`: the operand's element plus the sum, over the edges `e` whose scatter index
    read signed is `n`, of the updates' element `(e, a, b)`. -/
theorem rowScatterAdd3_apply_of {N E A B w : Nat}
    {wf : ScatterDims.WF ⟨3, ![N, A, B]⟩ ⟨2, ![E, 1]⟩ ⟨3, ![E, A, B]⟩ [1, 2] [0] [0] 1}
    (d : ScatterDims ⟨3, ![N, A, B]⟩ ⟨2, ![E, 1]⟩ ⟨3, ![E, A, B]⟩) (hd : d = rowScatterDims3 N E A B wf)
    (x : (⟨3, ![N, A, B]⟩ : Shape).Idx → EReal) (idx : IVec ⟨2, ![E, 1]⟩ w) (upd : (⟨3, ![E, A, B]⟩ : Shape).Idx → EReal)
    (i : (⟨3, ![N, A, B]⟩ : Shape).Idx) :
    Ideal.hostScatterAdd d x idx upd i
      = x i + ∑ e ∈ Finset.univ.filter (fun e : Fin E => (idx (ix2 e ⟨0, Nat.one_pos⟩)).toInt = ((i 0).val : Int)),
          upd (ix3 e (i 1) (i 2)) := by
  subst hd; exact rowScatterAdd3_apply wf idx x upd i

end Cert.LibRowOps3

end
-- ==== Proof.RLogits_Edge.lean ====
/-
  THE EDGE NETWORK OF THE REFERENCE, READ AT AN EDGE AND A HEAD.

  For every edge the reference sets the edge's source row and destination row (64 entries each) side by side, applies
  an affine map into 128 entries, the rectifier, and a second affine map into the 4 heads:

    w (e, h) = Σ_t max (Σ_s [xs | xd] (e, s) · We1 (s, t) + be1 t, 0) · We2 (t, h) + be2 h.

  Each stage of the host program is read at an element: a matrix product as the sum over the contracted axis; a bias as
  one row repeated down the rows; the rectifier's zero as the zero word repeated everywhere; the two tables side by side
  as the first table on the columns below 64 and the second on the rest. Composed they are the specification's edge
  weight, term for term.
-/
import proofs.«408399_j1297080123525_4_alg».proof.ReferenceIdeal
import proofs.«408399_j1297080123525_4_alg».proof.Proof.Gen.ReferenceIdeal
import proofs.«408399_j1297080123525_4_alg».proof.Proof.Spec
import Idealize.ShloMosaic.PureOps.Ideal.Laws
import Idealize.ShloMosaic.Lib.ValueIdx
import Idealize.ShloMosaic.Lib.Pipeline.Value
import proofs.«408399_j1297080123525_4_alg».proof.Proof.LibRowOps3
import proofs.«408399_j1297080123525_4_alg».proof.Proof.LibBlocks
import proofs.«408399_j1297080123525_4_alg».proof.Proof.LibReal

noncomputable section

open scoped BigOperators

namespace Cert.ReferenceIdeal.RLogits

open Cert.ReferenceIdeal Idealize.ShloMosaic Idealize.ShloMosaic.TcCoe Idealize.SL.Sem Idealize.ShloMosaic.ValueIdx
open Cert.ReferenceIdeal.Facts₀

/-- The host's product of an [800000, 128] matrix with a [128, n] matrix at (e, q): the sum over k of left (e, k) right (k, q). -/
theorem hostDot_apply {M K N : Nat} (d : DotDims ⟨2, ![M, K]⟩ ⟨2, ![K, N]⟩ ⟨2, ![M, N]⟩) (hd : d = DotDims.plain M K N)
    (l : FVec Ideal ⟨2, ![M, K]⟩ .f32) (r : FVec Ideal ⟨2, ![K, N]⟩ .f32) (p : Fin M) (q : Fin N) :
    Host.dotGeneral (F := Ideal) d none l r (ix2 p q) = ∑ k : Fin K, l (ix2 p k) * r (ix2 k q) :=
  Cert.LibBlocks.dotGeneral_plain_apply d hd none .single l r p q

/-- A bias of 128 entries laid out as one row and repeated down the 800000 rows reads, at (e, q), the bias's entry q. -/
theorem biasRow128_apply (v : FVec Ideal S128 .f32) (e : Fin 800000) (q : Fin 128) :
    broadcastInDim S800000x128 ![0, 1] bcast_S1x128_S800000x128_0_1 (broadcastInDim S1x128 ![1] bcast_S128_S1x128_1 v) (ix2 e q) = v (ix1 q) := by
  refine (broadcastInDim_apply ![0, 1] bcast_S1x128_S800000x128_0_1 _ (ix2 e q) (ix2 (0 : Fin 1) q) fun a => ?_).trans
    (broadcastInDim_apply ![1] bcast_S128_S1x128_1 v (ix2 (0 : Fin 1) q) (ix1 q) fun a => ?_)
  · match a with
    | ⟨0, _⟩ => rfl
    | ⟨1, _⟩ => rfl
  · match a with
    | ⟨0, _⟩ => rfl

/-- A bias of 4 entries laid out as one row and repeated down the 800000 rows reads, at (e, h), the bias's entry h. -/
theorem biasRow4_apply (v : FVec Ideal S4 .f32) (e : Fin 800000) (h : Fin 4) :
    broadcastInDim S800000x4 ![0, 1] bcast_S1x4_S800000x4_0_1 (broadcastInDim S1x4 ![1] bcast_S4_S1x4_1 v) (ix2 e h) = v (ix1 h) := by
  refine (broadcastInDim_apply ![0, 1] bcast_S1x4_S800000x4_0_1 _ (ix2 e h) (ix2 (0 : Fin 1) h) fun a => ?_).trans
    (broadcastInDim_apply ![1] bcast_S4_S1x4_1 v (ix2 (0 : Fin 1) h) (ix1 h) fun a => ?_)
  · match a with
    | ⟨0, _⟩ => rfl
    | ⟨1, _⟩ => rfl
  · match a with
    | ⟨0, _⟩ => rfl

/-- The zero word repeated over the [800000, 128] array reads zero everywhere. -/
theorem zeroFill_apply (j : S800000x128.Idx) :
    broadcastInDim S800000x128 ![] bcast_S_S800000x128 (constant (F := Ideal) S_ .f32 0x00000000#32) j = 0 := by
  refine (broadcastInDim_apply ![] bcast_S_S800000x128 (constant (F := Ideal) S_ .f32 0x00000000#32) j ix0 fun a => a.elim0).trans ?_
  rw [constant_apply, Cert.LibReal.ofBits_zero]
  rfl

/-- The two 64-column row tables side by side, at (e, k): the first table's column k when k < 64, else the second's
    column k − 64. -/
theorem sideBySide_apply (xs xd : FVec Ideal S800000x64 .f32) (e : Fin 800000) (k : Fin 128) :
    concatenate S800000x128 1 [⟨S800000x64, xs⟩, ⟨S800000x64, xd⟩] concatenates_S800000x64_S800000x64_S800000x128_d1 (ix2 e k)
      = Cert.Spec.cat xs xd (ix2 e k) := by
  have hk : k.val < 128 := k.isLt
  unfold Cert.Spec.cat
  by_cases hlt : k.val < 64
  · rw [dif_pos (show ((ix2 e k : S800000x128.Idx) 1).val < 64 from hlt)]
    refine concatenate_pair_apply_left (1 : Fin 2) xs xd concatenates_S800000x64_S800000x64_S800000x128_d1 (ix2 e k) rfl
      (ix2 e (⟨k.val, hlt⟩ : Fin 64)) fun b => ?_
    match b with
    | ⟨0, _⟩ => rfl
    | ⟨1, _⟩ => rfl
  · rw [dif_neg (show ¬((ix2 e k : S800000x128.Idx) 1).val < 64 from hlt)]
    refine concatenate_pair_apply_right (1 : Fin 2) xs xd concatenates_S800000x64_S800000x64_S800000x128_d1 (ix2 e k) rfl rfl
      (ix2 e (⟨k.val - 64, by omega⟩ : Fin 64)) (fun b hb => ?_) ?_
    · match b with
      | ⟨0, _⟩ => rfl
      | ⟨1, _⟩ => exact absurd rfl hb
    · show k.val - 64 + 64 = k.val
      omega

/-- The edge network of the reference — the two row tables side by side, an affine map, the rectifier, a second affine
    map — read at edge e and head h is the layer's edge weight there. -/
theorem edgeNet_apply (xs xd : FVec Ideal S800000x64 .f32) (a8 : FVec Ideal S128x128 .f32) (a9 : FVec Ideal S128 .f32) (a10 : FVec Ideal S128x4 .f32) (a11 : FVec Ideal S4 .f32) (e : Fin 800000) (h : Fin 4) :
    addf (Host.dotGeneral (F := Ideal) dot_S800000x128_S128x4_S800000x4_1_0_0_1_n_n none
          (maximumf (addf (Host.dotGeneral (F := Ideal) dot_S800000x128_S128x128_S800000x128_1_0_0_1_n_n none
                (concatenate S800000x128 1 [⟨S800000x64, xs⟩, ⟨S800000x64, xd⟩] concatenates_S800000x64_S800000x64_S800000x128_d1) a8)
              (broadcastInDim S800000x128 ![0, 1] bcast_S1x128_S800000x128_0_1 (broadcastInDim S1x128 ![1] bcast_S128_S1x128_1 a9)))
            (broadcastInDim S800000x128 ![] bcast_S_S800000x128 (constant (F := Ideal) S_ .f32 0x00000000#32))) a10)
        (broadcastInDim S800000x4 ![0, 1] bcast_S1x4_S800000x4_0_1 (broadcastInDim S1x4 ![1] bcast_S4_S1x4_1 a11)) (ix2 e h)
      = Cert.Spec.edgeW xs xd a8 a9 a10 a11 (ix2 e h) := by
  rw [addf_apply, hostDot_apply dot_S800000x128_S128x4_S800000x4_1_0_0_1_n_n rfl, biasRow4_apply]
  show _ = (∑ t : Fin 128, max ((∑ s : Fin 128, Cert.Spec.cat xs xd (ix2 e s) * a8 (ix2 s t)) + a9 (ix1 t)) 0 * a10 (ix2 t h)) + a11 (ix1 h)
  refine congrArg (· + a11 (ix1 h)) (Finset.sum_congr rfl fun t _ => ?_)
  rw [maximumf_apply, addf_apply, hostDot_apply dot_S800000x128_S128x128_S800000x128_1_0_0_1_n_n rfl, biasRow128_apply, zeroFill_apply]
  refine congrArg (fun z => max (z + a9 (ix1 t)) 0 * a10 (ix2 t h)) (Finset.sum_congr rfl fun s _ => ?_)
  rw [sideBySide_apply]

end Cert.ReferenceIdeal.RLogits

end
-- ==== Proof.RLogits_Dot.lean ====
/-
  TWO PIECES OF THE REFERENCE'S SCORES: THE SCALE WORD AND THE SUM OVER A HEAD'S CHANNELS.

  The reference divides its scores by the single-precision word nearest √32. That word is the rational 11863283 / 2^21,
  not zero, so dividing by it is multiplying by its reciprocal 2^21 / 11863283 = 2097152 / 11863283, the
  specification's scale. The score's inner product is a sum along the last axis of the product of two [800000, 4, 32]
  tables, started from the zero word: at edge e and head h it is Σ_c q (e, h, c) · k (e, h, c).
-/
import proofs.«408399_j1297080123525_4_alg».proof.ReferenceIdeal
import proofs.«408399_j1297080123525_4_alg».proof.Proof.Gen.ReferenceIdeal
import proofs.«408399_j1297080123525_4_alg».proof.Proof.Spec
import Idealize.ShloMosaic.PureOps.Ideal.Laws
import Idealize.ShloMosaic.Lib.ValueIdx
import Idealize.ShloMosaic.Lib.Pipeline.Value
import proofs.«408399_j1297080123525_4_alg».proof.Proof.LibRowOps3
import proofs.«408399_j1297080123525_4_alg».proof.Proof.LibBlocks
import proofs.«408399_j1297080123525_4_alg».proof.Proof.LibReal
import Idealize.ShloMosaic.Lib.IdealHost

noncomputable section

open scoped BigOperators

namespace Cert.ReferenceIdeal.RLogits

open Cert.ReferenceIdeal Idealize.ShloMosaic Idealize.ShloMosaic.TcCoe Idealize.SL.Sem Idealize.ShloMosaic.ValueIdx
open Cert.ReferenceIdeal.Facts₀

/-- The single-precision word 0x40B504F3 (biased exponent 129, significand 11863283 / 2^23), the float nearest the
    square root of 32, denotes the rational 11863283 / 2^21. -/
theorem ofBits_scale : Ideal.ofBits .f32 0x40B504F3#32 = ((11863283 / 2 ^ 21 : ℝ) : EReal) := by
  simp [Ideal.ofBits, Ideal.ieee, -EReal.coe_mul]; norm_num

/-- Dividing by that word is multiplying by its reciprocal 2^21 / 11863283, the layer's scale. -/
theorem scale_apply (x : EReal) : Ideal.div x (Ideal.ofBits .f32 0x40B504F3#32) = x * Cert.Spec.cinv := by
  rw [ofBits_scale, Ideal.div_coe (by norm_num)]
  unfold Cert.Spec.cinv
  have hc : (1 / (11863283 / 2 ^ 21) : ℝ) = 2097152 / 11863283 := by norm_num
  rw [hc]

/-- The host's sum over the 32 channels of the product of two [800000, 4, 32] tables, from the zero word, at edge e and
    head h: the sum over c of q (e, h, c) · k (e, h, c). -/
theorem chanDot_apply (q k : FVec Ideal S800000x4x32 .f32) (e : Fin 800000) (h : Fin 4) :
    Host.reduceAdd (mulf q k) (constant (F := Ideal) S_ .f32 0x00000000#32) reducesTo_S800000x4x32_S800000x4_d2 h_S_ (ix2 e h)
      = ∑ c : Fin 32, q (ix3 e h c) * k (ix3 e h c) := by
  have hR : S800000x4x32.Reduces [2] S800000x4 := by decide
  rw [hostReduceAdd_apply]
  refine (Ideal.hostReduceAdd_single reducesTo_S800000x4x32_S800000x4_d2 hR (mulf q k) _ (ix2 e h)).trans ?_
  rw [constant_apply, Cert.LibReal.ofBits_zero, EReal.coe_zero, zero_add]
  refine Finset.sum_congr rfl fun c _ => ?_
  rw [mulf_apply]
  have hl : hR.lift (ix2 e h) c = ix3 e h c := funext fun a => Fin.ext (by
    match a with
    | ⟨0, _⟩ => rfl
    | ⟨1, _⟩ => rfl
    | ⟨2, _⟩ => rfl)
  rw [hl]
  rfl

end Cert.ReferenceIdeal.RLogits

end
-- ==== Proof.RLogits.lean ====
import proofs.«408399_j1297080123525_4_alg».proof.ReferenceIdeal
import proofs.«408399_j1297080123525_4_alg».proof.Proof.Gen.ReferenceIdeal
import proofs.«408399_j1297080123525_4_alg».proof.Proof.Spec
import Idealize.ShloMosaic.PureOps.Ideal.Laws
import Idealize.ShloMosaic.Lib.ValueIdx
import Idealize.ShloMosaic.Lib.Pipeline.Value
import proofs.«408399_j1297080123525_4_alg».proof.Proof.LibRowOps3
import proofs.«408399_j1297080123525_4_alg».proof.Proof.LibBlocks
import proofs.«408399_j1297080123525_4_alg».proof.Proof.LibReal
import Idealize.ShloMosaic.Lib.IdealHost
import proofs.«408399_j1297080123525_4_alg».proof.Proof.RLogits_Edge
import proofs.«408399_j1297080123525_4_alg».proof.Proof.RLogits_Dot

noncomputable section

open scoped BigOperators

namespace Cert.ReferenceIdeal.RLogits

open Cert.ReferenceIdeal Idealize.ShloMosaic Idealize.ShloMosaic.TcCoe Idealize.SL.Sem Idealize.ShloMosaic.ValueIdx
open Cert.ReferenceIdeal.Facts₀

/-- The node table's affine image x·W + b of every node, its 128 columns split into 4 heads of 32 channels:
    the operations `%0 … %4` (and, with the key weights, `%5 … %9`) of @main. -/
def proj (a0 : FVec Ideal S50000x64 .f32) (W : FVec Ideal S64x128 .f32) (b : FVec Ideal S128 .f32) : FVec Ideal S50000x4x32 .f32 :=
  shapeCast S50000x4x32
    (addf (Host.dotGeneral (F := Ideal) dot_S50000x64_S64x128_S50000x128_1_0_0_1_n_n none a0 W)
      (broadcastInDim S50000x128 ![0, 1] bcast_S1x128_S50000x128_0_1 (broadcastInDim S1x128 ![1] bcast_S128_S1x128_1 b)))
    shapeCasts_S50000x128_S50000x4x32

/-- The source words: row 0 of the edge list (`%15, %16`). -/
def srcW (a1 : IVec S2x800000 32) : IVec S800000 32 :=
  shapeCast S800000 (extractStridedSlice S1x800000 ![0, 0] a1 slices_S2x800000_S1x800000_0_0) shapeCasts_S1x800000_S800000

/-- The destination words: row 1 of the edge list (`%17, %18`). -/
def dstW (a1 : IVec S2x800000 32) : IVec S800000 32 :=
  shapeCast S800000 (extractStridedSlice S1x800000 ![1, 0] a1 slices_S2x800000_S1x800000_1_0) shapeCasts_S1x800000_S800000

/-- The start indices of a row gather: a word below zero has 50000 added, then the words stand as a column
    (`%c … %24`, and the three later copies of the same eight operations). -/
def wrapCol (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)

/-- The edge network on two 64-column arrays side by side: affine, rectifier (the outlined call's three operations),
    affine (`%33 … %42`). -/
def edgeNet (xs xd : FVec Ideal S800000x64 .f32) (a8 : FVec Ideal S128x128 .f32) (a9 : FVec Ideal S128 .f32) (a10 : FVec Ideal S128x4 .f32) (a11 : FVec Ideal S4 .f32) :
    FVec Ideal S800000x4 .f32 :=
  addf (Host.dotGeneral (F := Ideal) dot_S800000x128_S128x4_S800000x4_1_0_0_1_n_n none
        (maximumf (addf (Host.dotGeneral (F := Ideal) dot_S800000x128_S128x128_S800000x128_1_0_0_1_n_n none
              (concatenate S800000x128 1 [⟨S800000x64, xs⟩, ⟨S800000x64, xd⟩] concatenates_S800000x64_S800000x64_S800000x128_d1) a8)
            (broadcastInDim S800000x128 ![0, 1] bcast_S1x128_S800000x128_0_1 (broadcastInDim S1x128 ![1] bcast_S128_S1x128_1 a9)))
          (broadcastInDim S800000x128 ![] bcast_S_S800000x128 (constant (F := Ideal) S_ .f32 0x00000000#32))) a10)
      (broadcastInDim S800000x4 ![0, 1] bcast_S1x4_S800000x4_0_1 (broadcastInDim S1x4 ![1] bcast_S4_S1x4_1 a11))

/-- Per edge and head, the sum over the 32 channels of the products of two [edge, head, channel] arrays
    (`%58, %cst, %59`). -/
def chanDot (q k : FVec Ideal S800000x4x32 .f32) : FVec Ideal S800000x4 .f32 :=
  Host.reduceAdd (mulf q k) (constant (F := Ideal) S_ .f32 0x00000000#32) reducesTo_S800000x4x32_S800000x4_d2 h_S_

/-- The reference's scaled scores `%63` [800000, 4, 1]: the operations `%0 … %9`, `%15 … %63` of @main, composed,
    as a function of the argument arrays they read: the query rows at the destination words and the key rows at the
    source words, multiplied and summed over the channels, times the edge weight, divided by the scale word. -/
def refLogits (a0 : FVec Ideal S50000x64 .f32) (a1 : IVec S2x800000 32) (a2 : FVec Ideal S64x128 .f32) (a3 : FVec Ideal S128 .f32) (a4 : FVec Ideal S64x128 .f32) (a5 : FVec Ideal S128 .f32)
    (a8 : FVec Ideal S128x128 .f32) (a9 : FVec Ideal S128 .f32) (a10 : FVec Ideal S128x4 .f32) (a11 : FVec Ideal S4 .f32) : FVec Ideal S800000x4x1 .f32 :=
  Host.divf
    (mulf
      (broadcastInDim S800000x4x1 ![0, 1] bcast_S800000x4_S800000x4x1_0_1
        (chanDot
          (Host.gather (α := Ideal .f32) gather_S50000x4x32_S800000x1_S800000x4x32_12_0_n_n_0_1_1432 (proj a0 a2 a3) (wrapCol (dstW a1)))
          (Host.gather (α := Ideal .f32) gather_S50000x4x32_S800000x1_S800000x4x32_12_0_n_n_0_1_1432 (proj a0 a4 a5) (wrapCol (srcW a1)))))
      (broadcastInDim S800000x4x1 ![0, 1] bcast_S800000x4_S800000x4x1_0_1
        (edgeNet
          (Host.gather (α := Ideal .f32) gather_S50000x64_S800000x1_S800000x64_1_0_n_n_0_1_164 a0 (wrapCol (srcW a1)))
          (Host.gather (α := Ideal .f32) gather_S50000x64_S800000x1_S800000x64_1_0_n_n_0_1_164 a0 (wrapCol (dstW a1)))
          a8 a9 a10 a11)))
    (broadcastInDim S800000x4x1 ![] bcast_S_S800000x4x1 (constant (F := Ideal) S_ .f32 0x40B504F3#32))

/-! ## The pieces read at an index -/

/-- The source words are row 0 of the edge list. -/
theorem srcW_eq (a1 : IVec S2x800000 32) : srcW a1 = Cert.Spec.srcOf a1 := by
  funext i
  obtain ⟨e, rfl⟩ : ∃ e : Fin 800000, i = ix1 e := ⟨i 0, eq_ix1 (n := 800000) i⟩
  unfold srcW
  rw [shapeCast_apply _ shapeCasts_S1x800000_S800000 (ix1 e) (ix2 (0 : Fin 1) e) (by
      rw [Shape.rowMajor_val_one, Shape.rowMajor_val_two]
      show 0 * 800000 + e.val = e.val
      omega)]
  rw [extractStridedSlice_apply ![0, 0] a1 slices_S2x800000_S1x800000_0_0 (ix2 (0 : Fin 1) e) (ix2 (0 : Fin 2) e) (fun a => by
      match a with
      | ⟨0, _⟩ => rfl
      | ⟨1, _⟩ => exact (Nat.zero_add _).symm)]
  rfl

/-- The destination words are row 1 of the edge list. -/
theorem dstW_eq (a1 : IVec S2x800000 32) : dstW a1 = Cert.Spec.dstOf a1 := by
  funext i
  obtain ⟨e, rfl⟩ : ∃ e : Fin 800000, i = ix1 e := ⟨i 0, eq_ix1 (n := 800000) i⟩
  unfold dstW
  rw [shapeCast_apply _ shapeCasts_S1x800000_S800000 (ix1 e) (ix2 (0 : Fin 1) e) (by
      rw [Shape.rowMajor_val_one, Shape.rowMajor_val_two]
      show 0 * 800000 + e.val = e.val
      omega)]
  rw [extractStridedSlice_apply ![1, 0] a1 slices_S2x800000_S1x800000_1_0 (ix2 (0 : Fin 1) e) (ix2 (1 : Fin 2) e) (fun a => by
      match a with
      | ⟨0, _⟩ => rfl
      | ⟨1, _⟩ => exact (Nat.zero_add _).symm)]
  rfl

/-- The start index of edge e: its word, with 50000 added when it is below zero. -/
theorem wrapCol_apply (w : IVec S800000 32) (e : Fin 800000) :
    wrapCol w (ix2 e ⟨0, Nat.one_pos⟩) = Cert.Spec.wrap (w (ix1 e)) := by
  unfold wrapCol
  rw [broadcastInDim_apply ![0] bcast_S800000_S800000x1_0 _ (ix2 e ⟨0, Nat.one_pos⟩) (ix1 e) (fun a => by
      match a with
      | ⟨0, _⟩ => rfl)]
  rfl

/-- The gather of input rows at the wrapped words is the rows of the node table at the words' nodes. -/
theorem gatherRows_apply (x : FVec Ideal S50000x64 .f32) (w : IVec S800000 32) (e : Fin 800000) (c : Fin 64) :
    Host.gather (α := Ideal .f32) gather_S50000x64_S800000x1_S800000x64_1_0_n_n_0_1_164 x (wrapCol w) (ix2 e c)
      = Cert.Spec.rows x w (ix2 e c) := by
  rw [Cert.LibRowOps.rowGather_apply_of (by norm_num) gather_S50000x64_S800000x1_S800000x64_1_0_n_n_0_1_164 rfl x (wrapCol w) (ix2 e c)]
  show x (ix2 ⟨min (wrapCol w (ix2 e ⟨0, Nat.one_pos⟩)).toInt.toNat 49999, _⟩ c) = _
  simp only [wrapCol_apply]
  rfl

/-- The gather of [head, channel] rows at the wrapped words reads the table at the words' nodes. -/
theorem gatherRows3_apply (x : FVec Ideal S50000x4x32 .f32) (w : IVec S800000 32) (e : Fin 800000) (h : Fin 4) (c : Fin 32) :
    Host.gather (α := Ideal .f32) gather_S50000x4x32_S800000x1_S800000x4x32_12_0_n_n_0_1_1432 x (wrapCol w) (ix3 e h c)
      = x (ix3 (Cert.Spec.node (w (ix1 e))) h c) := by
  rw [Cert.LibRowOps3.rowGather3_apply_of (by norm_num) gather_S50000x4x32_S800000x1_S800000x4x32_12_0_n_n_0_1_1432 rfl x (wrapCol w) (ix3 e h c)]
  show x (ix3 ⟨min (wrapCol w (ix2 e ⟨0, Nat.one_pos⟩)).toInt.toNat 49999, _⟩ h c) = _
  simp only [wrapCol_apply]
  rfl

/-- A bias of 128 entries laid out as one row and repeated down the 50000 rows reads, at (n, q), the bias's entry q. -/
theorem biasRowN_apply (v : FVec Ideal S128 .f32) (n : Fin 50000) (q : Fin 128) :
    broadcastInDim S50000x128 ![0, 1] bcast_S1x128_S50000x128_0_1 (broadcastInDim S1x128 ![1] bcast_S128_S1x128_1 v) (ix2 n q) = v (ix1 q) := by
  refine (broadcastInDim_apply ![0, 1] bcast_S1x128_S50000x128_0_1 _ (ix2 n q) (ix2 (0 : Fin 1) q) fun a => ?_).trans
    (broadcastInDim_apply ![1] bcast_S128_S1x128_1 v (ix2 (0 : Fin 1) q) (ix1 q) fun a => ?_)
  · match a with
    | ⟨0, _⟩ => rfl
    | ⟨1, _⟩ => rfl
  · match a with
    | ⟨0, _⟩ => rfl

/-- The projected node table at node n, head h, channel c is the affine image's column 32h + c of row n. -/
theorem proj_apply (a0 : FVec Ideal S50000x64 .f32) (W : FVec Ideal S64x128 .f32) (b : FVec Ideal S128 .f32)
    (n : Fin 50000) (h : Fin 4) (c : Fin 32) :
    proj a0 W b (ix3 n h c) = Cert.Spec.lin a0 W b (ix2 n (Cert.Spec.hd h c)) := by
  have hh := h.isLt
  have hc := c.isLt
  unfold proj
  rw [shapeCast_apply _ shapeCasts_S50000x128_S50000x4x32 (ix3 n h c) (ix2 n (Cert.Spec.hd h c)) (by
      rw [Shape.rowMajor_val_two, Shape.rowMajor_val_three]
      show n.val * 128 + (32 * h.val + c.val) = (n.val * 4 + h.val) * 32 + c.val
      omega)]
  rw [addf_apply, biasRowN_apply]
  show FloatOps.dotGeneral _ none .single a0 W (ix2 n (Cert.Spec.hd h c)) + _ = _
  rw [Cert.LibBlocks.dotGeneral_plain_apply dot_S50000x64_S64x128_S50000x128_1_0_0_1_n_n rfl]
  rfl

/-- The gather of input rows at the wrapped words, as a whole array. -/
theorem gatherRows_eq (x : FVec Ideal S50000x64 .f32) (w : IVec S800000 32) :
    Host.gather (α := Ideal .f32) gather_S50000x64_S800000x1_S800000x64_1_0_n_n_0_1_164 x (wrapCol w) = Cert.Spec.rows x w := by
  funext i
  obtain ⟨e, c, rfl⟩ : ∃ (e : Fin 800000) (c : Fin 64), i = ix2 e c := ⟨i 0, i 1, eq_ix2 (n0 := 800000) (n1 := 64) i⟩
  exact gatherRows_apply x w e c

/-- Read at edge e and head h it is the layer's scaled score. -/
theorem refLogits_apply (a0 : FVec Ideal S50000x64 .f32) (a1 : IVec S2x800000 32) (a2 : FVec Ideal S64x128 .f32) (a3 : FVec Ideal S128 .f32) (a4 : FVec Ideal S64x128 .f32) (a5 : FVec Ideal S128 .f32)
    (a8 : FVec Ideal S128x128 .f32) (a9 : FVec Ideal S128 .f32) (a10 : FVec Ideal S128x4 .f32) (a11 : FVec Ideal S4 .f32) (e : Fin 800000) (h : Fin 4) :
    refLogits a0 a1 a2 a3 a4 a5 a8 a9 a10 a11 (ix3 e h 0)
      = Cert.Spec.L a0 (Cert.Spec.srcOf a1) (Cert.Spec.dstOf a1) a2 a3 a4 a5 a8 a9 a10 a11 (ix2 h e) := by
  unfold refLogits
  rw [hostDivf_apply, broadcastInDim_scalar_apply, constant_apply, scale_apply, mulf_apply]
  rw [broadcastInDim_apply ![0, 1] bcast_S800000x4_S800000x4x1_0_1 (chanDot _ _) (ix3 e h 0) (ix2 e h) (fun a => by
      match a with
      | ⟨0, _⟩ => rfl
      | ⟨1, _⟩ => rfl)]
  rw [broadcastInDim_apply ![0, 1] bcast_S800000x4_S800000x4x1_0_1 (edgeNet _ _ _ _ _ _) (ix3 e h 0) (ix2 e h) (fun a => by
      match a with
      | ⟨0, _⟩ => rfl
      | ⟨1, _⟩ => rfl)]
  -- the channel sum of the gathered query and key rows is the head's inner product
  rw [show ∀ q k : FVec Ideal S800000x4x32 .f32, chanDot q k (ix2 e h) = ∑ c : Fin 32, q (ix3 e h c) * k (ix3 e h c) from
    fun q k => chanDot_apply q k e h]
  -- the edge network on the gathered rows is the edge weight
  rw [gatherRows_eq, gatherRows_eq, srcW_eq, dstW_eq]
  rw [show ∀ xs xd : FVec Ideal S800000x64 .f32, edgeNet xs xd a8 a9 a10 a11 (ix2 e h) = Cert.Spec.edgeW xs xd a8 a9 a10 a11 (ix2 e h) from
    fun xs xd => edgeNet_apply xs xd a8 a9 a10 a11 e h]
  show _ = (Cert.Spec.headDot (Cert.Spec.lin (Cert.Spec.rows a0 (Cert.Spec.dstOf a1)) a2 a3) (Cert.Spec.lin (Cert.Spec.rows a0 (Cert.Spec.srcOf a1)) a4 a5) (ix2 e h)
      * Cert.Spec.edgeW (Cert.Spec.rows a0 (Cert.Spec.srcOf a1)) (Cert.Spec.rows a0 (Cert.Spec.dstOf a1)) a8 a9 a10 a11 (ix2 e h)) * Cert.Spec.cinv
  refine congrArg (fun z => z * _ * Cert.Spec.cinv) (Finset.sum_congr rfl fun c _ => ?_)
  rw [gatherRows3_apply, gatherRows3_apply, proj_apply, proj_apply]
  rfl

end Cert.ReferenceIdeal.RLogits

end
-- ==== Proof.RNorm.lean ====
import proofs.«408399_j1297080123525_4_alg».proof.ReferenceIdeal
import proofs.«408399_j1297080123525_4_alg».proof.Proof.Gen.ReferenceIdeal
import proofs.«408399_j1297080123525_4_alg».proof.Proof.Spec
import Idealize.ShloMosaic.PureOps.Ideal.Laws
import Idealize.ShloMosaic.Lib.ValueIdx
import Idealize.ShloMosaic.Lib.Pipeline.Value
import Idealize.ShloMosaic.Lib.IdealHost
import proofs.«408399_j1297080123525_4_alg».proof.Proof.LibRowOps3
import proofs.«408399_j1297080123525_4_alg».proof.Proof.LibBlocks
import proofs.«408399_j1297080123525_4_alg».proof.Proof.LibReal

noncomputable section

namespace Cert.ReferenceIdeal.RNorm

open Cert.ReferenceIdeal Idealize.ShloMosaic Idealize.ShloMosaic.TcCoe Idealize.SL.Sem Idealize.ShloMosaic.ValueIdx
open Cert.ReferenceIdeal.Facts₀ Cert.ReferenceIdeal.Facts

/-- The output projection `%88 … %91`: the node sums times the weight matrix, plus the bias along each row. -/
def proj (v87 : FVec Ideal S50000x128 .f32) (a12 : FVec Ideal S128x128 .f32) (a13 : FVec Ideal S128 .f32) : FVec Ideal S50000x128 .f32 :=
  let v88 : FVec Ideal S50000x128 .f32 := Host.dotGeneral (F := Ideal) dot_S50000x128_S128x128_S50000x128_1_0_0_1_n_n none v87 a12
  let v89 : FVec Ideal S1x128 .f32 := broadcastInDim S1x128 ![1] bcast_S128_S1x128_1 a13
  let v90 : FVec Ideal S50000x128 .f32 := broadcastInDim S50000x128 ![0, 1] bcast_S1x128_S50000x128_0_1 v89
  addf v88 v90

/-- The row mean `%92 … %95` as a column: each row's sum (from the zero word) over the word of 128. -/
def rowMean (v91 : FVec Ideal S50000x128 .f32) : FVec Ideal S50000x1 .f32 :=
  let cst_14 : FVec Ideal S_ .f32 := constant (F := Ideal) S_ .f32 0x00000000#32
  let v92 : FVec Ideal S50000 .f32 := Host.reduceAdd (F := Ideal) v91 cst_14 reducesTo_S50000x128_S50000_d1 h_S_
  let v93 : FVec Ideal S50000x1 .f32 := broadcastInDim S50000x1 ![0] bcast_S50000_S50000x1_0 v92
  let cst_15 : FVec Ideal S_ .f32 := constant (F := Ideal) S_ .f32 0x43000000#32
  let v94 : FVec Ideal S50000x1 .f32 := broadcastInDim S50000x1 ![] bcast_S_S50000x1 cst_15
  Host.divf (F := Ideal) v93 v94

/-- The variance call's first eight operations: the entries minus their row's mean. -/
def centered (v91 : FVec Ideal S50000x128 .f32) : FVec Ideal S50000x128 .f32 :=
  let w_cst : FVec Ideal S_ .f32 := constant (F := Ideal) S_ .f32 0x00000000#32
  let w0 : FVec Ideal S50000 .f32 := Host.reduceAdd (F := Ideal) v91 w_cst reducesTo_S50000x128_S50000_d1 h_S_
  let w1 : FVec Ideal S50000x1 .f32 := broadcastInDim S50000x1 ![0] bcast_S50000_S50000x1_0 w0
  let w_cst_0 : FVec Ideal S_ .f32 := constant (F := Ideal) S_ .f32 0x43000000#32
  let w2 : FVec Ideal S50000x1 .f32 := broadcastInDim S50000x1 ![] bcast_S_S50000x1 w_cst_0
  let w3 : FVec Ideal S50000x1 .f32 := Host.divf (F := Ideal) w1 w2
  let w4 : FVec Ideal S50000x128 .f32 := broadcastInDim S50000x128 ![0, 1] bcast_S50000x1_S50000x128_0_1 w3
  subf v91 w4

/-- The variance call's divisor: the word of 128 minus the converted correction word 0. -/
def varDen : FVec Ideal S_ .f32 :=
  let c_16 : IVec S_ 32 := constantI S_ 32 0#32
  let w7 : FVec Ideal S_ .f32 := sitofp (F := Ideal) .f32 c_16
  let w_cst_1 : FVec Ideal S_ .f32 := constant (F := Ideal) S_ .f32 0x43000000#32
  subf w_cst_1 w7

/-- The variance call's numerator as a column: each row's sum (from the zero word) of the squared centred entries. -/
def sqSum (w5 : FVec Ideal S50000x128 .f32) : FVec Ideal S50000x1 .f32 :=
  let w6 : FVec Ideal S50000x128 .f32 := mulf w5 w5
  let w_cst_2 : FVec Ideal S_ .f32 := constant (F := Ideal) S_ .f32 0x00000000#32
  let w9 : FVec Ideal S50000 .f32 := Host.reduceAdd (F := Ideal) w6 w_cst_2 reducesTo_S50000x128_S50000_d1 h_S_
  broadcastInDim S50000x1 ![0] bcast_S50000_S50000x1_0 w9

/-- The variance call's last operations and its inner choice call: the quotient where the divisor is positive, else
    the not-a-number word. -/
def variance (w10 : FVec Ideal S50000x1 .f32) (w8 : FVec Ideal S_ .f32) : FVec Ideal S50000x1 .f32 :=
  let w11 : FVec Ideal S50000x1 .f32 := broadcastInDim S50000x1 ![] bcast_S_S50000x1 w8
  let w12 : FVec Ideal S50000x1 .f32 := Host.divf (F := Ideal) w10 w11
  let w_cst_3 : FVec Ideal S_ .f32 := constant (F := Ideal) S_ .f32 0x00000000#32
  let w13 : IVec S_ 1 := cmpf (F := Ideal) .ogt w8 w_cst_3
  let w_cst_4 : FVec Ideal S_ .f32 := constant (F := Ideal) S_ .f32 0x7FC00000#32
  let x0 : FVec Ideal S_ .f32 := id w_cst_4
  let x1 : FVec Ideal S50000x1 .f32 := broadcastInDim S50000x1 ![] bcast_S_S50000x1 x0
  select (broadcastInDim S50000x1 ![] bcast_S_S50000x1 w13) w12 x1

/-- The operations `%97 … %103`: the entries minus the row mean, times the reciprocal root of variance plus epsilon. -/
def scaled (v91 : FVec Ideal S50000x128 .f32) (v95 v96 : FVec Ideal S50000x1 .f32) : FVec Ideal S50000x128 .f32 :=
  let v97 : FVec Ideal S50000x128 .f32 := broadcastInDim S50000x128 ![0, 1] bcast_S50000x1_S50000x128_0_1 v95
  let v98 : FVec Ideal S50000x128 .f32 := subf v91 v97
  let cst_17 : FVec Ideal S_ .f32 := constant (F := Ideal) S_ .f32 0x3727C5AC#32
  let v99 : FVec Ideal S50000x1 .f32 := broadcastInDim S50000x1 ![] bcast_S_S50000x1 cst_17
  let v100 : FVec Ideal S50000x1 .f32 := addf v96 v99
  let v101 : FVec Ideal S50000x1 .f32 := Host.rsqrt (F := Ideal) v100
  let v102 : FVec Ideal S50000x128 .f32 := broadcastInDim S50000x128 ![0, 1] bcast_S50000x1_S50000x128_0_1 v101
  mulf v98 v102

/-- The operations `%104 … %109`: times the gain along each row, plus the offset along each row. -/
def affine (v103 : FVec Ideal S50000x128 .f32) (a14 : FVec Ideal S128 .f32) (a15 : FVec Ideal S128 .f32) : FVec Ideal S50000x128 .f32 :=
  let v104 : FVec Ideal S1x128 .f32 := broadcastInDim S1x128 ![1] bcast_S128_S1x128_1 a14
  let v105 : FVec Ideal S50000x128 .f32 := broadcastInDim S50000x128 ![0, 1] bcast_S1x128_S50000x128_0_1 v104
  let v106 : FVec Ideal S50000x128 .f32 := mulf v103 v105
  let v107 : FVec Ideal S1x128 .f32 := broadcastInDim S1x128 ![1] bcast_S128_S1x128_1 a15
  let v108 : FVec Ideal S50000x128 .f32 := broadcastInDim S50000x128 ![0, 1] bcast_S1x128_S50000x128_0_1 v107
  addf v106 v108

/-- The reference's result `%109` from its node sums `%87` [50000, 128]: the operations `%88 … %109` of @main (the
    output projection, the row mean, the variance call's twenty operations and its inner call's three written in line,
    the normalisation), composed. -/
def refNorm (v87 : FVec Ideal S50000x128 .f32) (a12 : FVec Ideal S128x128 .f32) (a13 : FVec Ideal S128 .f32) (a14 : FVec Ideal S128 .f32) (a15 : FVec Ideal S128 .f32) :
    FVec Ideal S50000x128 .f32 :=
  affine (scaled (proj v87 a12 a13) (rowMean (proj v87 a12 a13)) (variance (sqSum (centered (proj v87 a12 a13))) varDen)) a14 a15

/-! ## Reading the pieces at an entry -/

/-- A row's sum from the zero word: the sum of the row's 128 entries. -/
theorem rowSum_apply (y : FVec Ideal S50000x128 .f32) (n : Fin 50000) :
    Host.reduceAdd (F := Ideal) y (constant (F := Ideal) S_ .f32 0x00000000#32) reducesTo_S50000x128_S50000_d1 h_S_ (ix1 n)
      = ∑ j : Fin 128, y (ix2 n j) := by
  have hR : S50000x128.Reduces [1] S50000 := by decide
  rw [hostReduceAdd_apply, Ideal.hostReduceAdd_single _ hR, constant_apply, Cert.LibReal.ofBits_zero]
  rw [show (((0 : ℝ) : EReal)) = 0 from rfl, zero_add]
  refine Finset.sum_congr rfl fun k _ => congrArg y ?_
  funext a
  refine Fin.ext ?_
  match a with
  | ⟨0, _⟩ => rfl
  | ⟨1, _⟩ => rfl

/-- A vector kept as a column reads, in row n, the vector at n. -/
theorem col_apply (v : FVec Ideal S50000 .f32) (n : Fin 50000) (z : Fin 1) :
    broadcastInDim S50000x1 ![0] bcast_S50000_S50000x1_0 v (ix2 n z) = v (ix1 n) :=
  broadcastInDim_apply ![0] _ v (ix2 n z) (ix1 n) (fun a => by
    match a with
    | ⟨0, _⟩ => rfl)

/-- A column repeated along each row reads, at (n, j), the column in row n. -/
theorem wide_apply (c : FVec Ideal S50000x1 .f32) (n : Fin 50000) (j : Fin 128) :
    broadcastInDim S50000x128 ![0, 1] bcast_S50000x1_S50000x128_0_1 c (ix2 n j) = c (ix2 n 0) :=
  broadcastInDim_apply ![0, 1] _ c (ix2 n j) (ix2 n 0) (fun a => by
    match a with
    | ⟨0, _⟩ => rfl
    | ⟨1, _⟩ => rfl)

/-- A vector repeated down each column reads, at (n, j), the vector at j. -/
theorem tall_apply (b : FVec Ideal S128 .f32) (n : Fin 50000) (j : Fin 128) :
    broadcastInDim S50000x128 ![0, 1] bcast_S1x128_S50000x128_0_1 (broadcastInDim S1x128 ![1] bcast_S128_S1x128_1 b) (ix2 n j) = b (ix1 j) := by
  rw [broadcastInDim_apply ![0, 1] _ _ (ix2 n j) (ix2 (0 : Fin 1) j) (fun a => by
    match a with
    | ⟨0, _⟩ => rfl
    | ⟨1, _⟩ => rfl)]
  exact broadcastInDim_apply ![1] _ b (ix2 (0 : Fin 1) j) (ix1 j) (fun a => by
    match a with
    | ⟨0, _⟩ => rfl)

/-- Entry (n, j) of the output projection: row n of the node sums against column j of the weights, plus the bias at j. -/
theorem proj_apply (v87 : FVec Ideal S50000x128 .f32) (a12 : FVec Ideal S128x128 .f32) (a13 : FVec Ideal S128 .f32) (n : Fin 50000) (j : Fin 128) :
    proj v87 a12 a13 (ix2 n j) = (∑ t : Fin 128, v87 (ix2 n t) * a12 (ix2 t j)) + a13 (ix1 j) := by
  unfold proj
  dsimp only
  rw [addf_apply, tall_apply]
  show FloatOps.dotGeneral _ none .single v87 a12 (ix2 n j) + _ = _
  rw [Cert.LibBlocks.dotGeneral_plain_apply dot_S50000x128_S128x128_S50000x128_1_0_0_1_n_n rfl]

/-- The projection is the affine map of the specification. -/
theorem proj_eq (v87 : FVec Ideal S50000x128 .f32) (a12 : FVec Ideal S128x128 .f32) (a13 : FVec Ideal S128 .f32) :
    proj v87 a12 a13 = Cert.Spec.lin v87 a12 a13 := by
  funext i
  obtain ⟨n, j, rfl⟩ : ∃ (n : Fin 50000) (j : Fin 128), i = ix2 n j := ⟨i 0, i 1, eq_ix2 i⟩
  rw [proj_apply]
  rfl

/-- The row mean, in row n of its column: the specification's mean of row n. -/
theorem rowMean_apply (y : FVec Ideal S50000x128 .f32) (n : Fin 50000) (z : Fin 1) :
    rowMean y (ix2 n z) = Cert.Spec.mean y n := by
  unfold rowMean
  dsimp only
  rw [hostDivf_apply, col_apply, rowSum_apply, broadcastInDim_scalar_apply, constant_apply]
  rfl

/-- The centred entries: each entry minus its row's mean. -/
theorem centered_apply (y : FVec Ideal S50000x128 .f32) (n : Fin 50000) (j : Fin 128) :
    centered y (ix2 n j) = y (ix2 n j) - Cert.Spec.mean y n := by
  unfold centered
  dsimp only
  rw [subf_apply, wide_apply, hostDivf_apply, col_apply, rowSum_apply, broadcastInDim_scalar_apply, constant_apply]
  rfl

/-- The row sums of squares, in row n of their column. -/
theorem sqSum_apply (w : FVec Ideal S50000x128 .f32) (n : Fin 50000) (z : Fin 1) :
    sqSum w (ix2 n z) = ∑ j : Fin 128, w (ix2 n j) * w (ix2 n j) := by
  unfold sqSum
  dsimp only
  rw [col_apply, rowSum_apply]
  rfl

/-- The word of 128.0 denotes the real number 128. -/
theorem c128_eq : Cert.Spec.c128 = ((128 : ℝ) : EReal) := by
  unfold Cert.Spec.c128
  simp [Ideal.ofBits, Ideal.ieee, -EReal.coe_mul]; norm_num

/-- The variance's divisor is the word of 128.0: the converted correction word is zero. -/
theorem varDen_apply : varDen ix0 = Cert.Spec.c128 := by
  unfold varDen
  rw [subf_apply, sitofp_apply, constant_apply]
  show Cert.Spec.c128 - (((0#32 : BitVec 32).toInt : ℝ) : EReal) = Cert.Spec.c128
  rw [show (0#32 : BitVec 32).toInt = 0 from by decide]
  simp

/-- With a positive divisor the variance call answers the quotient. -/
theorem variance_apply (w10 : FVec Ideal S50000x1 .f32) (w8 : FVec Ideal S_ .f32) (hpos : (0 : EReal) < w8 ix0) (n : Fin 50000) (z : Fin 1) :
    variance w10 w8 (ix2 n z) = Ideal.div (w10 (ix2 n z)) (w8 ix0) := by
  unfold variance
  dsimp only
  rw [select_apply, broadcastInDim_scalar_apply, hostDivf_apply, broadcastInDim_scalar_apply, cmpf_apply, constant_apply,
    Cert.LibReal.ofBits_zero]
  have hc : FloatOps.cmpf (F := Ideal) .ogt (w8 ix0) (((0 : ℝ) : EReal)) = 1#1 := by
    show BitVec.ofBool (decide ((((0 : ℝ) : EReal)) < w8 ix0)) = 1#1
    simp [hpos]
  rw [hc]
  rfl

/-- The scaled entries: the entry minus its row's mean column, times the reciprocal root of the row's variance column
    plus the epsilon word. -/
theorem scaled_apply (y : FVec Ideal S50000x128 .f32) (m v : FVec Ideal S50000x1 .f32) (n : Fin 50000) (j : Fin 128) :
    scaled y m v (ix2 n j) = (y (ix2 n j) - m (ix2 n 0)) * Ideal.rsqrt (v (ix2 n 0) + Cert.Spec.eps) := by
  unfold scaled
  dsimp only
  rw [mulf_apply, subf_apply, wide_apply, wide_apply]
  show _ * Ideal.rsqrt (addf v _ (ix2 n 0)) = _
  rw [addf_apply, broadcastInDim_scalar_apply, constant_apply]
  rfl

/-- The gain and the offset: the entry times the gain at its column, plus the offset at its column. -/
theorem affine_apply (u : FVec Ideal S50000x128 .f32) (g b : FVec Ideal S128 .f32) (n : Fin 50000) (j : Fin 128) :
    affine u g b (ix2 n j) = u (ix2 n j) * g (ix1 j) + b (ix1 j) := by
  unfold affine
  dsimp only
  rw [addf_apply, mulf_apply, tall_apply, tall_apply]

/-- The variance's divisor is positive. -/
theorem varDen_pos : (0 : EReal) < varDen ix0 := by
  rw [varDen_apply, c128_eq]
  exact EReal.coe_pos.2 (by norm_num)

/-- It is the layer normalisation of the projected node sums. -/
theorem refNorm_eq (v87 : FVec Ideal S50000x128 .f32) (a12 : FVec Ideal S128x128 .f32) (a13 : FVec Ideal S128 .f32) (a14 : FVec Ideal S128 .f32) (a15 : FVec Ideal S128 .f32) :
    refNorm v87 a12 a13 a14 a15 = Cert.Spec.lnorm (Cert.Spec.lin v87 a12 a13) a14 a15 := by
  funext i
  obtain ⟨n, j, rfl⟩ : ∃ (n : Fin 50000) (j : Fin 128), i = ix2 n j := ⟨i 0, i 1, eq_ix2 i⟩
  unfold refNorm
  rw [affine_apply, scaled_apply, rowMean_apply, variance_apply _ _ varDen_pos, sqSum_apply, varDen_apply]
  simp only [centered_apply]
  rw [proj_eq]
  rfl

end Cert.ReferenceIdeal.RNorm

end
-- ==== Proof.RTail.lean ====
import proofs.«408399_j1297080123525_4_alg».proof.ReferenceIdeal
import proofs.«408399_j1297080123525_4_alg».proof.Proof.Gen.ReferenceIdeal
import proofs.«408399_j1297080123525_4_alg».proof.Proof.Spec
import Idealize.ShloMosaic.PureOps.Ideal.Laws
import Idealize.ShloMosaic.Lib.ValueIdx
import Idealize.ShloMosaic.Lib.Pipeline.Value
import Idealize.ShloMosaic.Lib.IdealHost
import proofs.«408399_j1297080123525_4_alg».proof.Proof.LibRowOps3
import proofs.«408399_j1297080123525_4_alg».proof.Proof.LibBlocks
import proofs.«408399_j1297080123525_4_alg».proof.Proof.LibReal
import proofs.«408399_j1297080123525_4_alg».proof.Proof.RNorm

noncomputable section

namespace Cert.ReferenceIdeal.RTail

open Cert.ReferenceIdeal Idealize.ShloMosaic Idealize.ShloMosaic.TcCoe Idealize.SL.Sem Idealize.ShloMosaic.ValueIdx
open Cert.ReferenceIdeal.Facts₀

/-- The reference's result `%109` from its scaled scores `%63`: the operations `%10 … %18` (the value projection
    and the index words) and `%64 … %87` of @main (the softmax over the edges, the value rows at the sources, the node
    sums by destination word, laid out [50000, 128]), composed, followed by the output projection and the layer
    normalisation `%88 … %109`. -/
def refTail (v63 : FVec Ideal S800000x4x1 .f32) (a0 : FVec Ideal S50000x64 .f32) (a1 : IVec S2x800000 32) (a6 : FVec Ideal S64x128 .f32) (a7 : FVec Ideal S128 .f32)
    (a12 : FVec Ideal S128x128 .f32) (a13 : FVec Ideal S128 .f32) (a14 : FVec Ideal S128 .f32) (a15 : FVec Ideal S128 .f32) : FVec Ideal S50000x128 .f32 :=
  -- the value projection, head by head
  let v10 : FVec Ideal S50000x128 .f32 := Host.dotGeneral (F := Ideal) dot_S50000x64_S64x128_S50000x128_1_0_0_1_n_n none a0 a6
  let v11 : FVec Ideal S1x128 .f32 := broadcastInDim S1x128 ![1] bcast_S128_S1x128_1 a7
  let v12 : FVec Ideal S50000x128 .f32 := broadcastInDim S50000x128 ![0, 1] bcast_S1x128_S50000x128_0_1 v11
  let v13 : FVec Ideal S50000x128 .f32 := addf v10 v12
  let v14 : FVec Ideal S50000x4x32 .f32 := fun i => shapeCast S50000x4x32 v13 shapeCasts_S50000x128_S50000x4x32 i
  -- the source and destination words
  let v15 : IVec S1x800000 32 := extractStridedSlice S1x800000 ![0, 0] a1 slices_S2x800000_S1x800000_0_0
  let v16 : IVec S800000 32 := fun i => shapeCast S800000 v15 shapeCasts_S1x800000_S800000 i
  let v17 : IVec S1x800000 32 := extractStridedSlice S1x800000 ![1, 0] a1 slices_S2x800000_S1x800000_1_0
  let v18 : IVec S800000 32 := fun i => shapeCast S800000 v17 shapeCasts_S1x800000_S800000 i
  -- the softmax over the edges
  let cst_8 : FVec Ideal S_ .f32 := constant (F := Ideal) S_ .f32 0xFF800000#32
  let v64 : FVec Ideal S4x1 .f32 := Host.reduce (FloatOps.maximumf (F := Ideal)) v63 cst_8 reducesTo_S800000x4x1_S4x1_d0 h_S_
  let cst_9 : FVec Ideal S_ .f32 := constant (F := Ideal) S_ .f32 0xFF800000#32
  let v65 : FVec Ideal S4x1 .f32 := broadcastInDim S4x1 ![] bcast_S_S4x1 cst_9
  let v66 : FVec Ideal S4x1 .f32 := maximumf v65 v64
  let v67 : FVec Ideal S1x4x1 .f32 := broadcastInDim S1x4x1 ![1, 2] bcast_S4x1_S1x4x1_1_2 v66
  let v68 : FVec Ideal S800000x4x1 .f32 := broadcastInDim S800000x4x1 ![0, 1, 2] bcast_S1x4x1_S800000x4x1_0_1_2 v67
  let v69 : FVec Ideal S800000x4x1 .f32 := subf v63 v68
  let v70 : FVec Ideal S800000x4x1 .f32 := Host.exp (F := Ideal) v69
  let cst_10 : FVec Ideal S_ .f32 := constant (F := Ideal) S_ .f32 0x00000000#32
  let v71 : FVec Ideal S4x1 .f32 := Host.reduceAdd (F := Ideal) v70 cst_10 reducesTo_S800000x4x1_S4x1_d0 h_S_
  let v72 : FVec Ideal S1x4x1 .f32 := broadcastInDim S1x4x1 ![1, 2] bcast_S4x1_S1x4x1_1_2 v71
  let v73 : FVec Ideal S800000x4x1 .f32 := broadcastInDim S800000x4x1 ![0, 1, 2] bcast_S1x4x1_S800000x4x1_0_1_2 v72
  let v74 : FVec Ideal S800000x4x1 .f32 := Host.divf (F := Ideal) v70 v73
  -- the value rows at the wrapped source words
  let c_11 : IVec S_ 32 := constantI S_ 32 0#32
  let v75 : IVec S800000 32 := broadcastInDim S800000 ![] bcast_S_S800000 c_11
  let v76 : IVec S800000 1 := cmpi .slt v16 v75
  let c_12 : IVec S_ 32 := constantI S_ 32 50000#32
  let v77 : IVec S800000 32 := broadcastInDim S800000 ![] bcast_S_S800000 c_12
  let v78 : IVec S800000 32 := addi v16 v77
  let v79 : IVec S800000 32 := select v76 v78 v16
  let v80 : IVec S800000x1 32 := broadcastInDim S800000x1 ![0] bcast_S800000_S800000x1_0 v79
  let v81 : FVec Ideal S800000x4x32 .f32 := Host.gather gather_S50000x4x32_S800000x1_S800000x4x32_12_0_n_n_0_1_1432 v14 v80
  let v82 : FVec Ideal S800000x4x32 .f32 := broadcastInDim S800000x4x32 ![0, 1, 2] bcast_S800000x4x1_S800000x4x32_0_1_2 v74
  let v83 : FVec Ideal S800000x4x32 .f32 := mulf v82 v81
  -- the node sums by the raw destination words
  let cst_13 : FVec Ideal S_ .f32 := constant (F := Ideal) S_ .f32 0x00000000#32
  let v84 : FVec Ideal S50000x4x32 .f32 := broadcastInDim S50000x4x32 ![] bcast_S_S50000x4x32 cst_13
  let v85 : IVec S800000x1 32 := broadcastInDim S800000x1 ![0] bcast_S800000_S800000x1_0 v18
  let v86 : FVec Ideal S50000x4x32 .f32 := Host.scatterAdd (F := Ideal) scatter_S50000x4x32_S800000x1_S800000x4x32_12_0_0_1 v84 v85 v83
  let v87 : FVec Ideal S50000x128 .f32 := fun i => shapeCast S50000x128 v86 shapeCasts_S50000x4x32_S50000x128 i
  -- the output projection and the layer normalisation
  Cert.ReferenceIdeal.RNorm.refNorm v87 a12 a13 a14 a15

/-! ## Layout changes read at an element -/

/-- A [50000, 128] array read as [50000, 4, 32]: entry (n, h, c) is entry (n, 32 h + c). -/
private theorem cast_split {α : Type} (x : S50000x128.Idx → α) (n : Fin 50000) (h : Fin 4) (c : Fin 32) :
    shapeCast S50000x4x32 x shapeCasts_S50000x128_S50000x4x32 (ix3 n h c) = x (ix2 n (Cert.Spec.hd h c)) :=
  shapeCast_apply x _ _ _ (by
    rw [Shape.rowMajor_val_three, Shape.rowMajor_val_two]
    show n.val * 128 + (32 * h.val + c.val) = (n.val * 4 + h.val) * 32 + c.val
    omega)

/-- A [50000, 4, 32] array read as [50000, 128]: entry (n, j) is entry (n, j / 32, j mod 32). -/
private theorem cast_merge {α : Type} (x : S50000x4x32.Idx → α) (n : Fin 50000) (j : Fin 128) :
    shapeCast S50000x128 x shapeCasts_S50000x4x32_S50000x128 (ix2 n j)
      = x (ix3 n (Cert.Spec.hOf j) (⟨j.val % 32, Nat.mod_lt _ (by norm_num)⟩ : Fin 32)) :=
  shapeCast_apply x _ _ _ (by
    rw [Shape.rowMajor_val_three, Shape.rowMajor_val_two]
    show (n.val * 4 + j.val / 32) * 32 + j.val % 32 = n.val * 128 + j.val
    omega)

/-- Row 0 of the edge list, laid out flat: the source words. -/
private theorem src_eq (a1 : IVec S2x800000 32) :
    shapeCast S800000 (extractStridedSlice S1x800000 ![0, 0] a1 slices_S2x800000_S1x800000_0_0) shapeCasts_S1x800000_S800000
      = Cert.Spec.srcOf a1 := by
  funext i
  obtain ⟨e, rfl⟩ : ∃ e : Fin 800000, i = ix1 e := ⟨i 0, eq_ix1 i⟩
  rw [shapeCast_apply _ _ (ix1 e) (ix2 (0 : Fin 1) e) (by
    rw [Shape.rowMajor_val_two, Shape.rowMajor_val_one]
    show 0 * 800000 + e.val = e.val
    omega)]
  exact extractStridedSlice_apply _ a1 _ (ix2 (0 : Fin 1) e) (ix2 (0 : Fin 2) e) (fun a =>
    match a with
    | ⟨0, _⟩ => rfl
    | ⟨1, _⟩ => by show e.val = 0 + e.val; omega)

/-- Row 1 of the edge list, laid out flat: the destination words. -/
private theorem dst_eq (a1 : IVec S2x800000 32) :
    shapeCast S800000 (extractStridedSlice S1x800000 ![1, 0] a1 slices_S2x800000_S1x800000_1_0) shapeCasts_S1x800000_S800000
      = Cert.Spec.dstOf a1 := by
  funext i
  obtain ⟨e, rfl⟩ : ∃ e : Fin 800000, i = ix1 e := ⟨i 0, eq_ix1 i⟩
  rw [shapeCast_apply _ _ (ix1 e) (ix2 (0 : Fin 1) e) (by
    rw [Shape.rowMajor_val_two, Shape.rowMajor_val_one]
    show 0 * 800000 + e.val = e.val
    omega)]
  exact extractStridedSlice_apply _ a1 _ (ix2 (0 : Fin 1) e) (ix2 (1 : Fin 2) e) (fun a =>
    match a with
    | ⟨0, _⟩ => rfl
    | ⟨1, _⟩ => by show e.val = 0 + e.val; omega)

/-- A per-head column [4, 1] repeated along the edges. -/
private theorem bcast_head {α : Type} (m : S4x1.Idx → α) (e : Fin 800000) (h : Fin 4) :
    broadcastInDim S800000x4x1 ![0, 1, 2] bcast_S1x4x1_S800000x4x1_0_1_2
      (broadcastInDim S1x4x1 ![1, 2] bcast_S4x1_S1x4x1_1_2 m) (ix3 e h (0 : Fin 1)) = m (ix2 h (0 : Fin 1)) := by
  rw [broadcastInDim_apply ![0, 1, 2] _ _ (ix3 e h (0 : Fin 1)) (ix3 (0 : Fin 1) h (0 : Fin 1)) (fun a =>
      match a with
      | ⟨0, _⟩ => rfl
      | ⟨1, _⟩ => rfl
      | ⟨2, _⟩ => rfl),
    broadcastInDim_apply ![1, 2] _ m (ix3 (0 : Fin 1) h (0 : Fin 1)) (ix2 h (0 : Fin 1)) (fun a =>
      match a with
      | ⟨0, _⟩ => rfl
      | ⟨1, _⟩ => rfl)]

/-- A per-edge, per-head weight [800000, 4, 1] repeated along the channels. -/
private theorem bcast_chan {α : Type} (p : S800000x4x1.Idx → α) (e : Fin 800000) (h : Fin 4) (c : Fin 32) :
    broadcastInDim S800000x4x32 ![0, 1, 2] bcast_S800000x4x1_S800000x4x32_0_1_2 p (ix3 e h c) = p (ix3 e h (0 : Fin 1)) :=
  broadcastInDim_apply ![0, 1, 2] _ p (ix3 e h c) (ix3 e h (0 : Fin 1)) (fun a =>
    match a with
    | ⟨0, _⟩ => rfl
    | ⟨1, _⟩ => rfl
    | ⟨2, _⟩ => rfl)

/-- A flat index vector [800000] as a column [800000, 1]. -/
private theorem bcast_col {α : Type} (s : S800000.Idx → α) (e : Fin 800000) :
    broadcastInDim S800000x1 ![0] bcast_S800000_S800000x1_0 s (ix2 e (0 : Fin 1)) = s (ix1 e) :=
  broadcastInDim_apply ![0] _ s (ix2 e (0 : Fin 1)) (ix1 e) (fun a =>
    match a with
    | ⟨0, _⟩ => rfl)

/-- A bias row [128] repeated down the nodes. -/
private theorem bcast_row {α : Type} (b : S128.Idx → α) (n : Fin 50000) (j : Fin 128) :
    broadcastInDim S50000x128 ![0, 1] bcast_S1x128_S50000x128_0_1 (broadcastInDim S1x128 ![1] bcast_S128_S1x128_1 b) (ix2 n j)
      = b (ix1 j) := by
  rw [broadcastInDim_apply ![0, 1] _ _ (ix2 n j) (ix2 (0 : Fin 1) j) (fun a =>
      match a with
      | ⟨0, _⟩ => rfl
      | ⟨1, _⟩ => rfl),
    broadcastInDim_apply ![1] _ b (ix2 (0 : Fin 1) j) (ix1 j) (fun a =>
      match a with
      | ⟨0, _⟩ => rfl)]

/-! ## The reductions over the edges -/

/-- The edge axis of [800000, 4, 1] reduces to [4, 1]. -/
private theorem red0 : S800000x4x1.Reduces [0] S4x1 := by decide

/-- The index over (h, z) with edge e put in front is (e, h, z). -/
private theorem lift0 (h : Fin 4) (z : Fin 1) (e : Fin 800000) : red0.lift (ix2 h z) e = ix3 e h z := by
  funext a
  match a with
  | ⟨0, _⟩ => exact Fin.ext rfl
  | ⟨1, _⟩ => exact Fin.ext rfl
  | ⟨2, _⟩ => exact Fin.ext rfl

/-- The word of −∞ is the bottom of the extended reals. -/
private theorem ofBits_neg_inf : Ideal.ofBits .f32 0xFF800000#32 = (⊥ : EReal) := by
  simp [Ideal.ofBits, Ideal.ieee]

/-- The maximum over the edges from −∞, at head h, is the head's largest score. -/
private theorem max_apply (v63 : FVec Ideal S800000x4x1 .f32) (Lh : Cert.Spec.Arr2 4 800000)
    (hL : ∀ (e : Fin 800000) (h : Fin 4), v63 (ix3 e h 0) = Lh (ix2 h e)) (h : Fin 4) :
    Host.reduce (FloatOps.maximumf (F := Ideal)) v63 (constant (F := Ideal) S_ .f32 0xFF800000#32)
        reducesTo_S800000x4x1_S4x1_d0 h_S_ (ix2 h (0 : Fin 1))
      = Cert.Spec.mx Lh h := by
  rw [Host.reduce_eq_fold_single _ v63 _ reducesTo_S800000x4x1_S4x1_d0 red0 h_S_ (ix2 h (0 : Fin 1)), constant_apply,
    ofBits_neg_inf]
  unfold Cert.Spec.mx
  have hf : (v63 ∘ red0.lift (ix2 h (0 : Fin 1))) = fun e : Fin 800000 => Lh (ix2 h e) :=
    funext fun (e : Fin 800000) => by
      show v63 (red0.lift (ix2 h (0 : Fin 1)) e) = _
      rw [lift0 h 0 e, hL]
  rw [hf]
  rfl

/-- The sum over the edges from 0, at head h. -/
private theorem sum_apply (x : FVec Ideal S800000x4x1 .f32) (h : Fin 4) :
    Host.reduceAdd (F := Ideal) x (constant (F := Ideal) S_ .f32 0x00000000#32) reducesTo_S800000x4x1_S4x1_d0 h_S_
        (ix2 h (0 : Fin 1))
      = ∑ e : Fin 800000, x (ix3 e h (0 : Fin 1)) := by
  rw [hostReduceAdd_apply, Ideal.hostReduceAdd_single reducesTo_S800000x4x1_S4x1_d0 red0, constant_apply,
    Cert.LibReal.ofBits_zero, EReal.coe_zero, zero_add]
  show ∑ e : Fin 800000, x (red0.lift (ix2 h (0 : Fin 1)) e) = _
  refine Finset.sum_congr rfl fun (e : Fin 800000) _ => ?_
  rw [lift0 h 0 e]
/-! ## The softmax over the edges -/

/-- The host's quotient at an entry. -/
private theorem hdivf_apply {s : Shape} {φ : FTy} (a b : FVec Ideal s φ) (i : s.Idx) :
    Host.divf (F := Ideal) a b i = Ideal.div (a i) (b i) := rfl

/-- The host's exponential at an entry. -/
private theorem hexp_apply {s : Shape} {φ : FTy} (a : FVec Ideal s φ) (i : s.Idx) :
    Host.exp (F := Ideal) a i = Ideal.exp (a i) := rfl

/-- The shifted exponential of edge e and head h. -/
private theorem exp_apply (v63 : FVec Ideal S800000x4x1 .f32) (Lh : Cert.Spec.Arr2 4 800000)
    (hL : ∀ (e : Fin 800000) (h : Fin 4), v63 (ix3 e h 0) = Lh (ix2 h e)) (e : Fin 800000) (h : Fin 4) :
    Host.exp (F := Ideal) (subf v63
        (broadcastInDim S800000x4x1 ![0, 1, 2] bcast_S1x4x1_S800000x4x1_0_1_2
          (broadcastInDim S1x4x1 ![1, 2] bcast_S4x1_S1x4x1_1_2
            (maximumf (broadcastInDim S4x1 ![] bcast_S_S4x1 (constant (F := Ideal) S_ .f32 0xFF800000#32))
              (Host.reduce (FloatOps.maximumf (F := Ideal)) v63 (constant (F := Ideal) S_ .f32 0xFF800000#32)
                reducesTo_S800000x4x1_S4x1_d0 h_S_))))) (ix3 e h (0 : Fin 1))
      = Cert.Spec.ex Lh (ix2 h e) := by
  rw [hexp_apply, subf_apply, bcast_head, maximumf_apply, broadcastInDim_scalar_apply, constant_apply, ofBits_neg_inf,
    max_apply v63 Lh hL, hL, max_eq_right bot_le]
  rfl

/-- The normalised exponential of edge e and head h, from the shifted exponentials. -/
private theorem soft_apply (p : FVec Ideal S800000x4x1 .f32) (Lh : Cert.Spec.Arr2 4 800000)
    (hp : ∀ (e : Fin 800000) (h : Fin 4), p (ix3 e h 0) = Cert.Spec.ex Lh (ix2 h e)) (e : Fin 800000) (h : Fin 4) :
    Host.divf (F := Ideal) p
        (broadcastInDim S800000x4x1 ![0, 1, 2] bcast_S1x4x1_S800000x4x1_0_1_2
          (broadcastInDim S1x4x1 ![1, 2] bcast_S4x1_S1x4x1_1_2
            (Host.reduceAdd (F := Ideal) p (constant (F := Ideal) S_ .f32 0x00000000#32)
              reducesTo_S800000x4x1_S4x1_d0 h_S_))) (ix3 e h (0 : Fin 1))
      = Ideal.div (Cert.Spec.ex Lh (ix2 h e)) (Cert.Spec.den Lh h) := by
  rw [hdivf_apply, bcast_head, sum_apply, hp]
  unfold Cert.Spec.den
  exact congrArg (Ideal.div (Cert.Spec.ex Lh (ix2 h e))) (Finset.sum_congr rfl fun e' _ => hp e' h)

/-! ## Rows gathered at the wrapped source words, rows added at the raw destination words -/

/-- The rank-3 row gather at a column of words, at (e, h, c): the table's row at the word read signed and clamped. -/
private theorem gather_col {α : Type} (x : S50000x4x32.Idx → α) (w : IVec S800000 32) (e : Fin 800000) (h : Fin 4)
    (c : Fin 32) :
    Host.gather gather_S50000x4x32_S800000x1_S800000x4x32_12_0_n_n_0_1_1432 x
        (broadcastInDim S800000x1 ![0] bcast_S800000_S800000x1_0 w) (ix3 e h c)
      = x (ix3 (⟨min (BitVec.toInt (w (ix1 e))).toNat 49999, by omega⟩ : Fin 50000) h c) := by
  refine (Cert.LibRowOps3.rowGather3_apply_of (N := 50000) (E := 800000) (A := 4) (B := 32) (by norm_num) _ rfl x _
    (ix3 e h c)).trans ?_
  refine congrArg x ?_
  funext a
  match a with
  | ⟨0, _⟩ =>
    refine Fin.ext ?_
    show min (BitVec.toInt (broadcastInDim S800000x1 ![0] bcast_S800000_S800000x1_0 w (ix2 e ⟨0, Nat.one_pos⟩))).toNat
        (50000 - 1) = min (BitVec.toInt (w (ix1 e))).toNat 49999
    rw [show broadcastInDim S800000x1 ![0] bcast_S800000_S800000x1_0 w (ix2 e ⟨0, Nat.one_pos⟩) = w (ix1 e)
      from bcast_col w e]
  | ⟨1, _⟩ => rfl
  | ⟨2, _⟩ => rfl

/-- The wrap of a word vector, at an edge. -/
private theorem wrap_apply (s : IVec S800000 32) (e : Fin 800000) :
    select (cmpi .slt s (broadcastInDim S800000 ![] bcast_S_S800000 (constantI S_ 32 0#32)))
        (addi s (broadcastInDim S800000 ![] bcast_S_S800000 (constantI S_ 32 50000#32))) s (ix1 e)
      = Cert.Spec.wrap (s (ix1 e)) := rfl

/-- The rank-3 row gather at the wrapped words, at (e, h, c): the table's row at the node the word names. -/
private theorem gather_apply {α : Type} (x : S50000x4x32.Idx → α) (s : IVec S800000 32) (e : Fin 800000) (h : Fin 4)
    (c : Fin 32) :
    Host.gather gather_S50000x4x32_S800000x1_S800000x4x32_12_0_n_n_0_1_1432 x
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)) (ix3 e h c)
      = x (ix3 (Cert.Spec.node (s (ix1 e))) h c) := by
  rw [gather_col]
  refine congrArg x (congrArg (fun r : Fin 50000 => ix3 r h c) (Fin.ext ?_))
  show min (BitVec.toInt (select _ _ s (ix1 e))).toNat 49999 = min (BitVec.toInt (Cert.Spec.wrap (s (ix1 e)))).toNat 49999
  rw [wrap_apply]

/-- The host's accumulating scatter is the extended reals' one. -/
private theorem hscatter_def {S SI SU : Shape} {φ : FTy} {w : Nat} (d : ScatterDims S SI SU) (x : FVec Ideal S φ)
    (idx : IVec SI w) (u : FVec Ideal SU φ) :
    Host.scatterAdd (F := Ideal) d x idx u = Ideal.hostScatterAdd d x idx u := rfl

/-- The rank-3 row scatter-add into zeros by the raw words, at (n, h, c): from 0, the sum over the edges whose word,
    read signed, is n. -/
private theorem scatter_apply (d : IVec S800000 32) (u : FVec Ideal S800000x4x32 .f32) (n : Fin 50000) (h : Fin 4)
    (c : Fin 32) :
    Host.scatterAdd (F := Ideal) scatter_S50000x4x32_S800000x1_S800000x4x32_12_0_0_1
        (broadcastInDim S50000x4x32 ![] bcast_S_S50000x4x32 (constant (F := Ideal) S_ .f32 0x00000000#32))
        (broadcastInDim S800000x1 ![0] bcast_S800000_S800000x1_0 d) u (ix3 n h c)
      = 0 + ∑ e ∈ Finset.univ.filter (fun e : Fin 800000 => (d (ix1 e)).toInt = (n.val : Int)), u (ix3 e h c) := by
  have hd : scatter_S50000x4x32_S800000x1_S800000x4x32_12_0_0_1
      = Cert.LibRowOps3.rowScatterDims3 50000 800000 4 32 scatter_S50000x4x32_S800000x1_S800000x4x32_12_0_0_1_wf := rfl
  rw [hscatter_def, Cert.LibRowOps3.rowScatterAdd3_apply_of scatter_S50000x4x32_S800000x1_S800000x4x32_12_0_0_1 hd,
    broadcastInDim_scalar_apply, constant_apply, Cert.LibReal.ofBits_zero, EReal.coe_zero]
  refine congrArg (fun t : EReal => 0 + t) ?_
  refine Finset.sum_congr (Finset.filter_congr fun e _ => ?_) (fun e _ => rfl)
  rw [show broadcastInDim S800000x1 ![0] bcast_S800000_S800000x1_0 d (ix2 e ⟨0, Nat.one_pos⟩) = d (ix1 e)
    from bcast_col d e]

/-! ## The value projection -/

/-- The value projection at (n, j). -/
private theorem proj_apply (a0 : FVec Ideal S50000x64 .f32) (a6 : FVec Ideal S64x128 .f32) (a7 : FVec Ideal S128 .f32)
    (n : Fin 50000) (j : Fin 128) :
    addf (Host.dotGeneral (F := Ideal) dot_S50000x64_S64x128_S50000x128_1_0_0_1_n_n none a0 a6)
        (broadcastInDim S50000x128 ![0, 1] bcast_S1x128_S50000x128_0_1 (broadcastInDim S1x128 ![1] bcast_S128_S1x128_1 a7))
        (ix2 n j)
      = Cert.Spec.lin a0 a6 a7 (ix2 n j) := by
  rw [addf_apply, bcast_row]
  show FloatOps.dotGeneral dot_S50000x64_S64x128_S50000x128_1_0_0_1_n_n none .single a0 a6 (ix2 n j) + a7 (ix1 j) = _
  rw [Cert.LibBlocks.dotGeneral_plain_apply dot_S50000x64_S64x128_S50000x128_1_0_0_1_n_n rfl]
  rfl

/-- From scores that are, entry by entry, a head-major array `Lh`, it is the layer's tail with the normalisation
    before the node sum. -/
theorem refTail_eq (v63 : FVec Ideal S800000x4x1 .f32) (a0 : FVec Ideal S50000x64 .f32) (a1 : IVec S2x800000 32) (a6 : FVec Ideal S64x128 .f32) (a7 : FVec Ideal S128 .f32)
    (a12 : FVec Ideal S128x128 .f32) (a13 : FVec Ideal S128 .f32) (a14 : FVec Ideal S128 .f32) (a15 : FVec Ideal S128 .f32) (Lh : Cert.Spec.Arr2 4 800000)
    (hL : ∀ (e : Fin 800000) (h : Fin 4), v63 (ix3 e h 0) = Lh (ix2 h e)) :
    refTail v63 a0 a1 a6 a7 a12 a13 a14 a15
      = Cert.Spec.lnorm (Cert.Spec.lin (Cert.Spec.aggR (Cert.Spec.lin a0 a6 a7) (Cert.Spec.srcOf a1) (Cert.Spec.dstOf a1) Lh) a12 a13) a14 a15 := by
  unfold refTail
  dsimp only
  rw [Cert.ReferenceIdeal.RNorm.refNorm_eq]
  refine congrArg (fun y => Cert.Spec.lnorm (Cert.Spec.lin y a12 a13) a14 a15) ?_
  funext i
  obtain ⟨n, j, rfl⟩ : ∃ (n : Fin 50000) (j : Fin 128), i = ix2 n j := ⟨i 0, i 1, eq_ix2 i⟩
  rw [cast_merge, src_eq, dst_eq, scatter_apply]
  show _ = 0 + ∑ e ∈ Finset.univ.filter (fun e : Fin 800000 => (Cert.Spec.dstOf a1 (ix1 e)).toInt = (n.val : Int)),
    Cert.Spec.normWeighted (Cert.Spec.rows (Cert.Spec.lin a0 a6 a7) (Cert.Spec.srcOf a1)) Lh (ix2 e j)
  refine congrArg (fun t : EReal => 0 + t) (Finset.sum_congr (Finset.filter_congr fun e _ => Iff.rfl) fun e _ => ?_)
  have hj : Cert.Spec.hd (Cert.Spec.hOf j) (⟨j.val % 32, Nat.mod_lt _ (by norm_num)⟩ : Fin 32) = j :=
    Fin.ext (by show 32 * (j.val / 32) + j.val % 32 = j.val; omega)
  rw [mulf_apply, bcast_chan, gather_apply, cast_split, proj_apply,
    soft_apply _ Lh (fun e h => exp_apply v63 Lh hL e h), hj]
  rfl

end Cert.ReferenceIdeal.RTail

end
-- ==== Proof.RRun_Ops.lean ====
/-
  The reference program as a list of its host operations, in order, the two outlined calls written in line over the
  buffers their records name (a typed reference whose type equation is `rfl` transports nothing, so a callee's
  operation over typed references IS the plain operation over the buffers). The list is cut in four consecutive
  stretches — the first sixty statements; the next fourteen operations, ending at the scaled scores %63; the operations
  up to the node sums %87; the rest, ending at the result %109 — so that what a buffer holds afterwards can be read one stretch at a time.
  Then: @main is the straight line of the whole list; every operation touches TensorCore buffers only and determines its
  results; hence every weakly fair execution terminates with each buffer at the operations' fold over the launch contents.
-/
import proofs.«408399_j1297080123525_4_alg».proof.ReferenceIdeal
import proofs.«408399_j1297080123525_4_alg».proof.Proof.Gen.ReferenceIdeal
import Idealize.ShloMosaic.Lib.StableHlo.Run
import Mathlib.Data.List.Basic

noncomputable section

namespace Cert.ReferenceIdeal.RefRun

open Cert.ReferenceIdeal Cert.ReferenceIdeal.Facts₀ Cert.ReferenceIdeal.Facts Idealize.ShloMosaic Idealize.ShloMosaic.TcCoe Idealize.SL.Sem

variable {F : FTy → Type} [FloatOps F]

/-- Statements 1 … 60 of @main, %0 … %52 (the call of @relu in line: three operations). -/
abbrev opsA : List (HloOp τ sig (Elt F)) :=
  [ StableHlo.binary main_arg0 main_arg2 main_v0 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg3 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S50000x128 ![0, 1] bcast_S1x128_S50000x128_0_1 : (⟨S1x128, .f32⟩ : BufTy).Contents (Elt F) → (⟨S50000x128, .f32⟩ : BufTy).Contents (Elt F)),
    StableHlo.binary main_v0 main_v2 main_v3 (addf : (⟨S50000x128, .f32⟩ : BufTy).Contents (Elt F) → (⟨S50000x128, .f32⟩ : BufTy).Contents (Elt F) → (⟨S50000x128, .f32⟩ : BufTy).Contents (Elt F)),
    StableHlo.reshape main_v3 main_v4 rfl shapeCasts_S50000x128_S50000x4x32,
    StableHlo.binary main_arg0 main_arg4 main_v5 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.reshape main_v8 main_v9 rfl shapeCasts_S50000x128_S50000x4x32,
    StableHlo.binary main_arg0 main_arg6 main_v10 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg7 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    StableHlo.reshape main_v13 main_v14 rfl shapeCasts_S50000x128_S50000x4x32,
    StableHlo.unary main_arg1 main_v15 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v15 main_v16 rfl shapeCasts_S1x800000_S800000,
    StableHlo.unary main_arg1 main_v17 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v17 main_v18 rfl shapeCasts_S1x800000_S800000,
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v16 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v21 (broadcastInDim S800000 ![] bcast_S_S800000 : (⟨S_, .i32⟩ : BufTy).Contents (Elt F) → (⟨S800000, .i32⟩ : BufTy).Contents (Elt F)),
    StableHlo.binary main_v16 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v16 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_arg0 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v26 (broadcastInDim S800000 ![] bcast_S_S800000 : (⟨S_, .i32⟩ : BufTy).Contents (Elt F) → (⟨S800000, .i32⟩ : BufTy).Contents (Elt F)),
    StableHlo.binary main_v18 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v28 (broadcastInDim S800000 ![] bcast_S_S800000 : (⟨S_, .i32⟩ : BufTy).Contents (Elt F) → (⟨S800000, .i32⟩ : BufTy).Contents (Elt F)),
    StableHlo.binary main_v18 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v18 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_arg0 main_v31 main_v32 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v25 main_v32 main_v33 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.binary main_v33 main_arg8 main_v34 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg9 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S800000x128 ![0, 1] bcast_S1x128_S800000x128_0_1 : (⟨S1x128, .f32⟩ : BufTy).Contents (Elt F) → (⟨S800000x128, .f32⟩ : BufTy).Contents (Elt F)),
    StableHlo.binary main_v34 main_v36 main_v37 (addf : (⟨S800000x128, .f32⟩ : BufTy).Contents (Elt F) → (⟨S800000x128, .f32⟩ : BufTy).Contents (Elt F) → (⟨S800000x128, .f32⟩ : BufTy).Contents (Elt F)),
    StableHlo.nullary main_call0_cst (constant S_ .f32 0x00000000#32),
    StableHlo.unary main_call0_cst main_call0_v0 (broadcastInDim S800000x128 ![] bcast_S_S800000x128 : (⟨S_, .f32⟩ : BufTy).Contents (Elt F) → (⟨S800000x128, .f32⟩ : BufTy).Contents (Elt F)),
    StableHlo.binary main_v37 main_call0_v0 main_v38 (maximumf : (⟨S800000x128, .f32⟩ : BufTy).Contents (Elt F) → (⟨S800000x128, .f32⟩ : BufTy).Contents (Elt F) → (⟨S800000x128, .f32⟩ : BufTy).Contents (Elt F)),
    StableHlo.binary main_v38 main_arg10 main_v39 ((fun l r => Host.dotGeneral dot_S800000x128_S128x4_S800000x4_1_0_0_1_n_n none l r) : (⟨S800000x128, .f32⟩ : BufTy).Contents (Elt F) → (⟨S128x4, .f32⟩ : BufTy).Contents (Elt F) → (⟨S800000x4, .f32⟩ : BufTy).Contents (Elt F)),
    StableHlo.unary main_arg11 main_v40 (broadcastInDim S1x4 ![1] bcast_S4_S1x4_1 : (⟨S4, .f32⟩ : BufTy).Contents (Elt F) → (⟨S1x4, .f32⟩ : BufTy).Contents (Elt F)),
    StableHlo.unary main_v40 main_v41 (broadcastInDim S800000x4 ![0, 1] bcast_S1x4_S800000x4_0_1 : (⟨S1x4, .f32⟩ : BufTy).Contents (Elt F) → (⟨S800000x4, .f32⟩ : BufTy).Contents (Elt F)),
    StableHlo.binary main_v39 main_v41 main_v42 (addf : (⟨S800000x4, .f32⟩ : BufTy).Contents (Elt F) → (⟨S800000x4, .f32⟩ : BufTy).Contents (Elt F) → (⟨S800000x4, .f32⟩ : BufTy).Contents (Elt F)),
    StableHlo.unary main_v42 main_v43 (broadcastInDim S800000x4x1 ![0, 1] bcast_S800000x4_S800000x4x1_0_1 : (⟨S800000x4, .f32⟩ : BufTy).Contents (Elt F) → (⟨S800000x4x1, .f32⟩ : BufTy).Contents (Elt F)),
    StableHlo.nullary main_c_3 (constantI S_ 32 0#32),
    StableHlo.unary main_c_3 main_v44 (broadcastInDim S800000 ![] bcast_S_S800000 : (⟨S_, .i32⟩ : BufTy).Contents (Elt F) → (⟨S800000, .i32⟩ : BufTy).Contents (Elt F)),
    StableHlo.binary main_v18 main_v44 main_v45 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v46 (broadcastInDim S800000 ![] bcast_S_S800000 : (⟨S_, .i32⟩ : BufTy).Contents (Elt F) → (⟨S800000, .i32⟩ : BufTy).Contents (Elt F)),
    StableHlo.binary main_v18 main_v46 main_v47 (addi : (⟨S800000, .i32⟩ : BufTy).Contents (Elt F) → (⟨S800000, .i32⟩ : BufTy).Contents (Elt F) → (⟨S800000, .i32⟩ : BufTy).Contents (Elt F)),
    StableHlo.ternary main_v45 main_v47 main_v18 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v4 main_v49 main_v50 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    StableHlo.nullary main_c_5 (constantI S_ 32 0#32),
    StableHlo.unary main_c_5 main_v51 (broadcastInDim S800000 ![] bcast_S_S800000 : (⟨S_, .i32⟩ : BufTy).Contents (Elt F) → (⟨S800000, .i32⟩ : BufTy).Contents (Elt F)),
    StableHlo.binary main_v16 main_v51 main_v52 (cmpi .slt : (⟨S800000, .i32⟩ : BufTy).Contents (Elt F) → (⟨S800000, .i32⟩ : BufTy).Contents (Elt F) → (⟨S800000, .i1⟩ : BufTy).Contents (Elt F)) ]

/-- The next fourteen operations: from %c_6 to the scaled scores %63. -/
abbrev opsB : List (HloOp τ sig (Elt F)) :=
  [ StableHlo.nullary main_c_6 (constantI S_ 32 50000#32),
    StableHlo.unary main_c_6 main_v53 (broadcastInDim S800000 ![] bcast_S_S800000 : (⟨S_, .i32⟩ : BufTy).Contents (Elt F) → (⟨S800000, .i32⟩ : BufTy).Contents (Elt F)),
    StableHlo.binary main_v16 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_v16 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v9 main_v56 main_v57 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    StableHlo.binary main_v50 main_v57 main_v58 (mulf : (⟨S800000x4x32, .f32⟩ : BufTy).Contents (Elt F) → (⟨S800000x4x32, .f32⟩ : BufTy).Contents (Elt F) → (⟨S800000x4x32, .f32⟩ : BufTy).Contents (Elt F)),
    StableHlo.nullary main_cst (constant S_ .f32 0x00000000#32),
    StableHlo.binary main_v58 main_cst main_v59 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    StableHlo.unary main_v59 main_v60 (broadcastInDim S800000x4x1 ![0, 1] bcast_S800000x4_S800000x4x1_0_1 : (⟨S800000x4, .f32⟩ : BufTy).Contents (Elt F) → (⟨S800000x4x1, .f32⟩ : BufTy).Contents (Elt F)),
    StableHlo.binary main_v60 main_v43 main_v61 (mulf : (⟨S800000x4x1, .f32⟩ : BufTy).Contents (Elt F) → (⟨S800000x4x1, .f32⟩ : BufTy).Contents (Elt F) → (⟨S800000x4x1, .f32⟩ : BufTy).Contents (Elt F)),
    StableHlo.nullary main_cst_7 (constant S_ .f32 0x40B504F3#32),
    StableHlo.unary main_cst_7 main_v62 (broadcastInDim S800000x4x1 ![] bcast_S_S800000x4x1 : (⟨S_, .f32⟩ : BufTy).Contents (Elt F) → (⟨S800000x4x1, .f32⟩ : BufTy).Contents (Elt F)),
    StableHlo.binary main_v61 main_v62 main_v63 (Host.divf : (⟨S800000x4x1, .f32⟩ : BufTy).Contents (Elt F) → (⟨S800000x4x1, .f32⟩ : BufTy).Contents (Elt F) → (⟨S800000x4x1, .f32⟩ : BufTy).Contents (Elt F)) ]

/-- From %cst_8 to the node sums %87: the softmax over the edges, the value rows, the scatter, the reshape. -/
abbrev opsC : List (HloOp τ sig (Elt F)) :=
  [ StableHlo.nullary main_cst_8 (constant S_ .f32 0xFF800000#32),
    StableHlo.binary main_v63 main_cst_8 main_v64 ((fun x v => Host.reduce FloatOps.maximumf x v reducesTo_S800000x4x1_S4x1_d0 h_S_) : (⟨S800000x4x1, .f32⟩ : BufTy).Contents (Elt F) → (⟨S_, .f32⟩ : BufTy).Contents (Elt F) → (⟨S4x1, .f32⟩ : BufTy).Contents (Elt F)),
    StableHlo.nullary main_cst_9 (constant S_ .f32 0xFF800000#32),
    StableHlo.unary main_cst_9 main_v65 (broadcastInDim S4x1 ![] bcast_S_S4x1 : (⟨S_, .f32⟩ : BufTy).Contents (Elt F) → (⟨S4x1, .f32⟩ : BufTy).Contents (Elt F)),
    StableHlo.binary main_v65 main_v64 main_v66 (maximumf : (⟨S4x1, .f32⟩ : BufTy).Contents (Elt F) → (⟨S4x1, .f32⟩ : BufTy).Contents (Elt F) → (⟨S4x1, .f32⟩ : BufTy).Contents (Elt F)),
    StableHlo.unary main_v66 main_v67 (broadcastInDim S1x4x1 ![1, 2] bcast_S4x1_S1x4x1_1_2 : (⟨S4x1, .f32⟩ : BufTy).Contents (Elt F) → (⟨S1x4x1, .f32⟩ : BufTy).Contents (Elt F)),
    StableHlo.unary main_v67 main_v68 (broadcastInDim S800000x4x1 ![0, 1, 2] bcast_S1x4x1_S800000x4x1_0_1_2 : (⟨S1x4x1, .f32⟩ : BufTy).Contents (Elt F) → (⟨S800000x4x1, .f32⟩ : BufTy).Contents (Elt F)),
    StableHlo.binary main_v63 main_v68 main_v69 (subf : (⟨S800000x4x1, .f32⟩ : BufTy).Contents (Elt F) → (⟨S800000x4x1, .f32⟩ : BufTy).Contents (Elt F) → (⟨S800000x4x1, .f32⟩ : BufTy).Contents (Elt F)),
    StableHlo.unary main_v69 main_v70 (Host.exp : (⟨S800000x4x1, .f32⟩ : BufTy).Contents (Elt F) → (⟨S800000x4x1, .f32⟩ : BufTy).Contents (Elt F)),
    StableHlo.nullary main_cst_10 (constant S_ .f32 0x00000000#32),
    StableHlo.binary main_v70 main_cst_10 main_v71 ((fun x v => Host.reduceAdd x v reducesTo_S800000x4x1_S4x1_d0 h_S_) : (⟨S800000x4x1, .f32⟩ : BufTy).Contents (Elt F) → (⟨S_, .f32⟩ : BufTy).Contents (Elt F) → (⟨S4x1, .f32⟩ : BufTy).Contents (Elt F)),
    StableHlo.unary main_v71 main_v72 (broadcastInDim S1x4x1 ![1, 2] bcast_S4x1_S1x4x1_1_2 : (⟨S4x1, .f32⟩ : BufTy).Contents (Elt F) → (⟨S1x4x1, .f32⟩ : BufTy).Contents (Elt F)),
    StableHlo.unary main_v72 main_v73 (broadcastInDim S800000x4x1 ![0, 1, 2] bcast_S1x4x1_S800000x4x1_0_1_2 : (⟨S1x4x1, .f32⟩ : BufTy).Contents (Elt F) → (⟨S800000x4x1, .f32⟩ : BufTy).Contents (Elt F)),
    StableHlo.binary main_v70 main_v73 main_v74 (Host.divf : (⟨S800000x4x1, .f32⟩ : BufTy).Contents (Elt F) → (⟨S800000x4x1, .f32⟩ : BufTy).Contents (Elt F) → (⟨S800000x4x1, .f32⟩ : BufTy).Contents (Elt F)),
    StableHlo.nullary main_c_11 (constantI S_ 32 0#32),
    StableHlo.unary main_c_11 main_v75 (broadcastInDim S800000 ![] bcast_S_S800000 : (⟨S_, .i32⟩ : BufTy).Contents (Elt F) → (⟨S800000, .i32⟩ : BufTy).Contents (Elt F)),
    StableHlo.binary main_v16 main_v75 main_v76 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v77 (broadcastInDim S800000 ![] bcast_S_S800000 : (⟨S_, .i32⟩ : BufTy).Contents (Elt F) → (⟨S800000, .i32⟩ : BufTy).Contents (Elt F)),
    StableHlo.binary main_v16 main_v77 main_v78 (addi : (⟨S800000, .i32⟩ : BufTy).Contents (Elt F) → (⟨S800000, .i32⟩ : BufTy).Contents (Elt F) → (⟨S800000, .i32⟩ : BufTy).Contents (Elt F)),
    StableHlo.ternary main_v76 main_v78 main_v16 main_v79 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v79 main_v80 (broadcastInDim S800000x1 ![0] bcast_S800000_S800000x1_0 : (⟨S800000, .i32⟩ : BufTy).Contents (Elt F) → (⟨S800000x1, .i32⟩ : BufTy).Contents (Elt F)),
    StableHlo.binary main_v14 main_v80 main_v81 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    StableHlo.unary main_v74 main_v82 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    StableHlo.binary main_v82 main_v81 main_v83 (mulf : (⟨S800000x4x32, .f32⟩ : BufTy).Contents (Elt F) → (⟨S800000x4x32, .f32⟩ : BufTy).Contents (Elt F) → (⟨S800000x4x32, .f32⟩ : BufTy).Contents (Elt F)),
    StableHlo.nullary main_cst_13 (constant S_ .f32 0x00000000#32),
    StableHlo.unary main_cst_13 main_v84 (broadcastInDim S50000x4x32 ![] bcast_S_S50000x4x32 : (⟨S_, .f32⟩ : BufTy).Contents (Elt F) → (⟨S50000x4x32, .f32⟩ : BufTy).Contents (Elt F)),
    StableHlo.unary main_v18 main_v85 (broadcastInDim S800000x1 ![0] bcast_S800000_S800000x1_0 : (⟨S800000, .i32⟩ : BufTy).Contents (Elt F) → (⟨S800000x1, .i32⟩ : BufTy).Contents (Elt F)),
    StableHlo.ternary main_v84 main_v85 main_v83 main_v86 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    StableHlo.reshape main_v86 main_v87 rfl shapeCasts_S50000x4x32_S50000x128 ]

/-- From %88 to the result %109: the output projection, the row mean, the call of @_var in line (twenty operations and @_where's three), the normalisation. -/
abbrev opsD : List (HloOp τ sig (Elt F)) :=
  [ StableHlo.binary main_v87 main_arg12 main_v88 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v90 main_v91 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v91 main_cst_14 main_v92 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v92 main_v93 (broadcastInDim S50000x1 ![0] bcast_S50000_S50000x1_0 : (⟨S50000, .f32⟩ : BufTy).Contents (Elt F) → (⟨S50000x1, .f32⟩ : BufTy).Contents (Elt F)),
    StableHlo.nullary main_cst_15 (constant S_ .f32 0x43000000#32),
    StableHlo.unary main_cst_15 main_v94 (broadcastInDim S50000x1 ![] bcast_S_S50000x1 : (⟨S_, .f32⟩ : BufTy).Contents (Elt F) → (⟨S50000x1, .f32⟩ : BufTy).Contents (Elt F)),
    StableHlo.binary main_v93 main_v94 main_v95 (Host.divf : (⟨S50000x1, .f32⟩ : BufTy).Contents (Elt F) → (⟨S50000x1, .f32⟩ : BufTy).Contents (Elt F) → (⟨S50000x1, .f32⟩ : BufTy).Contents (Elt F)),
    StableHlo.nullary main_c_16 (constantI S_ 32 0#32),
    StableHlo.nullary main_call1_cst (constant S_ .f32 0x00000000#32),
    StableHlo.binary main_v91 main_call1_cst main_call1_v0 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_call1_v0 main_call1_v1 (broadcastInDim S50000x1 ![0] bcast_S50000_S50000x1_0 : (⟨S50000, .f32⟩ : BufTy).Contents (Elt F) → (⟨S50000x1, .f32⟩ : BufTy).Contents (Elt F)),
    StableHlo.nullary main_call1_cst_0 (constant S_ .f32 0x43000000#32),
    StableHlo.unary main_call1_cst_0 main_call1_v2 (broadcastInDim S50000x1 ![] bcast_S_S50000x1 : (⟨S_, .f32⟩ : BufTy).Contents (Elt F) → (⟨S50000x1, .f32⟩ : BufTy).Contents (Elt F)),
    StableHlo.binary main_call1_v1 main_call1_v2 main_call1_v3 (Host.divf : (⟨S50000x1, .f32⟩ : BufTy).Contents (Elt F) → (⟨S50000x1, .f32⟩ : BufTy).Contents (Elt F) → (⟨S50000x1, .f32⟩ : BufTy).Contents (Elt F)),
    StableHlo.unary main_call1_v3 main_call1_v4 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_call1_v4 main_call1_v5 (subf : (⟨S50000x128, .f32⟩ : BufTy).Contents (Elt F) → (⟨S50000x128, .f32⟩ : BufTy).Contents (Elt F) → (⟨S50000x128, .f32⟩ : BufTy).Contents (Elt F)),
    StableHlo.binary main_call1_v5 main_call1_v5 main_call1_v6 (mulf : (⟨S50000x128, .f32⟩ : BufTy).Contents (Elt F) → (⟨S50000x128, .f32⟩ : BufTy).Contents (Elt F) → (⟨S50000x128, .f32⟩ : BufTy).Contents (Elt F)),
    StableHlo.unary main_c_16 main_call1_v7 (sitofp .f32 : (⟨S_, .i32⟩ : BufTy).Contents (Elt F) → (⟨S_, .f32⟩ : BufTy).Contents (Elt F)),
    StableHlo.nullary main_call1_cst_1 (constant S_ .f32 0x43000000#32),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 (constant S_ .f32 0x00000000#32),
    StableHlo.binary main_call1_v6 main_call1_cst_2 main_call1_v9 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_call1_v9 main_call1_v10 (broadcastInDim S50000x1 ![0] bcast_S50000_S50000x1_0 : (⟨S50000, .f32⟩ : BufTy).Contents (Elt F) → (⟨S50000x1, .f32⟩ : BufTy).Contents (Elt F)),
    StableHlo.unary main_call1_v8 main_call1_v11 (broadcastInDim S50000x1 ![] bcast_S_S50000x1 : (⟨S_, .f32⟩ : BufTy).Contents (Elt F) → (⟨S50000x1, .f32⟩ : BufTy).Contents (Elt F)),
    StableHlo.binary main_call1_v10 main_call1_v11 main_call1_v12 (Host.divf : (⟨S50000x1, .f32⟩ : BufTy).Contents (Elt F) → (⟨S50000x1, .f32⟩ : BufTy).Contents (Elt F) → (⟨S50000x1, .f32⟩ : BufTy).Contents (Elt F)),
    StableHlo.nullary main_call1_cst_3 (constant S_ .f32 0x00000000#32),
    StableHlo.binary main_call1_v8 main_call1_cst_3 main_call1_v13 (cmpf .ogt : (⟨S_, .f32⟩ : BufTy).Contents (Elt F) → (⟨S_, .f32⟩ : BufTy).Contents (Elt F) → (⟨S_, .i1⟩ : BufTy).Contents (Elt F)),
    StableHlo.nullary main_call1_cst_4 (constant S_ .f32 0x7FC00000#32),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 (broadcastInDim S50000x1 ![] bcast_S_S50000x1 : (⟨S_, .f32⟩ : BufTy).Contents (Elt F) → (⟨S50000x1, .f32⟩ : BufTy).Contents (Elt F)),
    StableHlo.ternary main_call1_v13 main_call1_v12 main_call1_call0_v1 main_v96 ((fun p a b => select (broadcastInDim S50000x1 ![] bcast_S_S50000x1 p) a b) : (⟨S_, .i1⟩ : BufTy).Contents (Elt F) → (⟨S50000x1, .f32⟩ : BufTy).Contents (Elt F) → (⟨S50000x1, .f32⟩ : BufTy).Contents (Elt F) → (⟨S50000x1, .f32⟩ : BufTy).Contents (Elt F)),
    StableHlo.unary main_v95 main_v97 (broadcastInDim S50000x128 ![0, 1] bcast_S50000x1_S50000x128_0_1 : (⟨S50000x1, .f32⟩ : BufTy).Contents (Elt F) → (⟨S50000x128, .f32⟩ : BufTy).Contents (Elt F)),
    StableHlo.binary main_v91 main_v97 main_v98 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v99 (broadcastInDim S50000x1 ![] bcast_S_S50000x1 : (⟨S_, .f32⟩ : BufTy).Contents (Elt F) → (⟨S50000x1, .f32⟩ : BufTy).Contents (Elt F)),
    StableHlo.binary main_v96 main_v99 main_v100 (addf : (⟨S50000x1, .f32⟩ : BufTy).Contents (Elt F) → (⟨S50000x1, .f32⟩ : BufTy).Contents (Elt F) → (⟨S50000x1, .f32⟩ : BufTy).Contents (Elt F)),
    StableHlo.unary main_v100 main_v101 (Host.rsqrt : (⟨S50000x1, .f32⟩ : BufTy).Contents (Elt F) → (⟨S50000x1, .f32⟩ : BufTy).Contents (Elt F)),
    StableHlo.unary main_v101 main_v102 (broadcastInDim S50000x128 ![0, 1] bcast_S50000x1_S50000x128_0_1 : (⟨S50000x1, .f32⟩ : BufTy).Contents (Elt F) → (⟨S50000x128, .f32⟩ : BufTy).Contents (Elt F)),
    StableHlo.binary main_v98 main_v102 main_v103 (mulf : (⟨S50000x128, .f32⟩ : BufTy).Contents (Elt F) → (⟨S50000x128, .f32⟩ : BufTy).Contents (Elt F) → (⟨S50000x128, .f32⟩ : BufTy).Contents (Elt F)),
    StableHlo.unary main_arg14 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v105 main_v106 (mulf : (⟨S50000x128, .f32⟩ : BufTy).Contents (Elt F) → (⟨S50000x128, .f32⟩ : BufTy).Contents (Elt F) → (⟨S50000x128, .f32⟩ : BufTy).Contents (Elt F)),
    StableHlo.unary main_arg15 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v106 main_v108 main_v109 (addf : (⟨S50000x128, .f32⟩ : BufTy).Contents (Elt F) → (⟨S50000x128, .f32⟩ : BufTy).Contents (Elt F) → (⟨S50000x128, .f32⟩ : BufTy).Contents (Elt F)) ]

/-- @main's operations, in order. -/
abbrev ops : List (HloOp τ sig (Elt F)) := opsA ++ (opsB ++ (opsC ++ opsD))

/-- Running two lines one after the other folds the second over what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The fold over the whole list, stretch by stretch. -/
theorem after_ops (V : Valuation τ sig (Elt F)) :
    StableHlo.after ops V = StableHlo.after opsD (StableHlo.after opsC (StableHlo.after opsB (StableHlo.after opsA V))) := by
  simp only [ops, after_append]

set_option maxRecDepth 8192 in
set_option maxHeartbeats 4000000 in
/-- @main is that straight line: its three parts and the callees' bodies unfolded at their calls, both sides are one chain
    of host steps once sequencing is reassociated. -/
theorem main_eq (c : Dev nD) : main (F := F) c = StableHlo.seq ops := by
  simp only [ops, StableHlo.seq_append]
  simp only [main, main_part0, main_part1, main_part2, fn_relu.body, fn_var.body, fn_where.body, StableHlo.seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub ..⟩

theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub ..⟩

theorem opsC_sub : (opsC : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.reshape_bufs_sub ..⟩

theorem opsD_sub : (opsD : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

theorem ops_sub : (ops : List (HloOp τ sig (Elt F))).Forall fun op => op.bufs ⊆ StableHlo.tcRefs τ sig :=
  List.forall_append.mpr ⟨opsA_sub, List.forall_append.mpr ⟨opsB_sub, List.forall_append.mpr ⟨opsC_sub, opsD_sub⟩⟩⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · exact opsA_fresh op h
  rcases List.mem_append.mp h with h | h
  · exact opsB_fresh op h
  rcases List.mem_append.mp h with h | h
  · exact opsC_fresh op h
  · exact opsD_fresh op h

/-- From any memory with zero counters every weakly fair execution of @main terminates, and every final state has each
    TensorCore buffer at the operations' fold over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

end Cert.ReferenceIdeal.RefRun

end
-- ==== Proof.RRun.lean ====
/-
  The reference's run, read back. The program is the straight line of 154 host operations listed beside (its two
  outlined calls in line), so every weakly fair execution terminates with each buffer at the operations' fold over the
  launch contents. What the result buffer %109 holds is then computed stretch by stretch: the last stretch (%88 … %109)
  from any contents is the output projection and layer normalisation of what %87 holds; the first two stretches leave
  the scaled scores in %63; and the third stretch (%64 … %87), read over the contents the first two leave, gives the
  node sums from %63, the value projection %14 and the index words %16, %18 — each of which unfolds, over the first two
  stretches, to its composition from the argument arrays. No operation writes an argument buffer.
-/
import proofs.«408399_j1297080123525_4_alg».proof.ReferenceIdeal
import proofs.«408399_j1297080123525_4_alg».proof.Proof.Gen.ReferenceIdeal
import proofs.«408399_j1297080123525_4_alg».proof.Proof.Spec
import Idealize.ShloMosaic.Lib.StableHlo.Run
import proofs.«408399_j1297080123525_4_alg».proof.Proof.RLogits
import proofs.«408399_j1297080123525_4_alg».proof.Proof.RTail
import proofs.«408399_j1297080123525_4_alg».proof.Proof.RRun_Ops

noncomputable section

namespace Cert.ReferenceIdeal.RefRun

open Cert.ReferenceIdeal Idealize.ShloMosaic Idealize.ShloMosaic.TcCoe Idealize.SL.Sem Idealize.ShloMosaic.ValueIdx

/-- The reference's result as a function of its sixteen argument arrays. -/
def result (a0 : FVec Ideal S50000x64 .f32) (a1 : IVec S2x800000 32) (a2 : FVec Ideal S64x128 .f32) (a3 : FVec Ideal S128 .f32) (a4 : FVec Ideal S64x128 .f32) (a5 : FVec Ideal S128 .f32) (a6 : FVec Ideal S64x128 .f32) (a7 : FVec Ideal S128 .f32) (a8 : FVec Ideal S128x128 .f32) (a9 : FVec Ideal S128 .f32) (a10 : FVec Ideal S128x4 .f32) (a11 : FVec Ideal S4 .f32) (a12 : FVec Ideal S128x128 .f32) (a13 : FVec Ideal S128 .f32) (a14 : FVec Ideal S128 .f32) (a15 : FVec Ideal S128 .f32) : FVec Ideal S50000x128 .f32 :=
  Cert.ReferenceIdeal.RTail.refTail (Cert.ReferenceIdeal.RLogits.refLogits a0 a1 a2 a3 a4 a5 a8 a9 a10 a11) a0 a1 a6 a7 a12 a13 a14 a15

section Read

open Idealize.ShloMosaic.StableHlo

set_option maxRecDepth 8192 in
set_option maxHeartbeats 4000000 in
/-- The last stretch, from any contents: the result buffer ends at the output projection and layer normalisation of
    what the node-sum buffer holds, with the four parameter arrays it reads. -/
theorem norm_eq (X : Valuation τ sig (Elt Ideal)) :
    after (opsD (F := Ideal)) X (main_v109 : DevRef τ sig)
      = Cert.ReferenceIdeal.RNorm.refNorm (X (main_v87 : DevRef τ sig)) (X (main_arg12 : DevRef τ sig)) (X (main_arg13 : DevRef τ sig)) (X (main_arg14 : DevRef τ sig)) (X (main_arg15 : DevRef τ sig)) := by
  after_results_simp
  rfl

set_option maxRecDepth 8192 in
set_option maxHeartbeats 4000000 in
/-- The first two stretches leave the scaled scores of the argument arrays in %63. -/
theorem logits_eq (V : Valuation τ sig (Elt Ideal)) :
    after (opsB (F := Ideal)) (after (opsA (F := Ideal)) V) (main_v63 : DevRef τ sig)
      = Cert.ReferenceIdeal.RLogits.refLogits (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg8 : DevRef τ sig)) (V (main_arg9 : DevRef τ sig)) (V (main_arg10 : DevRef τ sig)) (V (main_arg11 : DevRef τ sig)) := by
  after_results_simp
  rfl

set_option maxRecDepth 8192 in
set_option maxHeartbeats 4000000 in
/-- After the whole line the result buffer holds `result` of the argument arrays: the last stretch is the
    normalisation of %87; the third stretch is read over the (named) contents the first two leave, where %63 is the scaled
    scores and every other buffer it reads unfolds to its composition from the arguments. -/
theorem out_eq (V : Valuation τ sig (Elt Ideal)) :
    after (ops (F := Ideal)) V (main_v109 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_ops, norm_eq]
  generalize hW : after (opsB (F := Ideal)) (after (opsA (F := Ideal)) V) = W
  after_results_simp
  subst hW
  rw [logits_eq]
  after_results_simp
  rfl

theorem arg0_eq (V : Valuation τ sig (Elt Ideal)) : after (ops (F := Ideal)) V (main_arg0 : DevRef τ sig) = V (main_arg0 : DevRef τ sig) := by
  rw [after_ops]; after_results_simp
theorem arg1_eq (V : Valuation τ sig (Elt Ideal)) : after (ops (F := Ideal)) V (main_arg1 : DevRef τ sig) = V (main_arg1 : DevRef τ sig) := by
  rw [after_ops]; after_results_simp
theorem arg2_eq (V : Valuation τ sig (Elt Ideal)) : after (ops (F := Ideal)) V (main_arg2 : DevRef τ sig) = V (main_arg2 : DevRef τ sig) := by
  rw [after_ops]; after_results_simp
theorem arg3_eq (V : Valuation τ sig (Elt Ideal)) : after (ops (F := Ideal)) V (main_arg3 : DevRef τ sig) = V (main_arg3 : DevRef τ sig) := by
  rw [after_ops]; after_results_simp
theorem arg4_eq (V : Valuation τ sig (Elt Ideal)) : after (ops (F := Ideal)) V (main_arg4 : DevRef τ sig) = V (main_arg4 : DevRef τ sig) := by
  rw [after_ops]; after_results_simp
theorem arg5_eq (V : Valuation τ sig (Elt Ideal)) : after (ops (F := Ideal)) V (main_arg5 : DevRef τ sig) = V (main_arg5 : DevRef τ sig) := by
  rw [after_ops]; after_results_simp
theorem arg6_eq (V : Valuation τ sig (Elt Ideal)) : after (ops (F := Ideal)) V (main_arg6 : DevRef τ sig) = V (main_arg6 : DevRef τ sig) := by
  rw [after_ops]; after_results_simp
theorem arg7_eq (V : Valuation τ sig (Elt Ideal)) : after (ops (F := Ideal)) V (main_arg7 : DevRef τ sig) = V (main_arg7 : DevRef τ sig) := by
  rw [after_ops]; after_results_simp
theorem arg8_eq (V : Valuation τ sig (Elt Ideal)) : after (ops (F := Ideal)) V (main_arg8 : DevRef τ sig) = V (main_arg8 : DevRef τ sig) := by
  rw [after_ops]; after_results_simp
theorem arg9_eq (V : Valuation τ sig (Elt Ideal)) : after (ops (F := Ideal)) V (main_arg9 : DevRef τ sig) = V (main_arg9 : DevRef τ sig) := by
  rw [after_ops]; after_results_simp
theorem arg10_eq (V : Valuation τ sig (Elt Ideal)) : after (ops (F := Ideal)) V (main_arg10 : DevRef τ sig) = V (main_arg10 : DevRef τ sig) := by
  rw [after_ops]; after_results_simp
theorem arg11_eq (V : Valuation τ sig (Elt Ideal)) : after (ops (F := Ideal)) V (main_arg11 : DevRef τ sig) = V (main_arg11 : DevRef τ sig) := by
  rw [after_ops]; after_results_simp
theorem arg12_eq (V : Valuation τ sig (Elt Ideal)) : after (ops (F := Ideal)) V (main_arg12 : DevRef τ sig) = V (main_arg12 : DevRef τ sig) := by
  rw [after_ops]; after_results_simp
theorem arg13_eq (V : Valuation τ sig (Elt Ideal)) : after (ops (F := Ideal)) V (main_arg13 : DevRef τ sig) = V (main_arg13 : DevRef τ sig) := by
  rw [after_ops]; after_results_simp
theorem arg14_eq (V : Valuation τ sig (Elt Ideal)) : after (ops (F := Ideal)) V (main_arg14 : DevRef τ sig) = V (main_arg14 : DevRef τ sig) := by
  rw [after_ops]; after_results_simp
theorem arg15_eq (V : Valuation τ sig (Elt Ideal)) : after (ops (F := Ideal)) V (main_arg15 : DevRef τ sig) = V (main_arg15 : DevRef τ sig) := by
  rw [after_ops]; after_results_simp

end Read

variable (m : (ℓ : Loc nD τ sig) → Buf (Elt Ideal) ℓ) (ρ : Dev nD → PrngReg)

/-- Every weakly fair execution of the reference terminates, nothing faulting, with its result array at `result` of
    the argument arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v109) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono (fun _ h c => ⟨(h c main_v109).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_after (F := Ideal) m ρ)

end Cert.ReferenceIdeal.RefRun

end
-- ==== Proof.PreFacts.lean ====
import proofs.«408399_j1297080123525_4_alg».proof.Pre_finite_inputs
import proofs.«408399_j1297080123525_4_alg».proof.Proof.Gen.Pre_finite_inputs
import proofs.«408399_j1297080123525_4_alg».proof.Proof.Spec
import Idealize.ShloMosaic.Lib.ReduceAll
import Idealize.ShloMosaic.Lib.StableHlo.Predicate
import Idealize.ShloMosaic.Lib.ValueIdx

noncomputable section

namespace Cert.PreFacts

open Cert.Pre_finite_inputs Idealize.ShloMosaic Idealize.ShloMosaic.ValueIdx

/-- The rank-0 index set has one element. -/
theorem subsingleton_S_ : Subsingleton S_.Idx := ⟨fun a b => funext fun d => d.elim0⟩

/-- The single-precision pattern with all exponent bits set and no significand bit denotes +∞. -/
theorem ofBits_inf : Ideal.ofBits .f32 0x7F800000#32 = (⊤ : EReal) := by
  simp [Ideal.ofBits, Ideal.ieee]

/-- An extended real whose absolute value max x (−x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition: when the all-reduction of |a| < +∞ answers 1, every entry of a is real. -/
theorem real_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ix0 = 1#1) (i : S.Idx) : ∃ r : ℝ, a i = (r : EReal) := by
  haveI := subsingleton_S_
  have h1 := Host.reduce_andi_all _ _ hr hu ix0 e i
  apply real_of_abs_lt_top
  have h2 : Ideal.cmp .olt (max (a i) (-(a i))) (Ideal.ofBits .f32 0x7F800000#32) = 1#1 := h1
  rw [ofBits_inf] at h2
  exact of_decide_eq_true ((StableHlo.Predicate.ofBool_eq_one_iff _).1 h2)

/-- The integer conjunct: when the all-reduction of (0 ≤ w) ∧ (w < 50000), compared signed, answers 1, every word of the
    edge list read signed lies in [0, 50000). -/
theorem range_of_all {axes : List (Fin S2x800000.rank)} (a1 : IVec S2x800000 32)
    (hb : S_.BroadcastsInDim S2x800000 (![] : Fin 0 → Fin S2x800000.rank)) (hr : S2x800000.ReducesTo axes S_) (hu : 0 < S_.numel)
    (e : Host.reduce IntOp.andi
      (andi (cmpi .sge a1 (broadcastInDim S2x800000 ![] hb (constantI S_ 32 0#32)))
        (cmpi .slt a1 (broadcastInDim S2x800000 ![] hb (constantI S_ 32 50000#32))))
      (constantI S_ 1 1#1) hr hu ix0 = 1#1) (i : S2x800000.Idx) : 0 ≤ (a1 i).toInt ∧ (a1 i).toInt < 50000 := by
  haveI := subsingleton_S_
  have h1 := Host.reduce_andi_all _ _ hr hu ix0 e i
  have h2 : IntOp.andi (IntOp.cmpi .sge (a1 i) 0#32) (IntOp.cmpi .slt (a1 i) 50000#32) = 1#1 := h1
  obtain ⟨h3, h4⟩ := IntOp.andi_eq_one.1 h2
  have h5 := IntOp.cmpi_sge.1 h3
  have h6 := IntOp.cmpi_slt.1 h4
  have z0 : (0#32 : BitVec 32).toInt = 0 := by decide
  have z1 : (50000#32 : BitVec 32).toInt = 50000 := by decide
  rw [z0] at h5
  rw [z1] at h6
  exact ⟨h5, h6⟩

/-- What the precondition says of the sixteen argument arrays: every float entry is a real number, and every word of
    the edge list, read signed, names a node. -/
theorem of_pre (a0 : FVec Ideal S50000x64 .f32) (a1 : IVec S2x800000 32) (a2 : FVec Ideal S64x128 .f32) (a3 : FVec Ideal S128 .f32) (a4 : FVec Ideal S64x128 .f32) (a5 : FVec Ideal S128 .f32) (a6 : FVec Ideal S64x128 .f32) (a7 : FVec Ideal S128 .f32) (a8 : FVec Ideal S128x128 .f32) (a9 : FVec Ideal S128 .f32) (a10 : FVec Ideal S128x4 .f32) (a11 : FVec Ideal S4 .f32) (a12 : FVec Ideal S128x128 .f32) (a13 : FVec Ideal S128 .f32) (a14 : FVec Ideal S128 .f32) (a15 : FVec Ideal S128 .f32)
    (h : Cert.Pre_finite_inputs.fn (F := Ideal) a0 a1 a2 a3 a4 a5 a6 a7 a8 a9 a10 a11 a12 a13 a14 a15 = fun _ => 1#1) :
    Cert.Spec.Real2 a0 ∧ Cert.Spec.InRange (Cert.Spec.srcOf a1) ∧ Cert.Spec.InRange (Cert.Spec.dstOf a1)
      ∧ Cert.Spec.Real2 a2 ∧ Cert.Spec.Real1 a3 ∧ Cert.Spec.Real2 a4 ∧ Cert.Spec.Real1 a5 ∧ Cert.Spec.Real2 a6 ∧ Cert.Spec.Real1 a7
      ∧ Cert.Spec.Real2 a8 ∧ Cert.Spec.Real1 a9 ∧ Cert.Spec.Real2 a10 ∧ Cert.Spec.Real1 a11 := by
  -- the predicate's single word is a left-nested conjunction of sixteen all-reductions, the edge list's last
  have h0 := congrFun h ix0
  dsimp only [fn, fn_part1, fn_part2, fn_part3, fn_part4] at h0
  obtain ⟨h0, e1⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fun i => real_of_all a0 _ _ _ e0 i,
    fun i => range_of_all a1 _ _ _ e1 (ix2 0 (i 0)),
    fun i => range_of_all a1 _ _ _ e1 (ix2 1 (i 0)),
    fun i => real_of_all a2 _ _ _ e2 i, fun i => real_of_all a3 _ _ _ e3 i,
    fun i => real_of_all a4 _ _ _ e4 i, fun i => real_of_all a5 _ _ _ e5 i,
    fun i => real_of_all a6 _ _ _ e6 i, fun i => real_of_all a7 _ _ _ e7 i,
    fun i => real_of_all a8 _ _ _ e8 i, fun i => real_of_all a9 _ _ _ e9 i,
    fun i => real_of_all a10 _ _ _ e10 i, fun i => real_of_all a11 _ _ _ e11 i⟩

end Cert.PreFacts

end
-- ==== Proof.Bridge.lean ====
import proofs.«408399_j1297080123525_4_alg».proof.Proof.Spec
import proofs.«408399_j1297080123525_4_alg».proof.Proof.LibReal
import Idealize.ShloMosaic.PureOps.Ideal.Laws
import Mathlib.Data.Finset.Fold
import Mathlib.Algebra.Order.BigOperators.Group.Finset

noncomputable section

open scoped BigOperators

namespace Cert.Bridge

open Cert.Spec Idealize.ShloMosaic Idealize.ShloMosaic.ValueIdx

/-! ## Which of the layer's arrays hold real numbers only -/

/-- A finite sum of products of two reals is a real. -/
theorem exists_real_sum_mul {ι : Type} (s : Finset ι) (f g : ι → EReal) (hf : ∀ k, ∃ r : ℝ, f k = (r : EReal))
    (hg : ∀ k, ∃ r : ℝ, g k = (r : EReal)) : ∃ r : ℝ, ∑ k ∈ s, f k * g k = (r : EReal) :=
  Cert.LibReal.exists_real_sum s _ fun k _ => by
    obtain ⟨a, ha⟩ := hf k
    obtain ⟨c, hc⟩ := hg k
    exact ⟨a * c, by rw [ha, hc, EReal.coe_mul]⟩

/-- Rows taken out of a table of reals are reals. -/
theorem real2_rows {m : Nat} {x : Arr2 50000 m} (hx : Real2 x) (idx : Idx1 800000) : Real2 (rows x idx) :=
  fun i => hx _

/-- An affine map with real coefficients sends real rows to real rows. -/
theorem real2_lin {n k m : Nat} {x : Arr2 n k} {W : Arr2 k m} {b : Arr1 m} (hx : Real2 x) (hW : Real2 W)
    (hb : Real1 b) : Real2 (lin x W b) := fun i => by
  obtain ⟨rb, hrb⟩ := hb (ix1 (i 1))
  obtain ⟨r, hr⟩ := exists_real_sum_mul Finset.univ (fun t : Fin k => x (ix2 (i 0) t)) (fun t => W (ix2 t (i 1)))
    (fun t => hx _) (fun t => hW _)
  refine ⟨r + rb, ?_⟩
  show (∑ t : Fin k, x (ix2 (i 0) t) * W (ix2 t (i 1))) + b (ix1 (i 1)) = _
  rw [hr, hrb, EReal.coe_add]

/-- The rectifier of a real is a real: it is the number or zero. -/
theorem real2_relu {n m : Nat} {a : Arr2 n m} (ha : Real2 a) : Real2 (relu a) := fun i => by
  obtain ⟨r, hr⟩ := ha i
  show ∃ t : ℝ, max (a i) 0 = (t : EReal)
  rcases le_total (a i) 0 with h | h
  · rw [max_eq_right h]; exact ⟨0, EReal.coe_zero.symm⟩
  · rw [max_eq_left h]; exact ⟨r, hr⟩

/-- Two matrices of reals side by side are a matrix of reals. -/
theorem real2_cat {a b : Arr2 800000 64} (ha : Real2 a) (hb : Real2 b) : Real2 (cat a b) := fun i => by
  unfold cat
  split
  · exact ha _
  · exact hb _

/-- The per-head inner products of real rows are reals. -/
theorem real2_headDot {q k : Arr2 800000 128} (hq : Real2 q) (hk : Real2 k) : Real2 (headDot q k) := fun i =>
  exists_real_sum_mul Finset.univ (fun c : Fin 32 => q (ix2 (i 0) (hd (i 1) c))) (fun c => k (ix2 (i 0) (hd (i 1) c)))
    (fun c => hq _) (fun c => hk _)

/-- The edge network's weights are reals. -/
theorem real2_edgeW {xs xd : Arr2 800000 64} {We1 : Arr2 128 128} {be1 : Arr1 128} {We2 : Arr2 128 4} {be2 : Arr1 4}
    (hxs : Real2 xs) (hxd : Real2 xd) (hWe1 : Real2 We1) (hbe1 : Real1 be1) (hWe2 : Real2 We2) (hbe2 : Real1 be2) :
    Real2 (edgeW xs xd We1 be1 We2 be2) :=
  real2_lin (real2_relu (real2_lin (real2_cat hxs hxd) hWe1 hbe1)) hWe2 hbe2

/-- The unscaled scores are reals. -/
theorem real2_scoreOf {xs xd : Arr2 800000 64} {Wq : Arr2 64 128} {bq : Arr1 128} {Wk : Arr2 64 128} {bk : Arr1 128}
    {We1 : Arr2 128 128} {be1 : Arr1 128} {We2 : Arr2 128 4} {be2 : Arr1 4}
    (hxs : Real2 xs) (hxd : Real2 xd) (hWq : Real2 Wq) (hbq : Real1 bq) (hWk : Real2 Wk) (hbk : Real1 bk)
    (hWe1 : Real2 We1) (hbe1 : Real1 be1) (hWe2 : Real2 We2) (hbe2 : Real1 be2) :
    Real2 (scoreOf xs xd Wq bq Wk bk We1 be1 We2 be2) := fun i => by
  obtain ⟨r, hr⟩ := real2_headDot (real2_lin hxd hWq hbq) (real2_lin hxs hWk hbk) i
  obtain ⟨t, ht⟩ := real2_edgeW hxs hxd hWe1 hbe1 hWe2 hbe2 i
  refine ⟨r * t, ?_⟩
  show headDot (lin xd Wq bq) (lin xs Wk bk) i * edgeW xs xd We1 be1 We2 be2 i = _
  rw [hr, ht, EReal.coe_mul]

/-- The scaled scores are reals. -/
theorem real2_logit {sc : Arr2 800000 4} (hsc : Real2 sc) : Real2 (logit sc) := fun i => by
  obtain ⟨r, hr⟩ := hsc (ix2 (i 1) (i 0))
  refine ⟨r * (2097152 / 11863283), ?_⟩
  show sc (ix2 (i 1) (i 0)) * cinv = _
  rw [hr, cinv, EReal.coe_mul]

/-- The layer's scaled scores are reals where its inputs are. -/
theorem real2_L {x : Arr2 50000 64} (src dst : Idx1 800000) {Wq : Arr2 64 128} {bq : Arr1 128} {Wk : Arr2 64 128}
    {bk : Arr1 128} {We1 : Arr2 128 128} {be1 : Arr1 128} {We2 : Arr2 128 4} {be2 : Arr1 4}
    (hx : Real2 x) (hWq : Real2 Wq) (hbq : Real1 bq) (hWk : Real2 Wk) (hbk : Real1 bk)
    (hWe1 : Real2 We1) (hbe1 : Real1 be1) (hWe2 : Real2 We2) (hbe2 : Real1 be2) :
    Real2 (L x src dst Wq bq Wk bk We1 be1 We2 be2) :=
  real2_logit (real2_scoreOf (real2_rows hx src) (real2_rows hx dst) hWq hbq hWk hbk hWe1 hbe1 hWe2 hbe2)

/-! ## The softmax's pieces -/

/-- There is an edge. -/
def e0 : Fin 800000 := ⟨0, by norm_num⟩

/-- A head's largest score is a real: it is below +∞ because every score is, and above −∞ because it is at least
    the first edge's score. -/
theorem mx_real {L : Arr2 4 800000} (hL : Real2 L) (h : Fin 4) : ∃ r : ℝ, mx L h = (r : EReal) := by
  have hlt : mx L h < ⊤ := by
    unfold mx
    rw [Finset.fold_max_lt]
    refine ⟨bot_lt_top, fun e _ => ?_⟩
    obtain ⟨r, hr⟩ := hL (ix2 h e)
    rw [hr]; exact EReal.coe_lt_top r
  have hgt : ⊥ < mx L h := by
    unfold mx
    rw [Finset.lt_fold_max]
    right
    refine ⟨e0, Finset.mem_univ _, ?_⟩
    obtain ⟨r, hr⟩ := hL (ix2 h e0)
    rw [hr]; exact EReal.bot_lt_coe r
  exact ⟨(mx L h).toReal, (EReal.coe_toReal hlt.ne hgt.ne').symm⟩

/-- Each shifted exponential is a positive real. -/
theorem ex_pos {L : Arr2 4 800000} (hL : Real2 L) (i : (⟨2, ![4, 800000]⟩ : Shape).Idx) :
    ∃ r : ℝ, 0 < r ∧ ex L i = (r : EReal) := by
  obtain ⟨a, ha⟩ := hL i
  obtain ⟨m, hm⟩ := mx_real hL (i 0)
  refine ⟨Real.exp (a - m), Real.exp_pos _, ?_⟩
  show Ideal.exp (L i - mx L (i 0)) = _
  rw [ha, hm, ← EReal.coe_sub, Ideal.exp_coe]

/-- A head's sum of shifted exponentials is a positive real: a sum of positive reals over a set that is not empty. -/
theorem den_pos {L : Arr2 4 800000} (hL : Real2 L) (h : Fin 4) : ∃ r : ℝ, 0 < r ∧ den L h = (r : EReal) := by
  choose g hg0 hg using fun e : Fin 800000 => ex_pos hL (ix2 h e)
  refine ⟨∑ e : Fin 800000, g e, Finset.sum_pos (fun e _ => hg0 e) ⟨e0, Finset.mem_univ _⟩, ?_⟩
  show ∑ e : Fin 800000, ex L (ix2 h e) = _
  rw [Cert.LibReal.coe_finset_sum]
  exact Finset.sum_congr rfl fun e _ => hg e

/-! ## The two orders of normalisation -/

/-- Over reals, with a positive real normaliser: the sum of a·p multiplied by 1/S is the sum of (p/S)·a. -/
theorem sum_mul_div_eq {ι : Type} (s : Finset ι) (a p : ι → EReal) (S : EReal)
    (ha : ∀ e, ∃ r : ℝ, a e = (r : EReal)) (hp : ∀ e, ∃ r : ℝ, p e = (r : EReal))
    (hS : ∃ r : ℝ, 0 < r ∧ S = (r : EReal)) :
    (0 + ∑ e ∈ s, a e * p e) * Ideal.div 1 S = 0 + ∑ e ∈ s, Ideal.div (p e) S * a e := by
  obtain ⟨t, ht0, rfl⟩ := hS
  choose a' ha' using ha
  choose p' hp' using hp
  have hsum : ∑ e ∈ s, a e * p e = ((∑ e ∈ s, a' e * p' e : ℝ) : EReal) := by
    rw [Cert.LibReal.coe_finset_sum]
    exact Finset.sum_congr rfl fun e _ => by rw [ha', hp', EReal.coe_mul]
  have hsum2 : ∑ e ∈ s, Ideal.div (p e) (t : EReal) * a e = ((∑ e ∈ s, p' e * (1 / t) * a' e : ℝ) : EReal) := by
    rw [Cert.LibReal.coe_finset_sum]
    exact Finset.sum_congr rfl fun e _ => by rw [Ideal.div_coe ht0.ne', ha', hp', EReal.coe_mul, EReal.coe_mul]
  rw [hsum, hsum2, Ideal.div_coe ht0.ne', zero_add, zero_add, one_mul, ← EReal.coe_mul, Finset.sum_mul]
  congr 1
  exact Finset.sum_congr rfl fun e _ => by ring

/-- The node sums of v·p scaled by 1/Σp are the node sums of (p/Σp)·v, where the value rows and the scores are
    reals. -/
theorem aggK_eq_aggR {v : Arr2 50000 128} (src dst : Idx1 800000) {L : Arr2 4 800000} (hv : Real2 v) (hL : Real2 L) :
    aggK v src dst L = aggR v src dst L := by
  funext i
  show (0 + ∑ e ∈ sel dst (i 0), rows v src (ix2 e (i 1)) * ex L (ix2 (hOf (i 1)) e)) * Ideal.div 1 (den L (hOf (i 1)))
    = 0 + ∑ e ∈ sel dst (i 0), Ideal.div (ex L (ix2 (hOf (i 1)) e)) (den L (hOf (i 1))) * rows v src (ix2 e (i 1))
  exact sum_mul_div_eq (sel dst (i 0)) (fun e => rows v src (ix2 e (i 1))) (fun e => ex L (ix2 (hOf (i 1)) e))
    (den L (hOf (i 1))) (fun e => real2_rows hv src _)
    (fun e => by obtain ⟨r, _, hr⟩ := ex_pos hL (ix2 (hOf (i 1)) e); exact ⟨r, hr⟩) (den_pos hL _)

/-- Over real inputs the two orders of normalisation give one layer: every value row, every shifted exponential and
    every head's sum of exponentials is a real number (the sum a positive one), where multiplication distributes over
    the node sum and p / s = p · (1 / s). -/
theorem outK_eq_outR (x : Cert.Spec.Arr2 50000 64) (src dst : Cert.Spec.Idx1 800000) (Wq : Cert.Spec.Arr2 64 128) (bq : Cert.Spec.Arr1 128) (Wk : Cert.Spec.Arr2 64 128) (bk : Cert.Spec.Arr1 128)
    (Wv : Cert.Spec.Arr2 64 128) (bv : Cert.Spec.Arr1 128) (We1 : Cert.Spec.Arr2 128 128) (be1 : Cert.Spec.Arr1 128) (We2 : Cert.Spec.Arr2 128 4) (be2 : Cert.Spec.Arr1 4)
    (Wo : Cert.Spec.Arr2 128 128) (bo : Cert.Spec.Arr1 128) (g b : Cert.Spec.Arr1 128)
    (hx : Real2 x) (hWq : Real2 Wq) (hbq : Real1 bq) (hWk : Real2 Wk) (hbk : Real1 bk) (hWv : Real2 Wv) (hbv : Real1 bv)
    (hWe1 : Real2 We1) (hbe1 : Real1 be1) (hWe2 : Real2 We2) (hbe2 : Real1 be2) :
    outK x src dst Wq bq Wk bk Wv bv We1 be1 We2 be2 Wo bo g b = outR x src dst Wq bq Wk bk Wv bv We1 be1 We2 be2 Wo bo g b := by
  unfold outK outR
  rw [aggK_eq_aggR src dst (real2_lin hx hWv hbv) (real2_L src dst hx hWq hbq hWk hbk hWe1 hbe1 hWe2 hbe2)]

end Cert.Bridge

end
-- ==== Proof.lean ====
/-
  A graph attention layer — per edge a query·key score weighted by a small edge network and scaled, a softmax of the
  scores over ALL edges per head, node sums of the softmax-weighted value rows, an output projection and a layer
  normalisation — computed by a program of four tiled kernels among host stretches, against a plain array program.

  At the extended reals the two agree where every float input is a real number and every word of the edge list names
  a node. The tiled program gathers the edges' rows first and projects them; the array program projects all nodes
  and gathers rows of the projections: one value, row by row. The tiled program scales a score by a constant NAMED as
  the reciprocal 2097152 / 11863283 of the word the array program divides by. It sums v·p over a node's edges and
  multiplies the sum by 1 / Σp; the array program sums (p / Σp)·v: equal because every term is a real number (the
  scores are finite sums of products of reals, the shifted exponentials positive reals, their sum over 800000 edges a
  positive real). The common formula is `Cert.Spec.outK` / `outR` (Proof/Spec.lean); each program's result array is
  read back to it (Proof/KValue.lean over the four regions and the host stretches between them; Proof/RLogits.lean and
  Proof/RTail.lean over the array program's run, Proof/RRun.lean), and Proof/Bridge.lean joins the two.
-/
import proofs.«408399_j1297080123525_4_alg».proof.Defs
import proofs.«408399_j1297080123525_4_alg».proof.Proof.Gen.Kernel
import proofs.«408399_j1297080123525_4_alg».proof.Proof.Gen.Kernel.Skeleton
import proofs.«408399_j1297080123525_4_alg».proof.Proof.Gen.Kernel.Launch
import proofs.«408399_j1297080123525_4_alg».proof.Proof.Gen.Kernel.Points
import proofs.«408399_j1297080123525_4_alg».proof.Proof.Gen.Kernel.Frame
import proofs.«408399_j1297080123525_4_alg».proof.Proof.Gen.KernelIdeal
import proofs.«408399_j1297080123525_4_alg».proof.Proof.Gen.KernelIdeal.Skeleton
import proofs.«408399_j1297080123525_4_alg».proof.Proof.Gen.KernelIdeal.Launch
import proofs.«408399_j1297080123525_4_alg».proof.Proof.Gen.KernelIdeal.Points
import proofs.«408399_j1297080123525_4_alg».proof.Proof.Gen.KernelIdeal.Frame
import proofs.«408399_j1297080123525_4_alg».proof.Proof.Gen.ReferenceIdeal
import proofs.«408399_j1297080123525_4_alg».proof.Proof.Gen.Pre_finite_inputs
import proofs.«408399_j1297080123525_4_alg».proof.Proof.KRun
import proofs.«408399_j1297080123525_4_alg».proof.Proof.KValue
import proofs.«408399_j1297080123525_4_alg».proof.Proof.RRun
import proofs.«408399_j1297080123525_4_alg».proof.Proof.PreFacts
import proofs.«408399_j1297080123525_4_alg».proof.Proof.Bridge
import Idealize.ShloMosaic.Adequacy
import Idealize.ShloMosaic.Init

noncomputable section

namespace Cert.Proof

open Idealize.ShloMosaic Idealize.SL.Sem

/-- The array program's result, read back, is the layer with the normalisation before the node sum: its scaled
    scores entry by entry (`refLogits_apply`), then its tail over them (`refTail_eq`). -/
theorem result_eq (a0 : FVec Ideal Cert.ReferenceIdeal.S50000x64 .f32) (a1 : IVec Cert.ReferenceIdeal.S2x800000 32) (a2 : FVec Ideal Cert.ReferenceIdeal.S64x128 .f32) (a3 : FVec Ideal Cert.ReferenceIdeal.S128 .f32) (a4 : FVec Ideal Cert.ReferenceIdeal.S64x128 .f32) (a5 : FVec Ideal Cert.ReferenceIdeal.S128 .f32) (a6 : FVec Ideal Cert.ReferenceIdeal.S64x128 .f32) (a7 : FVec Ideal Cert.ReferenceIdeal.S128 .f32) (a8 : FVec Ideal Cert.ReferenceIdeal.S128x128 .f32) (a9 : FVec Ideal Cert.ReferenceIdeal.S128 .f32) (a10 : FVec Ideal Cert.ReferenceIdeal.S128x4 .f32) (a11 : FVec Ideal Cert.ReferenceIdeal.S4 .f32) (a12 : FVec Ideal Cert.ReferenceIdeal.S128x128 .f32) (a13 : FVec Ideal Cert.ReferenceIdeal.S128 .f32) (a14 : FVec Ideal Cert.ReferenceIdeal.S128 .f32) (a15 : FVec Ideal Cert.ReferenceIdeal.S128 .f32) :
    Cert.ReferenceIdeal.RefRun.result a0 a1 a2 a3 a4 a5 a6 a7 a8 a9 a10 a11 a12 a13 a14 a15
      = Cert.Spec.outR a0 (Cert.Spec.srcOf a1) (Cert.Spec.dstOf a1) a2 a3 a4 a5 a6 a7 a8 a9 a10 a11 a12 a13 a14 a15 := by
  unfold Cert.ReferenceIdeal.RefRun.result
  rw [Cert.ReferenceIdeal.RTail.refTail_eq _ a0 a1 a6 a7 a12 a13 a14 a15
    (Cert.Spec.L a0 (Cert.Spec.srcOf a1) (Cert.Spec.dstOf a1) a2 a3 a4 a5 a8 a9 a10 a11)
    (fun e h => Cert.ReferenceIdeal.RLogits.refLogits_apply a0 a1 a2 a3 a4 a5 a8 a9 a10 a11 e h)]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- The named scale denotes the rational the table gives it, at each of the four places the kernel uses it. -/
theorem named_scale : IdealRules.named_const.Statement Cert.KernelIdeal.κ "inv_sqrt_hd" .f32 0x3E3504F3#32 ((2097152 / 11863283 : ℝ) : EReal) :=
  IdealRules.named_const.statement Cert.KernelIdeal.κ "inv_sqrt_hd" .f32 0x3E3504F3#32 ((2097152 / 11863283 : ℝ) : EReal) rfl

theorem preserves : Cert.preserves_Kernel_KernelIdeal := ⟨named_scale, named_scale, named_scale, named_scale⟩

/-- Both programs end at the layer's formula of the (agreeing) argument arrays: the tiled program at `outK`, the
    array program at `outR`, one array over real inputs. -/
theorem algebraic : Cert.algebraic_KernelIdeal_ReferenceIdeal := by
  intro m ρ m' ρ' hpre hagree
  refine ⟨fun c => Cert.Spec.outK (m ((c.tc : Thread Cert.KernelIdeal.nD Cert.KernelIdeal.τ).loc Cert.KernelIdeal.main_arg0)) (Cert.Spec.srcOf (m ((c.tc : Thread Cert.KernelIdeal.nD Cert.KernelIdeal.τ).loc Cert.KernelIdeal.main_arg1))) (Cert.Spec.dstOf (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩)
      (Cert.KernelIdeal.KRun.run (F := Ideal) m ρ)
    obtain ⟨-, hs, hd, -⟩ := Cert.PreFacts.of_pre _ _ _ _ _ _ _ _ _ _ _ _ _ _ _ _ (hpre c)
    exact Cert.KernelIdeal.KValue.value m ρ c hs hd
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9, e10, e11, e12, e13, e14, e15⟩ := hagree c
    obtain ⟨hx, -, -, hWq, hbq, hWk, hbk, hWv, hbv, hWe1, hbe1, hWe2, hbe2⟩ :=
      Cert.PreFacts.of_pre _ _ _ _ _ _ _ _ _ _ _ _ _ _ _ _ (hpre c)
    rw [e0, e1, e2, e3, e4, e5, e6, e7, e8, e9, e10, e11, e12, e13, e14, e15, result_eq]
    exact (Cert.Bridge.outK_eq_outR _ _ _ _ _ _ _ _ _ _ _ _ _ _ _ _ _ hx hWq hbq hWk hbk hWv hbv hWe1 hbe1 hWe2 hbe2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
